-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x128 : Shape := ⟨4, ![4, 8, 2048, 128]⟩
abbrev S8x2048x128 : Shape := ⟨3, ![8, 2048, 128]⟩
abbrev S8x2048x2048 : Shape := ⟨3, ![8, 2048, 2048]⟩
abbrev S_ : Shape := ⟨0, ![]⟩

class Facts : Prop where
  bcast_S_S4x8x2048x128 : S_.BroadcastsInDim S4x8x2048x128 (![] : Fin 0 → Fin S4x8x2048x128.rank)
  reducesTo_S4x8x2048x128_S_d0_1_2_3 : S4x8x2048x128.ReducesTo [0, 1, 2, 3] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn_part1 {F : FTy → Type} [FloatOps F] (main_arg4 : FVec F S8x2048x2048 .f32) (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  let main_v19 : FVec F S8x2048x2048 .f32 := Host.absf main_arg4
  let main_cst_6 : FVec F S_ .f32 := constant S_ .f32 0x7F800000#32
  let main_v20 : FVec F S8x2048x2048 .f32 := broadcastInDim S8x2048x2048 ![] bcast_S_S8x2048x2048 main_cst_6
  let main_v21 : IVec S8x2048x2048 1 := cmpf .olt main_v19 main_v20
  let main_c_7 : IVec S_ 1 := constantI S_ 1 1#1
  let main_v22 : IVec S_ 1 := (fun x v => Host.reduce IntOp.andi x v reducesTo_S8x2048x2048_S_d0_1_2 h_S_) main_v21 main_c_7
  let main_v23 : IVec S_ 1 := andi main_v18 main_v22
  main_v23

def fn {F : FTy → Type} [FloatOps F] (main_arg0 : FVec F S4x8x2048x128 .f32) (main_arg1 : FVec F S4x8x2048x128 .f32) (main_arg2 : FVec F S8x2048x128 .f32) (main_arg3 : FVec F S8x2048x2048 .f32) (main_arg4 : FVec F S8x2048x2048 .f32) : IVec S_ 1 :=
  let main_v0 : FVec F S4x8x2048x128 .f32 := Host.absf main_arg0
  let main_cst : FVec F S_ .f32 := constant S_ .f32 0x7F800000#32
  let main_v1 : FVec F S4x8x2048x128 .f32 := broadcastInDim S4x8x2048x128 ![] bcast_S_S4x8x2048x128 main_cst
  let main_v2 : IVec S4x8x2048x128 1 := cmpf .olt main_v0 main_v1
  let main_c : IVec S_ 1 := constantI S_ 1 1#1
  let main_v3 : IVec S_ 1 := (fun x v => Host.reduce IntOp.andi x v reducesTo_S4x8x2048x128_S_d0_1_2_3 h_S_) main_v2 main_c
  let main_v4 : FVec F S4x8x2048x128 .f32 := Host.absf main_arg1
  let main_cst_0 : FVec F S_ .f32 := constant S_ .f32 0x7F800000#32
  let main_v5 : FVec F S4x8x2048x128 .f32 := broadcastInDim S4x8x2048x128 ![] bcast_S_S4x8x2048x128 main_cst_0
  let main_v6 : IVec S4x8x2048x128 1 := cmpf .olt main_v4 main_v5
  let main_c_1 : IVec S_ 1 := constantI S_ 1 1#1
  let main_v7 : IVec S_ 1 := (fun x v => Host.reduce IntOp.andi x v reducesTo_S4x8x2048x128_S_d0_1_2_3 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_arg4 main_v13 main_v16
-- ==== Kernel.lean ====
abbrev S4x8x2048x128 : Shape := ⟨4, ![4, 8, 2048, 128]⟩
abbrev S8x2048x128 : Shape := ⟨3, ![8, 2048, 128]⟩
abbrev S8x2048x2048 : Shape := ⟨3, ![8, 2048, 2048]⟩
abbrev S32x2048x128 : Shape := ⟨3, ![32, 2048, 128]⟩
abbrev S32x1x1 : Shape := ⟨3, ![32, 1, 1]⟩
abbrev S1x2048x128 : Shape := ⟨3, ![1, 2048, 128]⟩
abbrev S1x1x1 : Shape := ⟨3, ![1, 1, 1]⟩
abbrev S1x2048 : Shape := ⟨2, ![1, 2048]⟩
abbrev S1 : Shape := ⟨1, ![1]⟩
abbrev S1x1 : Shape := ⟨2, ![1, 1]⟩
abbrev S_ : Shape := ⟨0, ![]⟩
abbrev S8x1x1 : Shape := ⟨3, ![8, 1, 1]⟩
abbrev S1x256x2048 : Shape := ⟨3, ![1, 256, 2048]⟩
abbrev S1x256 : Shape := ⟨2, ![1, 256]⟩
abbrev S1x256x128 : Shape := ⟨3, ![1, 256, 128]⟩
abbrev S256x128 : Shape := ⟨2, ![256, 128]⟩
abbrev S2048x128 : Shape := ⟨2, ![2048, 128]⟩
abbrev S128x2048 : Shape := ⟨2, ![128, 2048]⟩
abbrev S256x2048 : Shape := ⟨2, ![256, 2048]⟩
abbrev S256 : Shape := ⟨1, ![256]⟩
abbrev S2048 : Shape := ⟨1, ![2048]⟩
abbrev S256x1 : Shape := ⟨2, ![256, 1]⟩

abbrev nBuf : Space → Nat
  | .hbm => 35
  | .vmem => 20
  | .smem => 0
  | _ => 0

abbrev bufTy : (tb : Table) → Fin (tcTables nBuf tb) → BufTy
  | .hbm, ⟨0, _⟩ => ⟨S4x8x2048x128, .f32⟩
  | .hbm, ⟨1, _⟩ => ⟨S4x8x2048x128, .f32⟩
  | .hbm, ⟨2, _⟩ => ⟨S8x2048x128, .f32⟩
  | .hbm, ⟨3, _⟩ => ⟨S8x2048x2048, .f32⟩
  | .hbm, ⟨4, _⟩ => ⟨S8x2048x2048, .f32⟩
  | .hbm, ⟨5, _⟩ => ⟨S32x2048x128, .f32⟩
  | .hbm, ⟨6, _⟩ => ⟨S32x2048x128, .f32⟩
  | .hbm, ⟨7, _⟩ => ⟨S32x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x1x1, .f32⟩
  | .hbm, ⟨13, _⟩ => ⟨S8x1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x1x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x1x1, .f32⟩
  | .local _ .vmem, ⟨5, _⟩ => ⟨S1x1x1, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x256x128, .f32⟩
  | .local _ .vmem, ⟨15, _⟩ => ⟨S1x256x128, .f32⟩
  | .local _ .vmem, ⟨16, _⟩ => ⟨S1x2048x128, .f32⟩
  | .local _ .vmem, ⟨17, _⟩ => ⟨S1x2048x128, .f32⟩
  | .local _ .vmem, ⟨18, _⟩ => ⟨S1x1x1, .f32⟩
  | .local _ .vmem, ⟨19, _⟩ => ⟨S1x1x1, .f32⟩
  | _, _ => ⟨S4x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_cst_6 : Ref sig .tc := ⟨.hbm, 26, rfl⟩
abbrev main_v13 : Ref sig .tc := ⟨.hbm, 27, rfl⟩
abbrev main_v14 : Ref sig .tc := ⟨.hbm, 28, rfl⟩
abbrev main_cst_7 : Ref sig .tc := ⟨.hbm, 29, rfl⟩
abbrev main_v15 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  shapeCasts_S4x8x2048x128_S32x2048x128 : S4x8x2048x128.ShapeCasts S32x2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S1x2048x128 : S1x2048x128.ShapeCasts S1x2048x128
  reduces_S1x2048x128_S1x2048 : S1x2048x128.Reduces [2] S1x2048
  reduces_S1x2048_S1 : S1x2048.Reduces [1] S1
  shapeCasts_S1_S1x1 : S1.ShapeCasts S1x1
  reduces_S1x1_S1 : S1x1.Reduces [1] S1
  inpos_S1x1_p0_0 : ∀ a, (![0, 0] : Fin 2 → Nat) a < S1x1.size a
  inb_S1x1x1_S1x1x1_0_0_0 : ∀ a, (![0, 0, 0] : Fin 3 → Nat) a + S1x1x1.size a ≤ S1x1x1.size a
  h_S1x1x1 : 0 < S1x1x1.numel
  reducesTo_S32x1x1_S_d0_1_2 : S32x1x1.ReducesTo [0, 1, 2] S_
  h_S_ : 0 < S_.numel
  inb_S1x256x2048_S1x256x2048_0_0_0 : ∀ a, (![0, 0, 0] : Fin 3 → Nat) a + S1x256x2048.size a ≤ S1x256x2048.size a
  h_S1x256x2048 : 0 < S1x256x2048.numel
  reduces_S1x256x2048_S1x256 : S1x256x2048.Reduces [2] S1x256
  reduces_S1x256_S1 : S1x256.Reduces [1] S1
  iota_S1x256x2048_d1_w32 : S1x256x2048.Iotas .tc 32 [1]
  iota_S1x256x2048_d2_w32 : S1x256x2048.Iotas .tc 32 [2]
  natLt_1_32 : 1 < 32
  shapeCasts_S1x1x1_S1x1x1 : S1x1x1.ShapeCasts S1x1x1
  reducesTo_S8x1x1_S_d0_1_2 : S8x1x1.ReducesTo [0, 1, 2] S_
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S1x2048x128_S2048x128 : S1x2048x128.ShapeCasts S2048x128
  bitsLt_bf16_f32 : FTy.bits .bf16 < FTy.bits .f32
  transposes_S2048x128_p1_0_S128x2048 : S2048x128.Transposes [1, 0] S128x2048
  reduces_S256x128_S256 : S256x128.Reduces [1] S256
  reduces_S2048x128_S2048 : S2048x128.Reduces [1] S2048
  shapeCasts_S256_S256x1 : S256.ShapeCasts S256x1
  shapeCasts_S2048_S1x2048 : S2048.ShapeCasts S1x2048
  broadcasts_S256x1_S256x2048 : S256x1.Broadcasts S256x2048
  broadcasts_S1x2048_S256x2048 : S1x2048.Broadcasts S256x2048
  iota_S256x2048_d0_w32 : S256x2048.Iotas .tc 32 [0]
  iota_S256x2048_d1_w32 : S256x2048.Iotas .tc 32 [1]
  reduces_S256x2048_S256 : S256x2048.Reduces [1] S256
  shapeCasts_S256_S1x256 : S256.ShapeCasts S1x256
  dot_S256x128_S128x2048_S256x2048_1_0_0_1_n_n_wf : DotDims.WF S256x128 S128x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x2048x128.size a
  hwx0_0 : ∀ i : grid0.Coords, EltTy.bits .f32 = 32 ∨ (Rect.block (s := S32x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S32x1x1.size a
  hwx0_2 : ∀ i : grid0.Coords, EltTy.bits .f32 = 32 ∨ (Rect.block (s := S32x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S8x2048x2048.size a
  hwx1_0 : ∀ i : grid1.Coords, EltTy.bits .f32 = 32 ∨ (Rect.block (s := S8x2048x2048) S1x256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x2048.size a ≤ S8x2048x2048.size a
  hwx1_1 : ∀ i : grid1.Coords, EltTy.bits .f32 = 32 ∨ (Rect.block (s := S8x2048x2048) S1x256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S8x1x1.size a
  hwx1_2 : ∀ i : grid1.Coords, EltTy.bits .f32 = 32 ∨ (Rect.block (s := S8x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S8x1x1.size a
  hwx1_3 : ∀ i : grid1.Coords, EltTy.bits .f32 = 32 ∨ (Rect.block (s := S8x1x1) S1x1x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x128.size a ≤ S8x2048x128.size a
  hwx2_0 : ∀ i : grid2.Coords, EltTy.bits .f32 = 32 ∨ (Rect.block (s := S8x2048x128) S1x256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x128.size a ≤ S8x2048x128.size a
  hwx2_1 : ∀ i : grid2.Coords, EltTy.bits .f32 = 32 ∨ (Rect.block (s := S8x2048x128) S1x2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1.size a ≤ S8x1x1.size a
  hwx2_2 : ∀ i : grid2.Coords, EltTy.bits .f32 = 32 ∨ (Rect.block (s := S8x1x1) S1x1x1.size (cc2_transform_2 i) (hinb2_2 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf

abbrev win0_0 : Pipeline.Window sig grid0 :=
  Pipeline.Window.ofSpec (Memref.whole main_v0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S1x1x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1x2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x8x2048x128 : Shape := ⟨4, ![4, 8, 2048, 128]⟩
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048x2048 : Shape := ⟨2, ![2048, 2048]⟩
abbrev S1x2048x2048 : Shape := ⟨3, ![1, 2048, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x8x2048x128, .f32⟩
  | .hbm, ⟨1, _⟩ => ⟨S4x8x2048x128, .f32⟩
  | .hbm, ⟨2, _⟩ => ⟨S8x2048x128, .f32⟩
  | .hbm, ⟨3, _⟩ => ⟨S8x2048x2048, .f32⟩
  | .hbm, ⟨4, _⟩ => ⟨S8x2048x2048, .f32⟩
  | .hbm, ⟨5, _⟩ => ⟨S4x8x2048x128, .f32⟩
  | .hbm, ⟨6, _⟩ => ⟨S4x8x2048x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x128, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048x2048, .f32⟩
  | .hbm, ⟨16, _⟩ => ⟨S8x2048x1, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S2048x2048, .f32⟩
  | .hbm, ⟨31, _⟩ => ⟨S8x2048x2048, .f32⟩
  | .hbm, ⟨32, _⟩ => ⟨S8x2048x2048, .f32⟩
  | .hbm, ⟨33, _⟩ => ⟨S1x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  reducesTo_S4x8x2048x128_S_d0_1_2_3 : S4x8x2048x128.ReducesTo [0, 1, 2, 3] S_
  h_S_ : 0 < S_.numel
  reducesTo_S8x2048x128_S8x2048_d2 : S8x2048x128.ReducesTo [2] S8x2048
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S_d0_1_2 : S8x2048x2048.ReducesTo [0, 1, 2] S_
  dot_S8x2048x128_S8x2048x128_S8x2048x2048_2_2_1_1_0_0_wf : DotDims.WF S8x2048x128 S8x2048x128 S8x2048x2048 [2] [2] [1] [1] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf

class Facts : Prop extends Facts₀ where

variable [Facts]
-- ==== Proof.K.R0.lean ====
import proofs.«142973_j34608846471207_1_alg».proof.Proof.Gen.Kernel.Launch
import proofs.«142973_j34608846471207_1_alg».proof.Proof.Gen.Kernel.Skeleton
import proofs.«142973_j34608846471207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Frm
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER (the launch instantiates it)
variable (V : (c : Dev nD) → (b : Ref sig .tc) → Buf (Elt F) ((c : Thread nD τ).loc b))

/-! # The first region: per slab, the sum of squared differences of two arrays

Grid of 32 points. At point t the two input windows hold slab t (a 1×2048×128 block) of their arrays, and the
output window's 1×1×1 block is overwritten with the sum over the slab of the squared difference. -/

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's buffer holds its block at every point, for any proof data whose array is the
    entry contents and whose body leaves the block in place: the window is uncut and never idle, so a point that
    does not fetch has the previous point's block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the second input window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole slab: what each of the two loads reads. -/
abbrev r0_0 : Rect S1x2048x128 := Rect.unit (s := S1x2048x128) ![0, 0, 0] S1x2048x128.size inb_S1x2048x128_S1x2048x128_0_0_0
/-- The whole one-word output block: what the store writes. -/
abbrev r0_2 : Rect S1x1x1 := Rect.unit (s := S1x1x1) ![0, 0, 0] S1x1x1.size inb_S1x1x1_S1x1x1_0_0_0

/-! ## What the body leaves in the output window's buffer -/

/-- The output buffer after the body, from the two input blocks: its one store, of the payload of the two loads. -/
def out0_2 (x0 x1 : Vec F S1x2048x128 .f32) : Vec F S1x1x1 .f32 :=
  View.canon [⟨r0_2, k0_pay1 (View.ld x0 r0_0) (View.ld x1 r0_0)⟩]

/-- The one store covers the one-word buffer. -/
theorem cover0_2 (p0 : Vec F S1x1x1 .f32) (y : S1x1x1.Idx) :
    ∃ pc ∈ ([⟨r0_2, p0⟩] : List (View.Piece (Elt F) S1x1x1 .f32)), y ∈ pc.1.set :=
  View.cover_of_tiled [⟨r0_2, p0⟩] S1x1x1.size (by rfl) y

/-! ## The body's triple -/

set_option maxHeartbeats 1000000 in
/-- The body on whole staging memrefs, the inputs' at read contents x0, x1 and the output's at anything, runs to the
    continuation holding the inputs' as they were and the output's at out0_2 of the inputs'. The body reads the
    output buffer once before storing to it; that value is not used. -/
theorem sound_kernel0 (c : Dev nD) (E : Set ℕ) (i : grid0.Coords)
    (arg1 : Memref sig .tc .vmem S1x2048x128 .f32) (harg1 : arg1.IsWhole)
    (arg2 : Memref sig .tc .vmem S1x2048x128 .f32) (harg2 : arg2.IsWhole)
    (arg3 : Memref sig .tc .vmem S1x1x1 .f32) (harg3 : arg3.IsWhole)
    (x0 x1 : Vec F S1x2048x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__views_mse_kernel i arg1 harg1 arg2 harg2 arg3 harg3) K := by
  simp only [cc0__views_mse_kernel_eq_skeleton]; unfold cc0__views_mse_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core c: the arrays as the region finds them; after the body at point t each input's buffer
    at its block and the output's at out0_2 of the two input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm
end
-- ==== Proof.K.R1Runs.lean ====
/-
  Region 1 (the graph losses), what its two control cases share.

  The grid is 8 × 8, the batch outermost: point t has coordinates (t / 8, t % 8). Windows 0 and 1 are the two
  graphs' row tiles (256 × 2048 of batch b), fetched at every point; windows 2 and 3 are the two one-word outputs
  of batch b, carried across the eight row tiles and zeroed at the first of them.
-/
import proofs.«142973_j34608846471207_1_alg».proof.Proof.Gen.Kernel.Launch
import proofs.«142973_j34608846471207_1_alg».proof.Proof.Gen.Kernel.Skeleton
import proofs.«142973_j34608846471207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Frm
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER (the launch instantiates it)
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first graph's tile is in its staging buffer at every point: the window is fetched everywhere, uncut and
    never idle, and the body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second graph's tile likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- "This is the first row tile of its batch": the body's one conditional, from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 8): decided over the 64 points. -/
theorem hcond1_0 : ∀ t : Fin cfg1.N, cond1_0 (grid1.coords t) ↔ t.val % 8 = 0 :=
  (by decide +kernel : ∀ t : Fin grid1.N, cond1_0 (grid1.coords t) ↔ t.val % 8 = 0)

/-! ## The outputs' staging buffers -/

/-- One staging buffer of each output window, through which its contents are stated (which of the two does not
    matter: what a covering list of pieces reads back does not depend on the buffer). -/
abbrev VO1_2 : View sig .tc .vmem S1x1x1 .f32 := (Memref.whole cc1_stg2_0 : Memref sig .tc .vmem S1x1x1 .f32).view
abbrev VO1_3 : View sig .tc .vmem S1x1x1 .f32 := (Memref.whole cc1_stg3_0 : Memref sig .tc .vmem S1x1x1 .f32).view

/-- Each window's current staging memref at point t, and its wholeness. -/
abbrev ms1_0 (t : Fin cfg1.N) : Memref sig .tc .vmem S1x256x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)

end Cert.Kernel.Frm

end
-- ==== Proof.K.R1A.lean ====
/-
  Region 1, the body's whole run in case A: the first row tile of a batch (the conditional taken): both outputs are zeroed, then added to.
-/
import proofs.«142973_j34608846471207_1_alg».proof.Proof.K.R1Runs
set_option maxRecDepth 16384
noncomputable section
namespace Cert.Kernel.Frm
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER (the launch instantiates it)
variable (V : (c : Dev nD) → (b : Ref sig .tc) → Buf (Elt F) ((c : Thread nD τ).loc b))

set_option maxHeartbeats 1000000 in
/-- What the body's stores leave in the two outputs' staging memrefs, as pieces (last first), with the proof that
    on whole staging memrefs — the two tiles at their contents x0 x1, the two outputs at anything —
    the body runs to the continuation holding the tiles as they were and each output's buffer with its pieces
    written. The pieces are the witness the run finds. -/
noncomputable def kernelRun1_A (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : cond1_0 i)
    (x0 : Vec F S1x256x2048 .f32) (x1 : Vec F S1x256x2048 .f32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__graph_kernel i arg2 harg2 arg3 harg3 arg4 harg4 arg5 harg5) K } := by
  refine ⟨?_, ?_, fun E K => ?run⟩
  case run =>
    simp only [cc1__graph_kernel_eq_skeleton]; unfold cc1__graph_kernel_skel
    simp only [k1_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Frm

end
-- ==== Proof.K.R1B.lean ====
/-
  Region 1, the body's whole run in case B: a later row tile of a batch (the conditional not taken): both outputs are added to at what the tile before left.
-/
import proofs.«142973_j34608846471207_1_alg».proof.Proof.K.R1A
set_option maxRecDepth 16384
noncomputable section
namespace Cert.Kernel.Frm
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER (the launch instantiates it)
variable (V : (c : Dev nD) → (b : Ref sig .tc) → Buf (Elt F) ((c : Thread nD τ).loc b))

set_option maxHeartbeats 1000000 in
/-- What the body's stores leave in the two outputs' staging memrefs, as pieces (last first), with the proof that
    on whole staging memrefs — the two tiles at their contents x0 x1, the two outputs at their running contents xo2 xo3 —
    the body runs to the continuation holding the tiles as they were and each output's buffer with its pieces
    written. The pieces are the witness the run finds. -/
noncomputable def kernelRun1_B (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond1_0 i)
    (x0 : Vec F S1x256x2048 .f32) (x1 : Vec F S1x256x2048 .f32) (xo2 : Vec F S1x1x1 .f32) (xo3 : Vec F S1x1x1 .f32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__graph_kernel i arg2 harg2 arg3 harg3 arg4 harg4 arg5 harg5) K } := by
  refine ⟨?_, ?_, fun E K => ?run⟩
  case run =>
    simp only [cc1__graph_kernel_eq_skeleton]; unfold cc1__graph_kernel_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Frm

end
-- ==== Proof.K.R1.lean ====
/-
  Region 1, the rest of its frame side: what the two outputs hold case by case and point by point, the proof
  data, and the body obligation.
-/
import proofs.«142973_j34608846471207_1_alg».proof.Proof.K.R1B
set_option maxRecDepth 16384
noncomputable section
namespace Cert.Kernel.Frm
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER (the launch instantiates it)
variable (V : (c : Dev nD) → (b : Ref sig .tc) → Buf (Elt F) ((c : Thread nD τ).loc b))

/-! ## What each case leaves in the outputs -/

/-- Case A's pieces for output 2 tile its one-word block, so they cover it. -/
theorem cover1_A_2 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : cond1_0 i)
    (x0 : Vec F S1x256x2048 .f32) (x1 : Vec F S1x256x2048 .f32) (y : S1x1x1.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1x1x1.size (by sl_kernel_rfl) y

/-- What case A leaves in output 2's staging buffer (the squared-difference sum of the tile, over zero): its pieces read back. -/
def out1_A_2 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : cond1_0 i)
    (x0 : Vec F S1x256x2048 .f32) (x1 : Vec F S1x256x2048 .f32) : Vec F S1x1x1 .f32 :=
  VO1_2.read (Elt F) (VO1_2.writes (Elt F) VO1_2.junk (kernelRun1_A c i arg2 harg2 arg3 harg3 arg4 harg4 arg5 harg5 hc0 x0 x1).1)

/-- Case A's pieces for output 3 tile its one-word block, so they cover it. -/
theorem cover1_A_3 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : cond1_0 i)
    (x0 : Vec F S1x256x2048 .f32) (x1 : Vec F S1x256x2048 .f32) (y : S1x1x1.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S1x1x1.size (by sl_kernel_rfl) y

/-- What case A leaves in output 3's staging buffer (the absolute-deviation sum of the tile, over zero): its pieces read back. -/
def out1_A_3 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : cond1_0 i)
    (x0 : Vec F S1x256x2048 .f32) (x1 : Vec F S1x256x2048 .f32) : Vec F S1x1x1 .f32 :=
  VO1_3.read (Elt F) (VO1_3.writes (Elt F) VO1_3.junk (kernelRun1_A c i arg2 harg2 arg3 harg3 arg4 harg4 arg5 harg5 hc0 x0 x1).2.1)

/-- Case B's pieces for output 2 tile its one-word block, so they cover it. -/
theorem cover1_B_2 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond1_0 i)
    (x0 : Vec F S1x256x2048 .f32) (x1 : Vec F S1x256x2048 .f32) (xo2 : Vec F S1x1x1 .f32) (xo3 : Vec F S1x1x1 .f32) (y : S1x1x1.Idx) :
    ∃ pc ∈ (kernelRun1_B c i arg2 harg2 arg3 harg3 arg4 harg4 arg5 harg5 hc0 x0 x1 xo2 xo3).1, y ∈ pc.1.set :=
  View.cover_of_tiledL (kernelRun1_B c i arg2 harg2 arg3 harg3 arg4 harg4 arg5 harg5 hc0 x0 x1 xo2 xo3).1 S1x1x1.size (by sl_kernel_rfl) y

/-- What case B leaves in output 2's staging buffer (the tile's squared-difference sum added to the running word): its pieces read back. -/
def out1_B_2 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond1_0 i)
    (x0 : Vec F S1x256x2048 .f32) (x1 : Vec F S1x256x2048 .f32) (xo2 : Vec F S1x1x1 .f32) (xo3 : Vec F S1x1x1 .f32) : Vec F S1x1x1 .f32 :=
  VO1_2.read (Elt F) (VO1_2.writes (Elt F) VO1_2.junk (kernelRun1_B c i arg2 harg2 arg3 harg3 arg4 harg4 arg5 harg5 hc0 x0 x1 xo2 xo3).1)

/-- Case B's pieces for output 3 tile its one-word block, so they cover it. -/
theorem cover1_B_3 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond1_0 i)
    (x0 : Vec F S1x256x2048 .f32) (x1 : Vec F S1x256x2048 .f32) (xo2 : Vec F S1x1x1 .f32) (xo3 : Vec F S1x1x1 .f32) (y : S1x1x1.Idx) :
    ∃ pc ∈ (kernelRun1_B c i arg2 harg2 arg3 harg3 arg4 harg4 arg5 harg5 hc0 x0 x1 xo2 xo3).2.1, y ∈ pc.1.set :=
  View.cover_of_tiledL (kernelRun1_B c i arg2 harg2 arg3 harg3 arg4 harg4 arg5 harg5 hc0 x0 x1 xo2 xo3).2.1 S1x1x1.size (by sl_kernel_rfl) y

/-- What case B leaves in output 3's staging buffer (the tile's absolute-deviation sum added to the running word): its pieces read back. -/
def out1_B_3 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond1_0 i)
    (x0 : Vec F S1x256x2048 .f32) (x1 : Vec F S1x256x2048 .f32) (xo2 : Vec F S1x1x1 .f32) (xo3 : Vec F S1x1x1 .f32) : Vec F S1x1x1 .f32 :=
  VO1_3.read (Elt F) (VO1_3.writes (Elt F) VO1_3.junk (kernelRun1_B c i arg2 harg2 arg3 harg3 arg4 harg4 arg5 harg5 hc0 x0 x1 xo2 xo3).2.1)

/-! ## What the outputs hold after each point -/

/-- THE ACCUMULATION. The two outputs' staging buffers after the body at position n: at the first row tile of a
    batch, case A on the point's tiles; at a later one, case B on the point's tiles over what position n - 1 left
    (the buffers are not written back in between). -/
def outsAt1 (c : Dev nD) : (n : ℕ) → n < cfg1.N → Vec F S1x1x1 .f32 × Vec F S1x1x1 .f32
  | 0, hn =>
    (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩),
     out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩))
  | n + 1, hn =>
    if h0 : (n + 1) % 8 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩),
       out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2,
       out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2)

/-- At a first row tile: case A's contents. -/
theorem outsAt1_A (c : Dev nD) (t : Fin cfg1.N) (h0 : t.val % 8 = 0) :
    outsAt1 V c t.val t.isLt =
      (out1_A_2 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t),
       out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)) := by
  obtain ⟨n, hn⟩ := t
  cases n with
  | zero => exact rfl
  | succ n => exact (dif_pos h0).trans rfl

/-- At a later row tile: case B's contents, over what the point before left. -/
theorem outsAt1_B (c : Dev nD) (t : Fin cfg1.N) (h0 : ¬t.val % 8 = 0) :
    outsAt1 V c t.val t.isLt =
      (out1_B_2 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2,
       out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 1 on core c: the arrays as the region finds them; after the body at point t each
    tile's buffer at its tile and the two outputs' at the accumulation; the scoped rest and the generator register
    as the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

/-- Each tile's current staging buffer holds its tile at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later row tile the first output's staging buffer holds what the body left at the point before: the point
    is not the first, and the buffer is written back only after a batch's last tile. -/
theorem before1_2_B (c : Dev nD) (t : Fin cfg1.N) (h0 : ¬t.val % 8 = 0) (d) :
    (dat1 V c).before 2 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-- The second output likewise. -/
theorem before1_3_B (c : Dev nD) (t : Fin cfg1.N) (h0 : ¬t.val % 8 = 0) (d) :
    (dat1 V c).before 3 t d = (outsAt1 V c (t.val - 1) (Nat.lt_of_le_of_lt (Nat.sub_le _ _) t.isLt)).2 := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the tiles' memrefs hold their tiles; the closed form says which case the point is in;
    at a later row tile each output's memref holds what the point before left; so that case's run applies, and the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  have hN : t.val < 64 := lt_of_lt_of_eq t.isLt (show cfg1.N = 64 from N_1)
  by_cases h0 : t.val % 8 = 0
  · rw [outsAt1_A V c t h0]
    dsimp only
    unfold out1_A_2 out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _)
    unfold owns; iexists _; isplitr
    swap; · iexact H3
    ipureintro; exact View.read_writes_of_cover _ _ _ _ _ (cover1_A_3 c _ _ _ _ _ _ _ _ _ _ _ _)
  · rw [outsAt1_B V c t h0]
    dsimp only
    simp only [before1_2_B V c t h0, before1_3_B V c t h0]
    unfold out1_B_2 out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _)
    unfold owns; iexists _; isplitr
    swap; · iexact H3
    ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.R2Runs.lean ====
import proofs.«142973_j34608846471207_1_alg».proof.Proof.Gen.Kernel.Launch
import proofs.«142973_j34608846471207_1_alg».proof.Proof.Gen.Kernel.Skeleton
import proofs.«142973_j34608846471207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 2: the cosine kernel over an 8 × 8 grid; what its two cases share -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the 256-row tile) holds its block at every point: it is fetched at every point, and the body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (all 2048 rows of the batch) holds its block at every point, fetched there or not: between two
    fetches its block index does not move and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional (the reset of the accumulator), from the grid coordinates: the
    row-tile coordinate is zero. -/
abbrev cond2_0 (i : grid2.Coords) : Prop := (Scalar.cmpi .ne (Scalar.extui (Scalar.cmpi .eq (BitVec.ofNat 32 (i 1).val) 0#32)) 0#32) = 1#1
/-- It holds at the first row tile of each batch — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-! ## The staging memrefs -/

/-- One staging buffer of output window 2, through which its contents are stated (the choice does not matter). -/
abbrev VO2_2 : View sig .tc .vmem S1x1x1 .f32 := (Memref.whole cc2_stg2_0 : Memref sig .tc .vmem S1x1x1 .f32).view
/-- Each window's current staging memref at point `t`, as the pipeline passes it, and its wholeness. -/
abbrev ms2_0 (t : Fin cfg2.N) : Memref sig .tc .vmem S1x256x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x1 .f32 := win2_2.stage (cfg2.slots t 2)
abbrev hs2_2 (t : Fin cfg2.N) : (ms2_2 t).IsWhole := hstage2_2 ((cfg2.slots t 2).cast nbuf2_2)

end Cert.Kernel.Frm

end
-- ==== Proof.K.R2A.lean ====
import proofs.«142973_j34608846471207_1_alg».proof.Proof.K.R2Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- What the body's stores leave in the accumulator's staging memref, as pieces (last first), at a point where the
    row-tile coordinate is zero (the accumulator is reset, then the tile's sum is added), with the proof that on
    whole staging memrefs — the two inputs' at their contents, the accumulator's at anything — the body runs to the
    continuation holding the inputs' as they were and the accumulator's buffer with these pieces written. -/
noncomputable def kernelRun2_A (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : cond2_0 i)
    (x0 : Vec F S1x256x128 .f32) (x1 : Vec F S1x2048x128 .f32) :
    { L2 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc2__cos_kernel i arg2 harg2 arg3 harg3 arg4 harg4) K } := by
  refine ⟨?_, fun E K => ?run⟩
  case run =>
    simp only [cc2__cos_kernel_eq_skeleton]; unfold cc2__cos_kernel_skel
    simp only [k2_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frm

end
-- ==== Proof.K.R2B.lean ====
import proofs.«142973_j34608846471207_1_alg».proof.Proof.K.R2A

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- What the body's stores leave in the accumulator's staging memref, as pieces (last first), at a point where the
    row-tile coordinate is not zero (the tile's sum is added to the running contents `xo2`), with the proof that on
    whole staging memrefs — the two inputs' at their contents, the accumulator's at `xo2` — the body runs to the
    continuation holding the inputs' as they were and the accumulator's buffer with these pieces written. -/
noncomputable def kernelRun2_B (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : ¬cond2_0 i)
    (x0 : Vec F S1x256x128 .f32) (x1 : Vec F S1x2048x128 .f32) (xo2 : Vec F S1x1x1 .f32) :
    { L2 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc2__cos_kernel i arg2 harg2 arg3 harg3 arg4 harg4) K } := by
  refine ⟨?_, fun E K => ?run⟩
  case run =>
    simp only [cc2__cos_kernel_eq_skeleton]; unfold cc2__cos_kernel_skel
    simp only [k2_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frm

end
-- ==== Proof.K.R2.lean ====
import proofs.«142973_j34608846471207_1_alg».proof.Proof.K.R2B

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 2: what the accumulator holds point by point, the proof data, the body obligation -/

/-- Where the accumulator is reset, its two stores (the zero word, then the zero word plus the tile's sum) each
    fill the one-word block, so they cover it. -/
theorem cover2_A_2 (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : cond2_0 i)
    (x0 : Vec F S1x256x128 .f32) (x1 : Vec F S1x2048x128 .f32) (y : S1x1x1.Idx) :
    ∃ pc ∈ (kernelRun2_A c i arg2 harg2 arg3 harg3 arg4 harg4 hc0 x0 x1).1, y ∈ pc.1.set :=
  View.cover_of_tiledL (kernelRun2_A c i arg2 harg2 arg3 harg3 arg4 harg4 hc0 x0 x1).1 S1x1x1.size (by sl_kernel_rfl) y

/-- What a resetting point leaves in the accumulator's staging buffer: its pieces read back over junk. -/
def out2_A_2 (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : cond2_0 i)
    (x0 : Vec F S1x256x128 .f32) (x1 : Vec F S1x2048x128 .f32) : Vec F S1x1x1 .f32 :=
  VO2_2.read (Elt F) (VO2_2.writes (Elt F) VO2_2.junk (kernelRun2_A c i arg2 harg2 arg3 harg3 arg4 harg4 hc0 x0 x1).1)

/-- Where the accumulator is carried, its one store (the running contents plus the tile's sum) fills the one-word
    block, so it covers it. -/
theorem cover2_B_2 (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : ¬cond2_0 i)
    (x0 : Vec F S1x256x128 .f32) (x1 : Vec F S1x2048x128 .f32) (xo2 : Vec F S1x1x1 .f32) (y : S1x1x1.Idx) :
    ∃ pc ∈ (kernelRun2_B c i arg2 harg2 arg3 harg3 arg4 harg4 hc0 x0 x1 xo2).1, y ∈ pc.1.set :=
  View.cover_of_tiledL (kernelRun2_B c i arg2 harg2 arg3 harg3 arg4 harg4 hc0 x0 x1 xo2).1 S1x1x1.size (by sl_kernel_rfl) y

/-- What a carrying point leaves in the accumulator's staging buffer: its pieces read back over junk. -/
def out2_B_2 (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : ¬cond2_0 i)
    (x0 : Vec F S1x256x128 .f32) (x1 : Vec F S1x2048x128 .f32) (xo2 : Vec F S1x1x1 .f32) : Vec F S1x1x1 .f32 :=
  VO2_2.read (Elt F) (VO2_2.writes (Elt F) VO2_2.junk (kernelRun2_B c i arg2 harg2 arg3 harg3 arg4 harg4 hc0 x0 x1 xo2).1)

/-! ## What the accumulator holds after each point -/

/-- The accumulation. What the accumulator's staging buffer holds after the body at position `n`: at the first row
    tile of a batch the reset case on the point's two input blocks; at a later row tile the carried case on the
    point's two input blocks and on what this leaves at `n - 1` (the buffer is not written back between). -/
def outsAt2 (c : Dev nD) : (n : ℕ) → n < cfg2.N → Vec F S1x1x1 .f32
  | 0, hn => out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) ((hcond2_0 ⟨0, hn⟩).mpr (Nat.zero_mod _)) (iblk2 V c 0 ⟨0, hn⟩) (iblk2 V c 1 ⟨0, hn⟩)
  | n + 1, hn =>
    if h0 : (n + 1) % 8 = 0 then
      out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) ((hcond2_0 ⟨n + 1, hn⟩).mpr h0) (iblk2 V c 0 ⟨n + 1, hn⟩) (iblk2 V c 1 ⟨n + 1, hn⟩)
    else
      out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (fun h => h0 ((hcond2_0 ⟨n + 1, hn⟩).mp h)) (iblk2 V c 0 ⟨n + 1, hn⟩) (iblk2 V c 1 ⟨n + 1, hn⟩) (outsAt2 c n (Nat.lt_of_succ_lt hn))

/-- `outsAt2` at a resetting point: that case's contents. -/
theorem outsAt2_A (c : Dev nD) (t : Fin cfg2.N) (h0 : t.val % 8 = 0) :
    outsAt2 V c t.val t.isLt = out2_A_2 c (grid2.coords t) (ms2_0 t) (hs2_0 t) (ms2_1 t) (hs2_1 t) (ms2_2 t) (hs2_2 t) ((hcond2_0 t).mpr h0) (iblk2 V c 0 t) (iblk2 V c 1 t) := by
  obtain ⟨n, hn⟩ := t
  cases n with
  | zero => exact rfl
  | succ n => exact (dif_pos h0).trans rfl

/-- `outsAt2` at a carrying point: that case's contents, over what the point before left. -/
theorem outsAt2_B (c : Dev nD) (t : Fin cfg2.N) (h0 : ¬t.val % 8 = 0) :
    outsAt2 V c t.val t.isLt = out2_B_2 c (grid2.coords t) (ms2_0 t) (hs2_0 t) (ms2_1 t) (hs2_1 t) (ms2_2 t) (hs2_2 t) (fun h => h0 ((hcond2_0 t).mp h)) (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 2 on core `c`: the arrays as the region finds them; after the body at point `t` each
    input's buffer at its block and the accumulator's at `outsAt2`; the invariant the scoped rest and the generator
    register; nothing owed. The one array the two input windows read is held at two halves, the left by the row
    tile's window and the right by the whole batch's; the output array outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q w := match w with
    | ⟨0, _⟩ => fullShare.left
    | ⟨1, _⟩ => fullShare.right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- The shares at which the shared array is held by its two windows. -/
theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outsAt2 V c t.val t.isLt := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a carrying point the accumulator's current staging buffer holds what the body left at the point before: the
    point is not the first, and the buffer was not written back between (write-backs happen at the last row tile
    of a batch only). -/
theorem before2_2_B (c : Dev nD) (t : Fin cfg2.N) (h0 : ¬t.val % 8 = 0) (d) :
    (dat2 V c).before 2 t d = outsAt2 V c (t.val - 1) (Nat.lt_of_le_of_lt (Nat.sub_le _ _) t.isLt) := by
  have hN : t.val < 64 := lt_of_lt_of_eq t.isLt (show cfg2.N = 64 from N_2)
  rw [Dat.before_out_kept _ 2 rfl t (by omega) (Bool.eq_false_iff.mpr fun h => by have := (flush2_2 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the inputs' memrefs hold their blocks; the closed form of the condition says which case
    the point is in; at a carrying point the accumulator holds what the point before left; so the case's run applies;
    the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 64 := lt_of_lt_of_eq t.isLt (show cfg2.N = 64 from N_2)
  by_cases h0 : t.val % 8 = 0
  · rw [outsAt2_A V c t h0]
    unfold out2_A_2
    iintro ⟨HΦ, Ho, ⟨%d0, H0⟩, ⟨%d1, H1⟩, ⟨%d2, H2⟩⟩
    iapply ((kernelRun2_A c (grid2.coords t) _ _ _ _ _ _ ((hcond2_0 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A_2 c _ _ _ _ _ _ _ _ _ _)
  · rw [outsAt2_B V c t h0]
    simp only [before2_2_B V c t h0]
    unfold out2_B_2
    iintro ⟨HΦ, Ho, ⟨%d0, H0⟩, ⟨%d1, H1⟩, ⟨%d2, H2⟩⟩
    iapply ((kernelRun2_B c (grid2.coords t) _ _ _ _ _ _ (fun h => h0 ((hcond2_0 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.Run.lean ====
/-
  The whole program run: four stretches of host operations around three kernel regions.

  Between two items every buffer that outlives a region holds a known value, a fold from the launch memory; each
  region is entered from the fold's value before it and left at the value after it, its own arrays cut out of the
  buffers at entry and put back at exit. The third region reads one array through two windows, so at its entry that
  array's ownership is cut into two halves and at its exit the halves are joined. At the end every outliving
  buffer — the five arguments and every host value, the five results among them — holds the fold's last value:
  each argument its launch contents, each result its host operations applied to the arrays the regions wrote.
-/
import proofs.«142973_j34608846471207_1_alg».proof.Proof.K.R0
import proofs.«142973_j34608846471207_1_alg».proof.Proof.K.R1
import proofs.«142973_j34608846471207_1_alg».proof.Proof.K.R2
import proofs.«142973_j34608846471207_1_alg».proof.Proof.Gen.Kernel.Regions
import proofs.«142973_j34608846471207_1_alg».proof.Proof.Gen.Kernel.Skeleton
import proofs.«142973_j34608846471207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items of the program

Between two items every buffer that outlives a kernel region holds a known value: the launch contents, then what
each stretch of host operations computes from the contents before it, and after a kernel region the same
contents but for the arrays the region writes, which hold what the region's write-backs leave. -/

/-- At launch. -/
abbrev W0 : Dev nD → Valuation τ sig (Elt F) := fun c b => m (c, b)
/-- After the two reshapes: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: the 32 per-slab sums of squares are in place. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host's sum and quotient of the first loss: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region: the per-batch sums of squared and of absolute differences are in place. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host's sums, root and quotients of the two graph losses: the third region's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third region: the per-batch cosine sums are in place. The region's two input windows read one
    array, the embeddings, which it leaves as it found it; the one array it writes is its result. -/
def W6 (c : Dev nD) : Valuation τ sig (Elt F) :=
  Function.update (W5 m c) (Proc.devRef .tc main_v11) ((dat2 (V5 m) c).arrAt 2 cfg2.N)
abbrev V6 : (c : Dev nD) → (b : Ref sig .tc) → Buf (Elt F) ((c : Thread nD τ).loc b) := fun c b => W6 m c b
theorem W6_v11 (c : Dev nD) : W6 m c (Proc.devRef .tc main_v11) = (dat2 (V5 m) c).arrAt 2 cfg2.N := by
  unfold W6; exact Function.update_self ..
theorem W6_of_ne (c : Dev nD) (b : Ref sig .tc) (hb : b ≠ main_v11) :
    W6 m c (Proc.devRef .tc b) = W5 m c (Proc.devRef .tc b) := by
  unfold W6; exact Function.update_of_ne (StableHlo.devRef_ne_of_ne hb) ..
/-- After the host's last sum, quotient and the weighted total: the end. -/
abbrev W7 : Dev nD → Valuation τ sig (Elt F) := fun c => StableHlo.after hostOps3 (W6 m c)

/-! ## The proof data of the three regions, and what rides beside the buffers -/

abbrev adm' : (p : Fin 3) → (pcfgs (F := F) p).Adm := fun p => (cfgs p).toPCfg_adm
/-- Each region's proof data at the contents it is entered with. -/
def pdats : (p : Fin 3) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
  | ⟨2, _⟩ => fun c => dat2 (V5 m) c
abbrev 𝒱₀ : Variants := Variants.none
abbrev L₀ : GSem nD τ sig → Finset Unit := fun _ => ∅
abbrev lv₀ : GSem nD τ sig → Unit → ℕ := fun _ _ => 0
/-- Beside the buffers: the generator register at some state and the core owing nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as items of the program -/

set_option backward.isDefEq.respectTransparency.types false in
/-- The first region: entered with every outliving buffer at `W1`, left with them at `W2`. -/
def reg0 : Pipeline.RegionSeg (pcfgs (F := F)) adm' (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L₀ lv₀ 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every outliving buffer at `W3`, left with them at `W4`. -/
def reg1 : Pipeline.RegionSeg (pcfgs (F := F)) adm' (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L₀ lv₀ 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The third region's arrays: one array behind two windows

The embeddings are read through two input windows, a 256-row tile and the whole batch. The region holds that
array as two halves of its ownership, one per window, at the same contents; at the region's entry the whole is cut
in two, and at its exit, both halves still holding what they held, the two are put together again. -/

/-- The buffers behind the third region's windows are two: the embeddings and the region's result. -/
theorem img2 : (Finset.univ.image (Pipeline.arrRef spec2) : Finset (Ref sig .tc)) = {main_arg2, main_v11} := by decide

/-- The two buffers, each whole at the full share at a valuation's contents, are the region's three arrays at
    contents that agree with the valuation: the embeddings' two halves, and the result whole. -/
theorem arrBufs2_iff (c : Dev nD) (Vv : (b : Ref sig .tc) → Buf (Elt F) ((c : Thread nD τ).loc b))
    (dat : Dat τ (Elt F) Unit ℕ (UR sig nD τ) ℕ cfg2 c) (hq0 : dat.q 0 = fullShare.left) (hq1 : dat.q 1 = fullShare.right)
    (Fn : (w : Fin cfg2.W) → Buf (Elt F) ((cfg2.win w).arr.view.loc (c : Thread nD τ)))
    (hF : ∀ w, Fn w = Vv (Pipeline.arrRef spec2 w)) :
    (Pipeline.arrBufs spec2 c Vv : sProp 𝕄) ⊣⊢ dat.arrays Fn := by
  have e0 : dat.share 0 = fullShare.left := by unfold Dat.share; rw [← hq0]; rfl
  have e1 : dat.share 1 = fullShare.right := by unfold Dat.share; rw [← hq1]; rfl
  have e2 : dat.share 2 = fullShare := by unfold Dat.share; rfl
  have hs : (((c : Thread nD τ).loc main_arg2) ↦{fullShare} Vv main_arg2 : sProp 𝕄)
      ⊣⊢ iprop((((c : Thread nD τ).loc main_arg2) ↦{fullShare.left} Vv main_arg2) ∗ (((c : Thread nD τ).loc main_arg2) ↦{fullShare.right} Vv main_arg2)) :=
    pointsTo_share (PosShare.mem_left_op_right fullShare)
  unfold Pipeline.arrBufs Dat.arrays
  rw [img2, BI.bigSep_insert (by decide), BI.bigSep_singleton, bigSep_W2, e0, e1, e2,
    (arr_whole2 0).set_eq_univ, (arr_whole2 2).set_eq_univ, hF 0, hF 1, hF 2]
  show (iprop((((c : Thread nD τ).loc main_arg2) ↦{fullShare} Vv main_arg2) ∗ (((c : Thread nD τ).loc main_v11) ↦{fullShare} Vv main_v11)) : sProp 𝕄) ⊣⊢ _
  constructor
  · iintro ⟨Ha, Hv⟩
    ihave Hh := hs.1 $$ Ha
    icases Hh with ⟨Hl, Hr⟩
    isplitl [Hl]; · iexact Hl
    isplitl [Hr]; · iexact Hr
    iexact Hv
  · iintro ⟨Hl, Hr, Hv⟩
    isplitl [Hl Hr]
    · iapply hs.2; isplitl [Hl] <;> iassumption
    iexact Hv

set_option backward.isDefEq.respectTransparency.types false in
/-- The third region: entered with every outliving buffer at `W5`, left with them at `W6`. -/
def reg2 : Pipeline.RegionSeg (pcfgs (F := F)) adm' (pdats m) () defs₀ 𝒱₀ L₀ lv₀ 2 where
  win := winFacts₀2
  block_pos := block_pos2
  stage_whole := stage_whole2
  K := PEmpty
  osem k := k.elim
  ho := Pipeline.OwnSemFacts.none _
  hbody c := (body_obligation2 (V5 m) c).loose
  hwaits := Pipeline.hwaits_of_owed_zero _ _ _ _ L₀ lv₀ 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit : (unscopedBufs c (V5 m c) : sProp 𝕄)
        ⊢ iprop((pdats m 2 c).arrays ((pdats m 2 c).arrAt · 0) ∗ Pipeline.unscopedRest spec2 c (V5 m c)) := by
      rw [Pipeline.unscopedBufs_split₀ (Pipeline.pin (pcfgs (F := F)) adm') 2 winFacts₀2.arr_unscoped c (V5 m c)]
      exact sep_mono (arrBufs2_iff c (V5 m c) (pdats m 2 c) (q2_0 (V5 m) c) (q2_1 (V5 m) c) _ (fun w => A_eq2 (V5 m) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hF : ∀ w, (pdats m 2 c).arrAt w cfg2.N = V6 m c (Pipeline.arrRef spec2 w) := fun w => by
      match w with
      | ⟨0, _⟩ => exact (((pdats m 2 c).arrAt_in 0 rfl _).trans (A_eq2 (V5 m) c 0)).trans (W6_of_ne m c main_arg2 (by decide)).symm
      | ⟨1, _⟩ => exact (((pdats m 2 c).arrAt_in 1 rfl _).trans (A_eq2 (V5 m) c 1)).trans (W6_of_ne m c main_arg2 (by decide)).symm
      | ⟨2, _⟩ => exact (W6_v11 m c).symm
    have hjoin : iprop((pdats m 2 c).arrays ((pdats m 2 c).arrAt · cfg2.N) ∗ Pipeline.unscopedRest spec2 c (V5 m c))
        ⊢ (unscopedBufs c (V6 m c) : sProp 𝕄) := by
      rw [Pipeline.unscopedBufs_split₀ (Pipeline.pin (pcfgs (F := F)) adm') 2 winFacts₀2.arr_unscoped c (V6 m c)]
      refine sep_mono (arrBufs2_iff c (V6 m c) (pdats m 2 c) (q2_0 (V5 m) c) (q2_1 (V5 m) c) _ hF).2 (Entails.of_eq ?_)
      unfold Pipeline.unscopedRest
      exact bigSep_congr fun b hb => by
        rw [show V6 m c b = V5 m c b from W6_of_ne m c b fun e =>
          (Finset.mem_sdiff.mp hb).2 (e ▸ Finset.mem_image.mpr ⟨2, Finset.mem_univ _, rfl⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the launch -/

abbrev segs : List (Pipeline.Seg (pcfgs (F := F)) adm' (pdats m) () defs₀ 𝒱₀ L₀ lv₀) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- From any memory with zero counters every weakly fair execution of the program terminates, nothing faulting,
    and every buffer that outlives the kernel regions — the arguments and every host value — ends at the contents
    `W7` names: the launch contents folded through the four host stretches and the three regions. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm' (pdats m) () cellOf_inj emb₁ defs₀ 𝒱₀ L₀ lv₀ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ Rr c) ⊢ _
      iintro ⟨Hh, Hp, HO⟩
      isplitl [Hh Hp]
      · isplitl [Hh] <;> iassumption
      iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## What the arguments and the results hold at the end

No host stretch writes an argument and a region only reads one, so each argument's buffer walks back through the
fold to the launch memory. A result is its host operations applied to what the regions left: the first loss to the
first region's 32 sums, the two graph losses to the second region's two arrays of 8 sums, the cosine loss to the
third region's 8 sums, and the total to those four. -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W7_of (c : Dev nD) (r : Ref sig .tc) (h : r ∉ hostOps3_W) : W7 m c (Proc.devRef .tc r) = W6 m c (Proc.devRef .tc r) :=
  StableHlo.after_of_writes_sub hostOps3 _ hostOps3_writes h
/-- An input array of the second region holds after it what it held before. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

theorem W7_main_arg0 (c : Dev nD) : W7 m c (Proc.devRef .tc main_arg0) = m ((c : Thread nD τ).loc main_arg0) :=
  (W7_of m c main_arg0 (by decide)).trans <| (W6_of_ne m c main_arg0 (by decide)).trans <| (W5_of m c main_arg0 (by decide)).trans <|
    (W4_of_ne m c main_arg0 (by decide)).trans <| (W3_of m c main_arg0 (by decide)).trans <| (W2_of_ne m c main_arg0 (by decide)).trans <|
    (W1_of m c main_arg0 (by decide)).trans rfl
theorem W7_main_arg1 (c : Dev nD) : W7 m c (Proc.devRef .tc main_arg1) = m ((c : Thread nD τ).loc main_arg1) :=
  (W7_of m c main_arg1 (by decide)).trans <| (W6_of_ne m c main_arg1 (by decide)).trans <| (W5_of m c main_arg1 (by decide)).trans <|
    (W4_of_ne m c main_arg1 (by decide)).trans <| (W3_of m c main_arg1 (by decide)).trans <| (W2_of_ne m c main_arg1 (by decide)).trans <|
    (W1_of m c main_arg1 (by decide)).trans rfl
theorem W7_main_arg2 (c : Dev nD) : W7 m c (Proc.devRef .tc main_arg2) = m ((c : Thread nD τ).loc main_arg2) :=
  (W7_of m c main_arg2 (by decide)).trans <| (W6_of_ne m c main_arg2 (by decide)).trans <| (W5_of m c main_arg2 (by decide)).trans <|
    (W4_of_ne m c main_arg2 (by decide)).trans <| (W3_of m c main_arg2 (by decide)).trans <| (W2_of_ne m c main_arg2 (by decide)).trans <|
    (W1_of m c main_arg2 (by decide)).trans rfl
theorem W7_main_arg3 (c : Dev nD) : W7 m c (Proc.devRef .tc main_arg3) = m ((c : Thread nD τ).loc main_arg3) :=
  (W7_of m c main_arg3 (by decide)).trans <| (W6_of_ne m c main_arg3 (by decide)).trans <| (W5_of m c main_arg3 (by decide)).trans <|
    (W4_in m c 0 rfl).trans <| (W3_of m c main_arg3 (by decide)).trans <| (W2_of_ne m c main_arg3 (by decide)).trans <|
    (W1_of m c main_arg3 (by decide)).trans rfl
theorem W7_main_arg4 (c : Dev nD) : W7 m c (Proc.devRef .tc main_arg4) = m ((c : Thread nD τ).loc main_arg4) :=
  (W7_of m c main_arg4 (by decide)).trans <| (W6_of_ne m c main_arg4 (by decide)).trans <| (W5_of m c main_arg4 (by decide)).trans <|
    (W4_in m c 1 rfl).trans <| (W3_of m c main_arg4 (by decide)).trans <| (W2_of_ne m c main_arg4 (by decide)).trans <|
    (W1_of m c main_arg4 (by decide)).trans rfl

/-- The region entries' contents of the arrays the regions read. -/
theorem V1_v0 (c : Dev nD) : V1 m c main_v0 = shapeCast S32x2048x128 (m ((c : Thread nD τ).loc main_arg0)) shapeCasts_S4x8x2048x128_S32x2048x128 := by
  show StableHlo.after hostOps0 (W0 m c) (Proc.devRef .tc main_v0) = _
  after_results
  rfl
theorem V1_v1 (c : Dev nD) : V1 m c main_v1 = shapeCast S32x2048x128 (m ((c : Thread nD τ).loc main_arg1)) shapeCasts_S4x8x2048x128_S32x2048x128 := by
  show StableHlo.after hostOps0 (W0 m c) (Proc.devRef .tc main_v1) = _
  after_results
  rfl
theorem V3_arg3 (c : Dev nD) : V3 m c main_arg3 = m ((c : Thread nD τ).loc main_arg3) :=
  (W3_of m c main_arg3 (by decide)).trans <| (W2_of_ne m c main_arg3 (by decide)).trans <| (W1_of m c main_arg3 (by decide)).trans rfl
theorem V3_arg4 (c : Dev nD) : V3 m c main_arg4 = m ((c : Thread nD τ).loc main_arg4) :=
  (W3_of m c main_arg4 (by decide)).trans <| (W2_of_ne m c main_arg4 (by decide)).trans <| (W1_of m c main_arg4 (by decide)).trans rfl
theorem V5_arg2 (c : Dev nD) : V5 m c main_arg2 = m ((c : Thread nD τ).loc main_arg2) :=
  (W5_of m c main_arg2 (by decide)).trans <| (W4_of_ne m c main_arg2 (by decide)).trans <| (W3_of m c main_arg2 (by decide)).trans <|
    (W2_of_ne m c main_arg2 (by decide)).trans <| (W1_of m c main_arg2 (by decide)).trans rfl

/-- The first loss: the host's sum of the first region's 32 sums, over the element count. -/
def res_v4 (c : Dev nD) : (⟨S_, .f32⟩ : BufTy).Contents (Elt F) :=
  Host.divf (Host.reduceAdd ((dat0 (V1 m) c).arrAt 2 cfg0.N) (constant S_ .f32 0x00000000#32) reducesTo_S32x1x1_S_d0_1_2 h_S_) (constant S_ .f32 0x4B000000#32)
/-- The graph reconstruction loss: the root of the host's sum of the second region's 8 sums of squares, over the batch count. -/
def res_v9 (c : Dev nD) : (⟨S_, .f32⟩ : BufTy).Contents (Elt F) :=
  Host.divf (Host.sqrt (Host.reduceAdd ((dat1 (V3 m) c).arrAt 2 cfg1.N) (constant S_ .f32 0x00000000#32) reducesTo_S8x1x1_S_d0_1_2 h_S_)) (constant S_ .f32 0x41000000#32)
/-- The sparsity loss: the host's sum of the second region's 8 sums of absolute values, over the batch count. -/
def res_v10 (c : Dev nD) : (⟨S_, .f32⟩ : BufTy).Contents (Elt F) :=
  Host.divf (Host.reduceAdd ((dat1 (V3 m) c).arrAt 3 cfg1.N) (constant S_ .f32 0x00000000#32) reducesTo_S8x1x1_S_d0_1_2 h_S_) (constant S_ .f32 0x41000000#32)
/-- The cosine loss: the host's sum of the third region's 8 sums, over the count of off-diagonal pairs. -/
def res_v13 (c : Dev nD) : (⟨S_, .f32⟩ : BufTy).Contents (Elt F) :=
  Host.divf (Host.reduceAdd ((dat2 (V5 m) c).arrAt 2 cfg2.N) (constant S_ .f32 0x00000000#32) reducesTo_S8x1x1_S_d0_1_2 h_S_) (constant S_ .f32 0x4BFFE000#32)
/-- The total: the first two losses plus a tenth of each of the other two. -/
def res_v18 (c : Dev nD) : (⟨S_, .f32⟩ : BufTy).Contents (Elt F) :=
  addf (addf (addf (res_v4 m c) (res_v9 m c)) (mulf (constant S_ .f32 0x3DCCCCCD#32) (res_v13 m c))) (mulf (constant S_ .f32 0x3DCCCCCD#32) (res_v10 m c))

theorem W6_v4 (c : Dev nD) : W6 m c (Proc.devRef .tc main_v4) = res_v4 m c := by
  rw [W6_of_ne m c main_v4 (by decide), W5_of m c main_v4 (by decide), W4_of_ne m c main_v4 (by decide)]
  show StableHlo.after hostOps1 (W2 m c) (Proc.devRef .tc main_v4) = _
  after_results
  rw [show W2 m c (Proc.devRef .tc main_v2) = _ from W2_arr m c 2]
  rfl
theorem W6_v9 (c : Dev nD) : W6 m c (Proc.devRef .tc main_v9) = res_v9 m c := by
  rw [W6_of_ne m c main_v9 (by decide)]
  show StableHlo.after hostOps2 (W4 m c) (Proc.devRef .tc main_v9) = _
  after_results
  rw [show W4 m c (Proc.devRef .tc main_v5_0) = _ from W4_arr m c 2]
  rfl
theorem W6_v10 (c : Dev nD) : W6 m c (Proc.devRef .tc main_v10) = res_v10 m c := by
  rw [W6_of_ne m c main_v10 (by decide)]
  show StableHlo.after hostOps2 (W4 m c) (Proc.devRef .tc main_v10) = _
  after_results
  rw [show W4 m c (Proc.devRef .tc main_v5_1) = _ from W4_arr m c 3]
  rfl
theorem W7_v4 (c : Dev nD) : W7 m c (Proc.devRef .tc main_v4) = res_v4 m c := (W7_of m c main_v4 (by decide)).trans (W6_v4 m c)
theorem W7_v9 (c : Dev nD) : W7 m c (Proc.devRef .tc main_v9) = res_v9 m c := (W7_of m c main_v9 (by decide)).trans (W6_v9 m c)
theorem W7_v10 (c : Dev nD) : W7 m c (Proc.devRef .tc main_v10) = res_v10 m c := (W7_of m c main_v10 (by decide)).trans (W6_v10 m c)
theorem W7_v13 (c : Dev nD) : W7 m c (Proc.devRef .tc main_v13) = res_v13 m c := by
  show StableHlo.after hostOps3 (W6 m c) (Proc.devRef .tc main_v13) = _
  after_results
  rw [show W6 m c (Proc.devRef .tc main_v11) = _ from W6_v11 m c]
  rfl
theorem W7_v18 (c : Dev nD) : W7 m c (Proc.devRef .tc main_v18) = res_v18 m c := by
  show StableHlo.after hostOps3 (W6 m c) (Proc.devRef .tc main_v18) = _
  after_results
  rw [show W6 m c (Proc.devRef .tc main_v11) = _ from W6_v11 m c, show W6 m c (Proc.devRef .tc main_v4) = _ from W6_v4 m c,
    show W6 m c (Proc.devRef .tc main_v9) = _ from W6_v9 m c, show W6 m c (Proc.devRef .tc main_v10) = _ from W6_v10 m c]
  rfl

end Cert.Kernel.Frm

end
-- ==== Proof.KI.R0.lean ====
import proofs.«142973_j34608846471207_1_alg».proof.Proof.Gen.KernelIdeal.Launch
import proofs.«142973_j34608846471207_1_alg».proof.Proof.Gen.KernelIdeal.Skeleton
import proofs.«142973_j34608846471207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Frm
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER (the launch instantiates it)
variable (V : (c : Dev nD) → (b : Ref sig .tc) → Buf (Elt F) ((c : Thread nD τ).loc b))

/-! # The first region: per slab, the sum of squared differences of two arrays

Grid of 32 points. At point t the two input windows hold slab t (a 1×2048×128 block) of their arrays, and the
output window's 1×1×1 block is overwritten with the sum over the slab of the squared difference. -/

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's buffer holds its block at every point, for any proof data whose array is the
    entry contents and whose body leaves the block in place: the window is uncut and never idle, so a point that
    does not fetch has the previous point's block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the second input window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole slab: what each of the two loads reads. -/
abbrev r0_0 : Rect S1x2048x128 := Rect.unit (s := S1x2048x128) ![0, 0, 0] S1x2048x128.size inb_S1x2048x128_S1x2048x128_0_0_0
/-- The whole one-word output block: what the store writes. -/
abbrev r0_2 : Rect S1x1x1 := Rect.unit (s := S1x1x1) ![0, 0, 0] S1x1x1.size inb_S1x1x1_S1x1x1_0_0_0

/-! ## What the body leaves in the output window's buffer -/

/-- The output buffer after the body, from the two input blocks: its one store, of the payload of the two loads. -/
def out0_2 (x0 x1 : Vec F S1x2048x128 .f32) : Vec F S1x1x1 .f32 :=
  View.canon [⟨r0_2, k0_pay1 (View.ld x0 r0_0) (View.ld x1 r0_0)⟩]

/-- The one store covers the one-word buffer. -/
theorem cover0_2 (p0 : Vec F S1x1x1 .f32) (y : S1x1x1.Idx) :
    ∃ pc ∈ ([⟨r0_2, p0⟩] : List (View.Piece (Elt F) S1x1x1 .f32)), y ∈ pc.1.set :=
  View.cover_of_tiled [⟨r0_2, p0⟩] S1x1x1.size (by rfl) y

/-! ## The body's triple -/

set_option maxHeartbeats 1000000 in
/-- The body on whole staging memrefs, the inputs' at read contents x0, x1 and the output's at anything, runs to the
    continuation holding the inputs' as they were and the output's at out0_2 of the inputs'. The body reads the
    output buffer once before storing to it; that value is not used. -/
theorem sound_kernel0 (c : Dev nD) (E : Set ℕ) (i : grid0.Coords)
    (arg1 : Memref sig .tc .vmem S1x2048x128 .f32) (harg1 : arg1.IsWhole)
    (arg2 : Memref sig .tc .vmem S1x2048x128 .f32) (harg2 : arg2.IsWhole)
    (arg3 : Memref sig .tc .vmem S1x1x1 .f32) (harg3 : arg3.IsWhole)
    (x0 x1 : Vec F S1x2048x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__views_mse_kernel i arg1 harg1 arg2 harg2 arg3 harg3) K := by
  simp only [cc0__views_mse_kernel_eq_skeleton]; unfold cc0__views_mse_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core c: the arrays as the region finds them; after the body at point t each input's buffer
    at its block and the output's at out0_2 of the two input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm
end
-- ==== Proof.KI.R1Runs.lean ====
/-
  Region 1 (the graph losses), what its two control cases share.

  The grid is 8 × 8, the batch outermost: point t has coordinates (t / 8, t % 8). Windows 0 and 1 are the two
  graphs' row tiles (256 × 2048 of batch b), fetched at every point; windows 2 and 3 are the two one-word outputs
  of batch b, carried across the eight row tiles and zeroed at the first of them.
-/
import proofs.«142973_j34608846471207_1_alg».proof.Proof.Gen.KernelIdeal.Launch
import proofs.«142973_j34608846471207_1_alg».proof.Proof.Gen.KernelIdeal.Skeleton
import proofs.«142973_j34608846471207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Frm
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER (the launch instantiates it)
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first graph's tile is in its staging buffer at every point: the window is fetched everywhere, uncut and
    never idle, and the body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second graph's tile likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- "This is the first row tile of its batch": the body's one conditional, from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 8): decided over the 64 points. -/
theorem hcond1_0 : ∀ t : Fin cfg1.N, cond1_0 (grid1.coords t) ↔ t.val % 8 = 0 :=
  (by decide +kernel : ∀ t : Fin grid1.N, cond1_0 (grid1.coords t) ↔ t.val % 8 = 0)

/-! ## The outputs' staging buffers -/

/-- One staging buffer of each output window, through which its contents are stated (which of the two does not
    matter: what a covering list of pieces reads back does not depend on the buffer). -/
abbrev VO1_2 : View sig .tc .vmem S1x1x1 .f32 := (Memref.whole cc1_stg2_0 : Memref sig .tc .vmem S1x1x1 .f32).view
abbrev VO1_3 : View sig .tc .vmem S1x1x1 .f32 := (Memref.whole cc1_stg3_0 : Memref sig .tc .vmem S1x1x1 .f32).view

/-- Each window's current staging memref at point t, and its wholeness. -/
abbrev ms1_0 (t : Fin cfg1.N) : Memref sig .tc .vmem S1x256x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)

end Cert.KernelIdeal.Frm

end
-- ==== Proof.KI.R1A.lean ====
/-
  Region 1, the body's whole run in case A: the first row tile of a batch (the conditional taken): both outputs are zeroed, then added to.
-/
import proofs.«142973_j34608846471207_1_alg».proof.Proof.KI.R1Runs
set_option maxRecDepth 16384
noncomputable section
namespace Cert.KernelIdeal.Frm
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER (the launch instantiates it)
variable (V : (c : Dev nD) → (b : Ref sig .tc) → Buf (Elt F) ((c : Thread nD τ).loc b))

set_option maxHeartbeats 1000000 in
/-- What the body's stores leave in the two outputs' staging memrefs, as pieces (last first), with the proof that
    on whole staging memrefs — the two tiles at their contents x0 x1, the two outputs at anything —
    the body runs to the continuation holding the tiles as they were and each output's buffer with its pieces
    written. The pieces are the witness the run finds. -/
noncomputable def kernelRun1_A (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : cond1_0 i)
    (x0 : Vec F S1x256x2048 .f32) (x1 : Vec F S1x256x2048 .f32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__graph_kernel i arg2 harg2 arg3 harg3 arg4 harg4 arg5 harg5) K } := by
  refine ⟨?_, ?_, fun E K => ?run⟩
  case run =>
    simp only [cc1__graph_kernel_eq_skeleton]; unfold cc1__graph_kernel_skel
    simp only [k1_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Frm

end
-- ==== Proof.KI.R1B.lean ====
/-
  Region 1, the body's whole run in case B: a later row tile of a batch (the conditional not taken): both outputs are added to at what the tile before left.
-/
import proofs.«142973_j34608846471207_1_alg».proof.Proof.KI.R1A
set_option maxRecDepth 16384
noncomputable section
namespace Cert.KernelIdeal.Frm
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER (the launch instantiates it)
variable (V : (c : Dev nD) → (b : Ref sig .tc) → Buf (Elt F) ((c : Thread nD τ).loc b))

set_option maxHeartbeats 1000000 in
/-- What the body's stores leave in the two outputs' staging memrefs, as pieces (last first), with the proof that
    on whole staging memrefs — the two tiles at their contents x0 x1, the two outputs at their running contents xo2 xo3 —
    the body runs to the continuation holding the tiles as they were and each output's buffer with its pieces
    written. The pieces are the witness the run finds. -/
noncomputable def kernelRun1_B (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond1_0 i)
    (x0 : Vec F S1x256x2048 .f32) (x1 : Vec F S1x256x2048 .f32) (xo2 : Vec F S1x1x1 .f32) (xo3 : Vec F S1x1x1 .f32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__graph_kernel i arg2 harg2 arg3 harg3 arg4 harg4 arg5 harg5) K } := by
  refine ⟨?_, ?_, fun E K => ?run⟩
  case run =>
    simp only [cc1__graph_kernel_eq_skeleton]; unfold cc1__graph_kernel_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Frm

end
-- ==== Proof.KI.R1.lean ====
/-
  Region 1, the rest of its frame side: what the two outputs hold case by case and point by point, the proof
  data, and the body obligation.
-/
import proofs.«142973_j34608846471207_1_alg».proof.Proof.KI.R1B
set_option maxRecDepth 16384
noncomputable section
namespace Cert.KernelIdeal.Frm
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER (the launch instantiates it)
variable (V : (c : Dev nD) → (b : Ref sig .tc) → Buf (Elt F) ((c : Thread nD τ).loc b))

/-! ## What each case leaves in the outputs -/

/-- Case A's pieces for output 2 tile its one-word block, so they cover it. -/
theorem cover1_A_2 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : cond1_0 i)
    (x0 : Vec F S1x256x2048 .f32) (x1 : Vec F S1x256x2048 .f32) (y : S1x1x1.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1x1x1.size (by sl_kernel_rfl) y

/-- What case A leaves in output 2's staging buffer (the squared-difference sum of the tile, over zero): its pieces read back. -/
def out1_A_2 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : cond1_0 i)
    (x0 : Vec F S1x256x2048 .f32) (x1 : Vec F S1x256x2048 .f32) : Vec F S1x1x1 .f32 :=
  VO1_2.read (Elt F) (VO1_2.writes (Elt F) VO1_2.junk (kernelRun1_A c i arg2 harg2 arg3 harg3 arg4 harg4 arg5 harg5 hc0 x0 x1).1)

/-- Case A's pieces for output 3 tile its one-word block, so they cover it. -/
theorem cover1_A_3 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : cond1_0 i)
    (x0 : Vec F S1x256x2048 .f32) (x1 : Vec F S1x256x2048 .f32) (y : S1x1x1.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S1x1x1.size (by sl_kernel_rfl) y

/-- What case A leaves in output 3's staging buffer (the absolute-deviation sum of the tile, over zero): its pieces read back. -/
def out1_A_3 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : cond1_0 i)
    (x0 : Vec F S1x256x2048 .f32) (x1 : Vec F S1x256x2048 .f32) : Vec F S1x1x1 .f32 :=
  VO1_3.read (Elt F) (VO1_3.writes (Elt F) VO1_3.junk (kernelRun1_A c i arg2 harg2 arg3 harg3 arg4 harg4 arg5 harg5 hc0 x0 x1).2.1)

/-- Case B's pieces for output 2 tile its one-word block, so they cover it. -/
theorem cover1_B_2 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond1_0 i)
    (x0 : Vec F S1x256x2048 .f32) (x1 : Vec F S1x256x2048 .f32) (xo2 : Vec F S1x1x1 .f32) (xo3 : Vec F S1x1x1 .f32) (y : S1x1x1.Idx) :
    ∃ pc ∈ (kernelRun1_B c i arg2 harg2 arg3 harg3 arg4 harg4 arg5 harg5 hc0 x0 x1 xo2 xo3).1, y ∈ pc.1.set :=
  View.cover_of_tiledL (kernelRun1_B c i arg2 harg2 arg3 harg3 arg4 harg4 arg5 harg5 hc0 x0 x1 xo2 xo3).1 S1x1x1.size (by sl_kernel_rfl) y

/-- What case B leaves in output 2's staging buffer (the tile's squared-difference sum added to the running word): its pieces read back. -/
def out1_B_2 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond1_0 i)
    (x0 : Vec F S1x256x2048 .f32) (x1 : Vec F S1x256x2048 .f32) (xo2 : Vec F S1x1x1 .f32) (xo3 : Vec F S1x1x1 .f32) : Vec F S1x1x1 .f32 :=
  VO1_2.read (Elt F) (VO1_2.writes (Elt F) VO1_2.junk (kernelRun1_B c i arg2 harg2 arg3 harg3 arg4 harg4 arg5 harg5 hc0 x0 x1 xo2 xo3).1)

/-- Case B's pieces for output 3 tile its one-word block, so they cover it. -/
theorem cover1_B_3 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond1_0 i)
    (x0 : Vec F S1x256x2048 .f32) (x1 : Vec F S1x256x2048 .f32) (xo2 : Vec F S1x1x1 .f32) (xo3 : Vec F S1x1x1 .f32) (y : S1x1x1.Idx) :
    ∃ pc ∈ (kernelRun1_B c i arg2 harg2 arg3 harg3 arg4 harg4 arg5 harg5 hc0 x0 x1 xo2 xo3).2.1, y ∈ pc.1.set :=
  View.cover_of_tiledL (kernelRun1_B c i arg2 harg2 arg3 harg3 arg4 harg4 arg5 harg5 hc0 x0 x1 xo2 xo3).2.1 S1x1x1.size (by sl_kernel_rfl) y

/-- What case B leaves in output 3's staging buffer (the tile's absolute-deviation sum added to the running word): its pieces read back. -/
def out1_B_3 (c : Dev nD) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond1_0 i)
    (x0 : Vec F S1x256x2048 .f32) (x1 : Vec F S1x256x2048 .f32) (xo2 : Vec F S1x1x1 .f32) (xo3 : Vec F S1x1x1 .f32) : Vec F S1x1x1 .f32 :=
  VO1_3.read (Elt F) (VO1_3.writes (Elt F) VO1_3.junk (kernelRun1_B c i arg2 harg2 arg3 harg3 arg4 harg4 arg5 harg5 hc0 x0 x1 xo2 xo3).2.1)

/-! ## What the outputs hold after each point -/

/-- THE ACCUMULATION. The two outputs' staging buffers after the body at position n: at the first row tile of a
    batch, case A on the point's tiles; at a later one, case B on the point's tiles over what position n - 1 left
    (the buffers are not written back in between). -/
def outsAt1 (c : Dev nD) : (n : ℕ) → n < cfg1.N → Vec F S1x1x1 .f32 × Vec F S1x1x1 .f32
  | 0, hn =>
    (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩),
     out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩))
  | n + 1, hn =>
    if h0 : (n + 1) % 8 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩),
       out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2,
       out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2)

/-- At a first row tile: case A's contents. -/
theorem outsAt1_A (c : Dev nD) (t : Fin cfg1.N) (h0 : t.val % 8 = 0) :
    outsAt1 V c t.val t.isLt =
      (out1_A_2 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t),
       out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)) := by
  obtain ⟨n, hn⟩ := t
  cases n with
  | zero => exact rfl
  | succ n => exact (dif_pos h0).trans rfl

/-- At a later row tile: case B's contents, over what the point before left. -/
theorem outsAt1_B (c : Dev nD) (t : Fin cfg1.N) (h0 : ¬t.val % 8 = 0) :
    outsAt1 V c t.val t.isLt =
      (out1_B_2 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2,
       out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 1 on core c: the arrays as the region finds them; after the body at point t each
    tile's buffer at its tile and the two outputs' at the accumulation; the scoped rest and the generator register
    as the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

/-- Each tile's current staging buffer holds its tile at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later row tile the first output's staging buffer holds what the body left at the point before: the point
    is not the first, and the buffer is written back only after a batch's last tile. -/
theorem before1_2_B (c : Dev nD) (t : Fin cfg1.N) (h0 : ¬t.val % 8 = 0) (d) :
    (dat1 V c).before 2 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-- The second output likewise. -/
theorem before1_3_B (c : Dev nD) (t : Fin cfg1.N) (h0 : ¬t.val % 8 = 0) (d) :
    (dat1 V c).before 3 t d = (outsAt1 V c (t.val - 1) (Nat.lt_of_le_of_lt (Nat.sub_le _ _) t.isLt)).2 := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the tiles' memrefs hold their tiles; the closed form says which case the point is in;
    at a later row tile each output's memref holds what the point before left; so that case's run applies, and the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  have hN : t.val < 64 := lt_of_lt_of_eq t.isLt (show cfg1.N = 64 from N_1)
  by_cases h0 : t.val % 8 = 0
  · rw [outsAt1_A V c t h0]
    dsimp only
    unfold out1_A_2 out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _)
    unfold owns; iexists _; isplitr
    swap; · iexact H3
    ipureintro; exact View.read_writes_of_cover _ _ _ _ _ (cover1_A_3 c _ _ _ _ _ _ _ _ _ _ _ _)
  · rw [outsAt1_B V c t h0]
    dsimp only
    simp only [before1_2_B V c t h0, before1_3_B V c t h0]
    unfold out1_B_2 out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _)
    unfold owns; iexists _; isplitr
    swap; · iexact H3
    ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.R2Runs.lean ====
import proofs.«142973_j34608846471207_1_alg».proof.Proof.Gen.KernelIdeal.Launch
import proofs.«142973_j34608846471207_1_alg».proof.Proof.Gen.KernelIdeal.Skeleton
import proofs.«142973_j34608846471207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 2: the cosine kernel over an 8 × 8 grid; what its two cases share -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the 256-row tile) holds its block at every point: it is fetched at every point, and the body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (all 2048 rows of the batch) holds its block at every point, fetched there or not: between two
    fetches its block index does not move and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional (the reset of the accumulator), from the grid coordinates: the
    row-tile coordinate is zero. -/
abbrev cond2_0 (i : grid2.Coords) : Prop := (Scalar.cmpi .ne (Scalar.extui (Scalar.cmpi .eq (BitVec.ofNat 32 (i 1).val) 0#32)) 0#32) = 1#1
/-- It holds at the first row tile of each batch — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-! ## The staging memrefs -/

/-- One staging buffer of output window 2, through which its contents are stated (the choice does not matter). -/
abbrev VO2_2 : View sig .tc .vmem S1x1x1 .f32 := (Memref.whole cc2_stg2_0 : Memref sig .tc .vmem S1x1x1 .f32).view
/-- Each window's current staging memref at point `t`, as the pipeline passes it, and its wholeness. -/
abbrev ms2_0 (t : Fin cfg2.N) : Memref sig .tc .vmem S1x256x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x1 .f32 := win2_2.stage (cfg2.slots t 2)
abbrev hs2_2 (t : Fin cfg2.N) : (ms2_2 t).IsWhole := hstage2_2 ((cfg2.slots t 2).cast nbuf2_2)

end Cert.KernelIdeal.Frm

end
-- ==== Proof.KI.R2A.lean ====
import proofs.«142973_j34608846471207_1_alg».proof.Proof.KI.R2Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- What the body's stores leave in the accumulator's staging memref, as pieces (last first), at a point where the
    row-tile coordinate is zero (the accumulator is reset, then the tile's sum is added), with the proof that on
    whole staging memrefs — the two inputs' at their contents, the accumulator's at anything — the body runs to the
    continuation holding the inputs' as they were and the accumulator's buffer with these pieces written. -/
noncomputable def kernelRun2_A (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : cond2_0 i)
    (x0 : Vec F S1x256x128 .f32) (x1 : Vec F S1x2048x128 .f32) :
    { L2 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc2__cos_kernel i arg2 harg2 arg3 harg3 arg4 harg4) K } := by
  refine ⟨?_, fun E K => ?run⟩
  case run =>
    simp only [cc2__cos_kernel_eq_skeleton]; unfold cc2__cos_kernel_skel
    simp only [k2_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frm

end
-- ==== Proof.KI.R2B.lean ====
import proofs.«142973_j34608846471207_1_alg».proof.Proof.KI.R2A

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- What the body's stores leave in the accumulator's staging memref, as pieces (last first), at a point where the
    row-tile coordinate is not zero (the tile's sum is added to the running contents `xo2`), with the proof that on
    whole staging memrefs — the two inputs' at their contents, the accumulator's at `xo2` — the body runs to the
    continuation holding the inputs' as they were and the accumulator's buffer with these pieces written. -/
noncomputable def kernelRun2_B (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : ¬cond2_0 i)
    (x0 : Vec F S1x256x128 .f32) (x1 : Vec F S1x2048x128 .f32) (xo2 : Vec F S1x1x1 .f32) :
    { L2 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc2__cos_kernel i arg2 harg2 arg3 harg3 arg4 harg4) K } := by
  refine ⟨?_, fun E K => ?run⟩
  case run =>
    simp only [cc2__cos_kernel_eq_skeleton]; unfold cc2__cos_kernel_skel
    simp only [k2_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frm

end
-- ==== Proof.KI.R2.lean ====
import proofs.«142973_j34608846471207_1_alg».proof.Proof.KI.R2B

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 2: what the accumulator holds point by point, the proof data, the body obligation -/

/-- Where the accumulator is reset, its two stores (the zero word, then the zero word plus the tile's sum) each
    fill the one-word block, so they cover it. -/
theorem cover2_A_2 (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : cond2_0 i)
    (x0 : Vec F S1x256x128 .f32) (x1 : Vec F S1x2048x128 .f32) (y : S1x1x1.Idx) :
    ∃ pc ∈ (kernelRun2_A c i arg2 harg2 arg3 harg3 arg4 harg4 hc0 x0 x1).1, y ∈ pc.1.set :=
  View.cover_of_tiledL (kernelRun2_A c i arg2 harg2 arg3 harg3 arg4 harg4 hc0 x0 x1).1 S1x1x1.size (by sl_kernel_rfl) y

/-- What a resetting point leaves in the accumulator's staging buffer: its pieces read back over junk. -/
def out2_A_2 (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : cond2_0 i)
    (x0 : Vec F S1x256x128 .f32) (x1 : Vec F S1x2048x128 .f32) : Vec F S1x1x1 .f32 :=
  VO2_2.read (Elt F) (VO2_2.writes (Elt F) VO2_2.junk (kernelRun2_A c i arg2 harg2 arg3 harg3 arg4 harg4 hc0 x0 x1).1)

/-- Where the accumulator is carried, its one store (the running contents plus the tile's sum) fills the one-word
    block, so it covers it. -/
theorem cover2_B_2 (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : ¬cond2_0 i)
    (x0 : Vec F S1x256x128 .f32) (x1 : Vec F S1x2048x128 .f32) (xo2 : Vec F S1x1x1 .f32) (y : S1x1x1.Idx) :
    ∃ pc ∈ (kernelRun2_B c i arg2 harg2 arg3 harg3 arg4 harg4 hc0 x0 x1 xo2).1, y ∈ pc.1.set :=
  View.cover_of_tiledL (kernelRun2_B c i arg2 harg2 arg3 harg3 arg4 harg4 hc0 x0 x1 xo2).1 S1x1x1.size (by sl_kernel_rfl) y

/-- What a carrying point leaves in the accumulator's staging buffer: its pieces read back over junk. -/
def out2_B_2 (c : Dev nD) (i : grid2.Coords) (arg2 : Memref sig .tc .vmem S1x256x128 .f32) (harg2 : arg2.IsWhole) (arg3 : Memref sig .tc .vmem S1x2048x128 .f32) (harg3 : arg3.IsWhole) (arg4 : Memref sig .tc .vmem S1x1x1 .f32) (harg4 : arg4.IsWhole) (hc0 : ¬cond2_0 i)
    (x0 : Vec F S1x256x128 .f32) (x1 : Vec F S1x2048x128 .f32) (xo2 : Vec F S1x1x1 .f32) : Vec F S1x1x1 .f32 :=
  VO2_2.read (Elt F) (VO2_2.writes (Elt F) VO2_2.junk (kernelRun2_B c i arg2 harg2 arg3 harg3 arg4 harg4 hc0 x0 x1 xo2).1)

/-! ## What the accumulator holds after each point -/

/-- The accumulation. What the accumulator's staging buffer holds after the body at position `n`: at the first row
    tile of a batch the reset case on the point's two input blocks; at a later row tile the carried case on the
    point's two input blocks and on what this leaves at `n - 1` (the buffer is not written back between). -/
def outsAt2 (c : Dev nD) : (n : ℕ) → n < cfg2.N → Vec F S1x1x1 .f32
  | 0, hn => out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) ((hcond2_0 ⟨0, hn⟩).mpr (Nat.zero_mod _)) (iblk2 V c 0 ⟨0, hn⟩) (iblk2 V c 1 ⟨0, hn⟩)
  | n + 1, hn =>
    if h0 : (n + 1) % 8 = 0 then
      out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) ((hcond2_0 ⟨n + 1, hn⟩).mpr h0) (iblk2 V c 0 ⟨n + 1, hn⟩) (iblk2 V c 1 ⟨n + 1, hn⟩)
    else
      out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (fun h => h0 ((hcond2_0 ⟨n + 1, hn⟩).mp h)) (iblk2 V c 0 ⟨n + 1, hn⟩) (iblk2 V c 1 ⟨n + 1, hn⟩) (outsAt2 c n (Nat.lt_of_succ_lt hn))

/-- `outsAt2` at a resetting point: that case's contents. -/
theorem outsAt2_A (c : Dev nD) (t : Fin cfg2.N) (h0 : t.val % 8 = 0) :
    outsAt2 V c t.val t.isLt = out2_A_2 c (grid2.coords t) (ms2_0 t) (hs2_0 t) (ms2_1 t) (hs2_1 t) (ms2_2 t) (hs2_2 t) ((hcond2_0 t).mpr h0) (iblk2 V c 0 t) (iblk2 V c 1 t) := by
  obtain ⟨n, hn⟩ := t
  cases n with
  | zero => exact rfl
  | succ n => exact (dif_pos h0).trans rfl

/-- `outsAt2` at a carrying point: that case's contents, over what the point before left. -/
theorem outsAt2_B (c : Dev nD) (t : Fin cfg2.N) (h0 : ¬t.val % 8 = 0) :
    outsAt2 V c t.val t.isLt = out2_B_2 c (grid2.coords t) (ms2_0 t) (hs2_0 t) (ms2_1 t) (hs2_1 t) (ms2_2 t) (hs2_2 t) (fun h => h0 ((hcond2_0 t).mp h)) (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 2 on core `c`: the arrays as the region finds them; after the body at point `t` each
    input's buffer at its block and the accumulator's at `outsAt2`; the invariant the scoped rest and the generator
    register; nothing owed. The one array the two input windows read is held at two halves, the left by the row
    tile's window and the right by the whole batch's; the output array outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q w := match w with
    | ⟨0, _⟩ => fullShare.left
    | ⟨1, _⟩ => fullShare.right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- The shares at which the shared array is held by its two windows. -/
theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outsAt2 V c t.val t.isLt := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a carrying point the accumulator's current staging buffer holds what the body left at the point before: the
    point is not the first, and the buffer was not written back between (write-backs happen at the last row tile
    of a batch only). -/
theorem before2_2_B (c : Dev nD) (t : Fin cfg2.N) (h0 : ¬t.val % 8 = 0) (d) :
    (dat2 V c).before 2 t d = outsAt2 V c (t.val - 1) (Nat.lt_of_le_of_lt (Nat.sub_le _ _) t.isLt) := by
  have hN : t.val < 64 := lt_of_lt_of_eq t.isLt (show cfg2.N = 64 from N_2)
  rw [Dat.before_out_kept _ 2 rfl t (by omega) (Bool.eq_false_iff.mpr fun h => by have := (flush2_2 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the inputs' memrefs hold their blocks; the closed form of the condition says which case
    the point is in; at a carrying point the accumulator holds what the point before left; so the case's run applies;
    the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 64 := lt_of_lt_of_eq t.isLt (show cfg2.N = 64 from N_2)
  by_cases h0 : t.val % 8 = 0
  · rw [outsAt2_A V c t h0]
    unfold out2_A_2
    iintro ⟨HΦ, Ho, ⟨%d0, H0⟩, ⟨%d1, H1⟩, ⟨%d2, H2⟩⟩
    iapply ((kernelRun2_A c (grid2.coords t) _ _ _ _ _ _ ((hcond2_0 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A_2 c _ _ _ _ _ _ _ _ _ _)
  · rw [outsAt2_B V c t h0]
    simp only [before2_2_B V c t h0]
    unfold out2_B_2
    iintro ⟨HΦ, Ho, ⟨%d0, H0⟩, ⟨%d1, H1⟩, ⟨%d2, H2⟩⟩
    iapply ((kernelRun2_B c (grid2.coords t) _ _ _ _ _ _ (fun h => h0 ((hcond2_0 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Run.lean ====
/-
  The whole program run: four stretches of host operations around three kernel regions.

  Between two items every buffer that outlives a region holds a known value, a fold from the launch memory; each
  region is entered from the fold's value before it and left at the value after it, its own arrays cut out of the
  buffers at entry and put back at exit. The third region reads one array through two windows, so at its entry that
  array's ownership is cut into two halves and at its exit the halves are joined. At the end every outliving
  buffer — the five arguments and every host value, the five results among them — holds the fold's last value:
  each argument its launch contents, each result its host operations applied to the arrays the regions wrote.
-/
import proofs.«142973_j34608846471207_1_alg».proof.Proof.KI.R0
import proofs.«142973_j34608846471207_1_alg».proof.Proof.KI.R1
import proofs.«142973_j34608846471207_1_alg».proof.Proof.KI.R2
import proofs.«142973_j34608846471207_1_alg».proof.Proof.Gen.KernelIdeal.Regions
import proofs.«142973_j34608846471207_1_alg».proof.Proof.Gen.KernelIdeal.Skeleton
import proofs.«142973_j34608846471207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items of the program

Between two items every buffer that outlives a kernel region holds a known value: the launch contents, then what
each stretch of host operations computes from the contents before it, and after a kernel region the same
contents but for the arrays the region writes, which hold what the region's write-backs leave. -/

/-- At launch. -/
abbrev W0 : Dev nD → Valuation τ sig (Elt F) := fun c b => m (c, b)
/-- After the two reshapes: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: the 32 per-slab sums of squares are in place. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host's sum and quotient of the first loss: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region: the per-batch sums of squared and of absolute differences are in place. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host's sums, root and quotients of the two graph losses: the third region's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third region: the per-batch cosine sums are in place. The region's two input windows read one
    array, the embeddings, which it leaves as it found it; the one array it writes is its result. -/
def W6 (c : Dev nD) : Valuation τ sig (Elt F) :=
  Function.update (W5 m c) (Proc.devRef .tc main_v11) ((dat2 (V5 m) c).arrAt 2 cfg2.N)
abbrev V6 : (c : Dev nD) → (b : Ref sig .tc) → Buf (Elt F) ((c : Thread nD τ).loc b) := fun c b => W6 m c b
theorem W6_v11 (c : Dev nD) : W6 m c (Proc.devRef .tc main_v11) = (dat2 (V5 m) c).arrAt 2 cfg2.N := by
  unfold W6; exact Function.update_self ..
theorem W6_of_ne (c : Dev nD) (b : Ref sig .tc) (hb : b ≠ main_v11) :
    W6 m c (Proc.devRef .tc b) = W5 m c (Proc.devRef .tc b) := by
  unfold W6; exact Function.update_of_ne (StableHlo.devRef_ne_of_ne hb) ..
/-- After the host's last sum, quotient and the weighted total: the end. -/
abbrev W7 : Dev nD → Valuation τ sig (Elt F) := fun c => StableHlo.after hostOps3 (W6 m c)

/-! ## The proof data of the three regions, and what rides beside the buffers -/

abbrev adm' : (p : Fin 3) → (pcfgs (F := F) p).Adm := fun p => (cfgs p).toPCfg_adm
/-- Each region's proof data at the contents it is entered with. -/
def pdats : (p : Fin 3) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
  | ⟨2, _⟩ => fun c => dat2 (V5 m) c
abbrev 𝒱₀ : Variants := Variants.none
abbrev L₀ : GSem nD τ sig → Finset Unit := fun _ => ∅
abbrev lv₀ : GSem nD τ sig → Unit → ℕ := fun _ _ => 0
/-- Beside the buffers: the generator register at some state and the core owing nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as items of the program -/

set_option backward.isDefEq.respectTransparency.types false in
/-- The first region: entered with every outliving buffer at `W1`, left with them at `W2`. -/
def reg0 : Pipeline.RegionSeg (pcfgs (F := F)) adm' (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L₀ lv₀ 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every outliving buffer at `W3`, left with them at `W4`. -/
def reg1 : Pipeline.RegionSeg (pcfgs (F := F)) adm' (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L₀ lv₀ 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The third region's arrays: one array behind two windows

The embeddings are read through two input windows, a 256-row tile and the whole batch. The region holds that
array as two halves of its ownership, one per window, at the same contents; at the region's entry the whole is cut
in two, and at its exit, both halves still holding what they held, the two are put together again. -/

/-- The buffers behind the third region's windows are two: the embeddings and the region's result. -/
theorem img2 : (Finset.univ.image (Pipeline.arrRef spec2) : Finset (Ref sig .tc)) = {main_arg2, main_v11} := by decide

/-- The two buffers, each whole at the full share at a valuation's contents, are the region's three arrays at
    contents that agree with the valuation: the embeddings' two halves, and the result whole. -/
theorem arrBufs2_iff (c : Dev nD) (Vv : (b : Ref sig .tc) → Buf (Elt F) ((c : Thread nD τ).loc b))
    (dat : Dat τ (Elt F) Unit ℕ (UR sig nD τ) ℕ cfg2 c) (hq0 : dat.q 0 = fullShare.left) (hq1 : dat.q 1 = fullShare.right)
    (Fn : (w : Fin cfg2.W) → Buf (Elt F) ((cfg2.win w).arr.view.loc (c : Thread nD τ)))
    (hF : ∀ w, Fn w = Vv (Pipeline.arrRef spec2 w)) :
    (Pipeline.arrBufs spec2 c Vv : sProp 𝕄) ⊣⊢ dat.arrays Fn := by
  have e0 : dat.share 0 = fullShare.left := by unfold Dat.share; rw [← hq0]; rfl
  have e1 : dat.share 1 = fullShare.right := by unfold Dat.share; rw [← hq1]; rfl
  have e2 : dat.share 2 = fullShare := by unfold Dat.share; rfl
  have hs : (((c : Thread nD τ).loc main_arg2) ↦{fullShare} Vv main_arg2 : sProp 𝕄)
      ⊣⊢ iprop((((c : Thread nD τ).loc main_arg2) ↦{fullShare.left} Vv main_arg2) ∗ (((c : Thread nD τ).loc main_arg2) ↦{fullShare.right} Vv main_arg2)) :=
    pointsTo_share (PosShare.mem_left_op_right fullShare)
  unfold Pipeline.arrBufs Dat.arrays
  rw [img2, BI.bigSep_insert (by decide), BI.bigSep_singleton, bigSep_W2, e0, e1, e2,
    (arr_whole2 0).set_eq_univ, (arr_whole2 2).set_eq_univ, hF 0, hF 1, hF 2]
  show (iprop((((c : Thread nD τ).loc main_arg2) ↦{fullShare} Vv main_arg2) ∗ (((c : Thread nD τ).loc main_v11) ↦{fullShare} Vv main_v11)) : sProp 𝕄) ⊣⊢ _
  constructor
  · iintro ⟨Ha, Hv⟩
    ihave Hh := hs.1 $$ Ha
    icases Hh with ⟨Hl, Hr⟩
    isplitl [Hl]; · iexact Hl
    isplitl [Hr]; · iexact Hr
    iexact Hv
  · iintro ⟨Hl, Hr, Hv⟩
    isplitl [Hl Hr]
    · iapply hs.2; isplitl [Hl] <;> iassumption
    iexact Hv

set_option backward.isDefEq.respectTransparency.types false in
/-- The third region: entered with every outliving buffer at `W5`, left with them at `W6`. -/
def reg2 : Pipeline.RegionSeg (pcfgs (F := F)) adm' (pdats m) () defs₀ 𝒱₀ L₀ lv₀ 2 where
  win := winFacts₀2
  block_pos := block_pos2
  stage_whole := stage_whole2
  K := PEmpty
  osem k := k.elim
  ho := Pipeline.OwnSemFacts.none _
  hbody c := (body_obligation2 (V5 m) c).loose
  hwaits := Pipeline.hwaits_of_owed_zero _ _ _ _ L₀ lv₀ 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit : (unscopedBufs c (V5 m c) : sProp 𝕄)
        ⊢ iprop((pdats m 2 c).arrays ((pdats m 2 c).arrAt · 0) ∗ Pipeline.unscopedRest spec2 c (V5 m c)) := by
      rw [Pipeline.unscopedBufs_split₀ (Pipeline.pin (pcfgs (F := F)) adm') 2 winFacts₀2.arr_unscoped c (V5 m c)]
      exact sep_mono (arrBufs2_iff c (V5 m c) (pdats m 2 c) (q2_0 (V5 m) c) (q2_1 (V5 m) c) _ (fun w => A_eq2 (V5 m) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hF : ∀ w, (pdats m 2 c).arrAt w cfg2.N = V6 m c (Pipeline.arrRef spec2 w) := fun w => by
      match w with
      | ⟨0, _⟩ => exact (((pdats m 2 c).arrAt_in 0 rfl _).trans (A_eq2 (V5 m) c 0)).trans (W6_of_ne m c main_arg2 (by decide)).symm
      | ⟨1, _⟩ => exact (((pdats m 2 c).arrAt_in 1 rfl _).trans (A_eq2 (V5 m) c 1)).trans (W6_of_ne m c main_arg2 (by decide)).symm
      | ⟨2, _⟩ => exact (W6_v11 m c).symm
    have hjoin : iprop((pdats m 2 c).arrays ((pdats m 2 c).arrAt · cfg2.N) ∗ Pipeline.unscopedRest spec2 c (V5 m c))
        ⊢ (unscopedBufs c (V6 m c) : sProp 𝕄) := by
      rw [Pipeline.unscopedBufs_split₀ (Pipeline.pin (pcfgs (F := F)) adm') 2 winFacts₀2.arr_unscoped c (V6 m c)]
      refine sep_mono (arrBufs2_iff c (V6 m c) (pdats m 2 c) (q2_0 (V5 m) c) (q2_1 (V5 m) c) _ hF).2 (Entails.of_eq ?_)
      unfold Pipeline.unscopedRest
      exact bigSep_congr fun b hb => by
        rw [show V6 m c b = V5 m c b from W6_of_ne m c b fun e =>
          (Finset.mem_sdiff.mp hb).2 (e ▸ Finset.mem_image.mpr ⟨2, Finset.mem_univ _, rfl⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the launch -/

abbrev segs : List (Pipeline.Seg (pcfgs (F := F)) adm' (pdats m) () defs₀ 𝒱₀ L₀ lv₀) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- From any memory with zero counters every weakly fair execution of the program terminates, nothing faulting,
    and every buffer that outlives the kernel regions — the arguments and every host value — ends at the contents
    `W7` names: the launch contents folded through the four host stretches and the three regions. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm' (pdats m) () cellOf_inj emb₁ defs₀ 𝒱₀ L₀ lv₀ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ Rr c) ⊢ _
      iintro ⟨Hh, Hp, HO⟩
      isplitl [Hh Hp]
      · isplitl [Hh] <;> iassumption
      iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## What the arguments and the results hold at the end

No host stretch writes an argument and a region only reads one, so each argument's buffer walks back through the
fold to the launch memory. A result is its host operations applied to what the regions left: the first loss to the
first region's 32 sums, the two graph losses to the second region's two arrays of 8 sums, the cosine loss to the
third region's 8 sums, and the total to those four. -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W7_of (c : Dev nD) (r : Ref sig .tc) (h : r ∉ hostOps3_W) : W7 m c (Proc.devRef .tc r) = W6 m c (Proc.devRef .tc r) :=
  StableHlo.after_of_writes_sub hostOps3 _ hostOps3_writes h
/-- An input array of the second region holds after it what it held before. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

theorem W7_main_arg0 (c : Dev nD) : W7 m c (Proc.devRef .tc main_arg0) = m ((c : Thread nD τ).loc main_arg0) :=
  (W7_of m c main_arg0 (by decide)).trans <| (W6_of_ne m c main_arg0 (by decide)).trans <| (W5_of m c main_arg0 (by decide)).trans <|
    (W4_of_ne m c main_arg0 (by decide)).trans <| (W3_of m c main_arg0 (by decide)).trans <| (W2_of_ne m c main_arg0 (by decide)).trans <|
    (W1_of m c main_arg0 (by decide)).trans rfl
theorem W7_main_arg1 (c : Dev nD) : W7 m c (Proc.devRef .tc main_arg1) = m ((c : Thread nD τ).loc main_arg1) :=
  (W7_of m c main_arg1 (by decide)).trans <| (W6_of_ne m c main_arg1 (by decide)).trans <| (W5_of m c main_arg1 (by decide)).trans <|
    (W4_of_ne m c main_arg1 (by decide)).trans <| (W3_of m c main_arg1 (by decide)).trans <| (W2_of_ne m c main_arg1 (by decide)).trans <|
    (W1_of m c main_arg1 (by decide)).trans rfl
theorem W7_main_arg2 (c : Dev nD) : W7 m c (Proc.devRef .tc main_arg2) = m ((c : Thread nD τ).loc main_arg2) :=
  (W7_of m c main_arg2 (by decide)).trans <| (W6_of_ne m c main_arg2 (by decide)).trans <| (W5_of m c main_arg2 (by decide)).trans <|
    (W4_of_ne m c main_arg2 (by decide)).trans <| (W3_of m c main_arg2 (by decide)).trans <| (W2_of_ne m c main_arg2 (by decide)).trans <|
    (W1_of m c main_arg2 (by decide)).trans rfl
theorem W7_main_arg3 (c : Dev nD) : W7 m c (Proc.devRef .tc main_arg3) = m ((c : Thread nD τ).loc main_arg3) :=
  (W7_of m c main_arg3 (by decide)).trans <| (W6_of_ne m c main_arg3 (by decide)).trans <| (W5_of m c main_arg3 (by decide)).trans <|
    (W4_in m c 0 rfl).trans <| (W3_of m c main_arg3 (by decide)).trans <| (W2_of_ne m c main_arg3 (by decide)).trans <|
    (W1_of m c main_arg3 (by decide)).trans rfl
theorem W7_main_arg4 (c : Dev nD) : W7 m c (Proc.devRef .tc main_arg4) = m ((c : Thread nD τ).loc main_arg4) :=
  (W7_of m c main_arg4 (by decide)).trans <| (W6_of_ne m c main_arg4 (by decide)).trans <| (W5_of m c main_arg4 (by decide)).trans <|
    (W4_in m c 1 rfl).trans <| (W3_of m c main_arg4 (by decide)).trans <| (W2_of_ne m c main_arg4 (by decide)).trans <|
    (W1_of m c main_arg4 (by decide)).trans rfl

/-- The region entries' contents of the arrays the regions read. -/
theorem V1_v0 (c : Dev nD) : V1 m c main_v0 = shapeCast S32x2048x128 (m ((c : Thread nD τ).loc main_arg0)) shapeCasts_S4x8x2048x128_S32x2048x128 := by
  show StableHlo.after hostOps0 (W0 m c) (Proc.devRef .tc main_v0) = _
  after_results
  rfl
theorem V1_v1 (c : Dev nD) : V1 m c main_v1 = shapeCast S32x2048x128 (m ((c : Thread nD τ).loc main_arg1)) shapeCasts_S4x8x2048x128_S32x2048x128 := by
  show StableHlo.after hostOps0 (W0 m c) (Proc.devRef .tc main_v1) = _
  after_results
  rfl
theorem V3_arg3 (c : Dev nD) : V3 m c main_arg3 = m ((c : Thread nD τ).loc main_arg3) :=
  (W3_of m c main_arg3 (by decide)).trans <| (W2_of_ne m c main_arg3 (by decide)).trans <| (W1_of m c main_arg3 (by decide)).trans rfl
theorem V3_arg4 (c : Dev nD) : V3 m c main_arg4 = m ((c : Thread nD τ).loc main_arg4) :=
  (W3_of m c main_arg4 (by decide)).trans <| (W2_of_ne m c main_arg4 (by decide)).trans <| (W1_of m c main_arg4 (by decide)).trans rfl
theorem V5_arg2 (c : Dev nD) : V5 m c main_arg2 = m ((c : Thread nD τ).loc main_arg2) :=
  (W5_of m c main_arg2 (by decide)).trans <| (W4_of_ne m c main_arg2 (by decide)).trans <| (W3_of m c main_arg2 (by decide)).trans <|
    (W2_of_ne m c main_arg2 (by decide)).trans <| (W1_of m c main_arg2 (by decide)).trans rfl

/-- The first loss: the host's sum of the first region's 32 sums, over the element count. -/
def res_v4 (c : Dev nD) : (⟨S_, .f32⟩ : BufTy).Contents (Elt F) :=
  Host.divf (Host.reduceAdd ((dat0 (V1 m) c).arrAt 2 cfg0.N) (constant S_ .f32 0x00000000#32) reducesTo_S32x1x1_S_d0_1_2 h_S_) (constant S_ .f32 0x4B000000#32)
/-- The graph reconstruction loss: the root of the host's sum of the second region's 8 sums of squares, over the batch count. -/
def res_v9 (c : Dev nD) : (⟨S_, .f32⟩ : BufTy).Contents (Elt F) :=
  Host.divf (Host.sqrt (Host.reduceAdd ((dat1 (V3 m) c).arrAt 2 cfg1.N) (constant S_ .f32 0x00000000#32) reducesTo_S8x1x1_S_d0_1_2 h_S_)) (constant S_ .f32 0x41000000#32)
/-- The sparsity loss: the host's sum of the second region's 8 sums of absolute values, over the batch count. -/
def res_v10 (c : Dev nD) : (⟨S_, .f32⟩ : BufTy).Contents (Elt F) :=
  Host.divf (Host.reduceAdd ((dat1 (V3 m) c).arrAt 3 cfg1.N) (constant S_ .f32 0x00000000#32) reducesTo_S8x1x1_S_d0_1_2 h_S_) (constant S_ .f32 0x41000000#32)
/-- The cosine loss: the host's sum of the third region's 8 sums, over the count of off-diagonal pairs. -/
def res_v13 (c : Dev nD) : (⟨S_, .f32⟩ : BufTy).Contents (Elt F) :=
  Host.divf (Host.reduceAdd ((dat2 (V5 m) c).arrAt 2 cfg2.N) (constant S_ .f32 0x00000000#32) reducesTo_S8x1x1_S_d0_1_2 h_S_) (constant S_ .f32 0x4BFFE000#32)
/-- The total: the first two losses plus a tenth of each of the other two. -/
def res_v18 (c : Dev nD) : (⟨S_, .f32⟩ : BufTy).Contents (Elt F) :=
  addf (addf (addf (res_v4 m c) (res_v9 m c)) (mulf (constant S_ .f32 0x3DCCCCCD#32) (res_v13 m c))) (mulf (constant S_ .f32 0x3DCCCCCD#32) (res_v10 m c))

theorem W6_v4 (c : Dev nD) : W6 m c (Proc.devRef .tc main_v4) = res_v4 m c := by
  rw [W6_of_ne m c main_v4 (by decide), W5_of m c main_v4 (by decide), W4_of_ne m c main_v4 (by decide)]
  show StableHlo.after hostOps1 (W2 m c) (Proc.devRef .tc main_v4) = _
  after_results
  rw [show W2 m c (Proc.devRef .tc main_v2) = _ from W2_arr m c 2]
  rfl
theorem W6_v9 (c : Dev nD) : W6 m c (Proc.devRef .tc main_v9) = res_v9 m c := by
  rw [W6_of_ne m c main_v9 (by decide)]
  show StableHlo.after hostOps2 (W4 m c) (Proc.devRef .tc main_v9) = _
  after_results
  rw [show W4 m c (Proc.devRef .tc main_v5_0) = _ from W4_arr m c 2]
  rfl
theorem W6_v10 (c : Dev nD) : W6 m c (Proc.devRef .tc main_v10) = res_v10 m c := by
  rw [W6_of_ne m c main_v10 (by decide)]
  show StableHlo.after hostOps2 (W4 m c) (Proc.devRef .tc main_v10) = _
  after_results
  rw [show W4 m c (Proc.devRef .tc main_v5_1) = _ from W4_arr m c 3]
  rfl
theorem W7_v4 (c : Dev nD) : W7 m c (Proc.devRef .tc main_v4) = res_v4 m c := (W7_of m c main_v4 (by decide)).trans (W6_v4 m c)
theorem W7_v9 (c : Dev nD) : W7 m c (Proc.devRef .tc main_v9) = res_v9 m c := (W7_of m c main_v9 (by decide)).trans (W6_v9 m c)
theorem W7_v10 (c : Dev nD) : W7 m c (Proc.devRef .tc main_v10) = res_v10 m c := (W7_of m c main_v10 (by decide)).trans (W6_v10 m c)
theorem W7_v13 (c : Dev nD) : W7 m c (Proc.devRef .tc main_v13) = res_v13 m c := by
  show StableHlo.after hostOps3 (W6 m c) (Proc.devRef .tc main_v13) = _
  after_results
  rw [show W6 m c (Proc.devRef .tc main_v11) = _ from W6_v11 m c]
  rfl
theorem W7_v18 (c : Dev nD) : W7 m c (Proc.devRef .tc main_v18) = res_v18 m c := by
  show StableHlo.after hostOps3 (W6 m c) (Proc.devRef .tc main_v18) = _
  after_results
  rw [show W6 m c (Proc.devRef .tc main_v11) = _ from W6_v11 m c, show W6 m c (Proc.devRef .tc main_v4) = _ from W6_v4 m c,
    show W6 m c (Proc.devRef .tc main_v9) = _ from W6_v9 m c, show W6 m c (Proc.devRef .tc main_v10) = _ from W6_v10 m c]
  rfl

end Cert.KernelIdeal.Frm

end
-- ==== Proof.Spec.lean ====
/-
  The four sums the two programs agree on, as functions of the argument arrays over the extended reals.

  Writing `a, b` for the two stacks of views (flattened to 32 slabs of 2048 × 128), `g, h` for the two graphs
  (8 × 2048 × 2048) and `x` for the embeddings (8 × 2048 × 128):

  * `sqTotal a b`  = Σ (a − b)²  over every element;
  * `sqTotalG g h` = Σ (g − h)²  over every element;
  * `absTotal g`   = Σ |g − I|   where `I` is the identity pattern on the last two axes;
  * `cosTotal x`   = Σ_{b,n,m} ( |⟨x_bn, x_bm⟩ / max(‖x_bn‖·‖x_bm‖, ε)| − I_nm ).

  Every loss of the two programs is one of these divided by a constant (the second one after a square root), so
  equality of the programs' results is equality of these sums; a sum over an index type does not depend on how a
  program groups or orders it.
-/
import Idealize.ShloMosaic.Lib.ValueIdx
import Idealize.ShloMosaic.PureOps.Ideal.Laws

open scoped BigOperators

noncomputable section

namespace Cert.Spec

open Idealize.ShloMosaic Idealize.ShloMosaic.ValueIdx

abbrev SV : Shape := ⟨3, ![32, 2048, 128]⟩
abbrev SX : Shape := ⟨3, ![8, 2048, 128]⟩
abbrev SG : Shape := ⟨3, ![8, 2048, 2048]⟩

/-- The clamp of the cosine's denominator: the f32 nearest to one thousandth, the same word in both programs. -/
def eps : EReal := Ideal.ofBits .f32 0x3A83126F#32

/-- The identity pattern on the last two axes of a batch of square matrices. -/
def eye (k : SG.Idx) : EReal := if (k 1).val = (k 2).val then 1 else 0

/-- Σ (a − b)² over the 32 slabs. -/
def sqTotal (a b : SV.Idx → EReal) : EReal := ∑ k : SV.Idx, (a k - b k) * (a k - b k)

/-- Σ (g − h)² over the graphs. -/
def sqTotalG (g h : SG.Idx → EReal) : EReal := ∑ k : SG.Idx, (g k - h k) * (g k - h k)

/-- Σ |g − I| over the graphs (the absolute value as the larger of a number and its negative). -/
def absTotal (g : SG.Idx → EReal) : EReal := ∑ k : SG.Idx, max (g k - eye k) (-(g k - eye k))

/-- The inner product of rows `n` and `m` of batch `b`. -/
def gram (x : SX.Idx → EReal) (b : Fin 8) (n m : Fin 2048) : EReal := ∑ d : Fin 128, x (ix3 b n d) * x (ix3 b m d)

/-- The Euclidean norm of row `n` of batch `b`. -/
def nrm (x : SX.Idx → EReal) (b : Fin 8) (n : Fin 2048) : EReal := Ideal.sqrt (∑ d : Fin 128, x (ix3 b n d) * x (ix3 b n d))

/-- One entry of the clamped absolute cosine matrix less the identity pattern. -/
def cosTerm (x : SX.Idx → EReal) (k : SG.Idx) : EReal :=
  max (Ideal.div (gram x (k 0) (k 1) (k 2)) (max (nrm x (k 0) (k 1) * nrm x (k 0) (k 2)) eps))
      (-(Ideal.div (gram x (k 0) (k 1) (k 2)) (max (nrm x (k 0) (k 1) * nrm x (k 0) (k 2)) eps))) - eye k

/-- Σ over every (batch, row, row) of the clamped absolute cosine less the identity pattern. -/
def cosTotal (x : SX.Idx → EReal) : EReal := ∑ k : SG.Idx, cosTerm x k

end Cert.Spec

end
-- ==== Proof.Val.V0.lean ====
import proofs.«142973_j34608846471207_1_alg».proof.Proof.KI.R0
import proofs.«142973_j34608846471207_1_alg».proof.Proof.Spec
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.KernelIdeal.Val
open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! # The first region's value: per slab the sum of squared differences, and their total

Over the extended reals every operation is exact, so the three nested lane sums of the body are one double sum over
the slab, and the 32 one-word blocks written back, summed, are the sum over every element of the two arrays. -/

/-! ## The payload at an index -/

/-- The lane sum over the last axis of a slab, at row (a, n): the sum over the 128 lanes. -/
theorem sum_lanes_r0 (x : FVec Ideal S1x2048x128 .f32) (h : S1x2048x128.Reduces [2] S1x2048) (hφ : FKind.Formats FTy.f32)
    (hacc : (0x00000000#32 : BitVec 32) = FKind.add.neutral .f32 hφ) (a : Fin 1) (n : Fin 2048) :
    multiReduction .add [2] S1x2048 x 0x00000000#32 h hφ hacc (ix2 a n) = ∑ d : Fin 128, x (ix3 a n d) := by
  refine (Ideal.multiReduction_add_single x _ h hφ hacc (ix2 a n)).trans ?_
  refine Fintype.sum_congr _ _ fun d => congrArg x ?_
  funext c; apply Fin.ext; fin_cases c <;> rfl

/-- The sum over the rows of a [1, 2048] vector. -/
theorem sum_rows_r0 (x : FVec Ideal S1x2048 .f32) (h : S1x2048.Reduces [1] S1) (hφ : FKind.Formats FTy.f32)
    (hacc : (0x00000000#32 : BitVec 32) = FKind.add.neutral .f32 hφ) (a : Fin 1) :
    multiReduction .add [1] S1 x 0x00000000#32 h hφ hacc (ix1 a) = ∑ n : Fin 2048, x (ix2 a n) := by
  refine (Ideal.multiReduction_add_single x _ h hφ hacc (ix1 a)).trans ?_
  refine Fintype.sum_congr _ _ fun n => congrArg x ?_
  funext c; apply Fin.ext; fin_cases c <;> rfl

/-- The sum over the one column of a [1, 1] vector is its entry. -/
theorem sum_one_r0 (x : FVec Ideal S1x1 .f32) (h : S1x1.Reduces [1] S1) (hφ : FKind.Formats FTy.f32)
    (hacc : (0x00000000#32 : BitVec 32) = FKind.add.neutral .f32 hφ) (a : Fin 1) :
    multiReduction .add [1] S1 x 0x00000000#32 h hφ hacc (ix1 a) = x (ix2 a 0) := by
  refine (Ideal.multiReduction_add_single x _ h hφ hacc (ix1 a)).trans ?_
  refine (Fin.sum_univ_one _).trans (congrArg x ?_)
  funext c; apply Fin.ext; fin_cases c <;> rfl

/-- A one-word vector viewed as a one-by-one matrix has the same entry. -/
theorem cast_col_r0 {α : Type} (v : S1.Idx → α) (h : S1.ShapeCasts S1x1) (a b : Fin 1) :
    shapeCast S1x1 v h (ix2 a b) = v (ix1 a) := by
  refine shapeCast_apply v h (ix2 a b) (ix1 a) ?_
  rw [Shape.rowMajor_val_one, Shape.rowMajor_val_two]
  have := a.isLt; have := b.isLt
  show a.val = a.val * 1 + b.val
  omega

/-- The first region's payload at the extended reals: the sum over the slab of the squared difference. -/
theorem k0_pay1_eq (v0 v2 : Vec Ideal S1x2048x128 .f32) (j : S1x1x1.Idx) :
    k0_pay1 (F := Ideal) v0 v2 j
      = ∑ n : Fin 2048, ∑ d : Fin 128, (v0 (ix3 0 n d) - v2 (ix3 0 n d)) * (v0 (ix3 0 n d) - v2 (ix3 0 n d)) := by
  unfold k0_pay1
  simp only [shapeCast_self]
  show extractAt (s := S1x1) ![0, 0] _ inpos_S1x1_p0_0 = _
  unfold extractAt
  refine (congrArg _ (show _ = ix2 (0 : Fin 1) (0 : Fin 1) from funext fun a => by fin_cases a <;> rfl)).trans ?_
  refine (cast_col_r0 _ _ 0 0).trans ?_
  refine (sum_one_r0 _ _ _ _ 0).trans ?_
  refine (cast_col_r0 _ _ 0 0).trans ?_
  refine (sum_rows_r0 _ _ _ _ 0).trans ?_
  refine Fintype.sum_congr _ _ fun n => ?_
  refine (sum_lanes_r0 _ _ _ _ 0 n).trans ?_
  rfl

/-! ## From the blocks to the array -/

variable (V : (c : Dev nD) → (b : Ref sig .tc) → Buf (Elt Ideal) ((c : Thread nD τ).loc b))

/-- The sum of squared differences over slab t of two arrays of 32 slabs. -/
def slabSq_r0 (a b : S32x2048x128.Idx → EReal) (t : Fin 32) : EReal :=
  ∑ n : Fin 2048, ∑ d : Fin 128, (a (ix3 t n d) - b (ix3 t n d)) * (a (ix3 t n d) - b (ix3 t n d))

/-- What the output array ends holding: at slab index t, slab t's sum. -/
abbrev G_r0 (a b : S32x2048x128.Idx → EReal) : S32x1x1.Idx → EReal := fun j => slabSq_r0 a b (j 0)

theorem hz_r0 : (![0, 0, 0] : Fin 3 → Nat) = fun _ => 0 := funext fun a => by fin_cases a <;> rfl

/-- The three index maps, decided over the grid: at point t every window is at block (t, 0, 0). -/
theorem idx_r0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The first input's block at point t is slab t of its array. -/
theorem iblk0_0_apply (c : Dev nD) (t : Fin cfg0.N) (n : Fin 2048) (d : Fin 128) :
    (Frm.iblk0 V c 0 t : Vec Ideal S1x2048x128 .f32) (ix3 0 n d)
      = (V c main_v0 : S32x2048x128.Idx → EReal) (ix3 (t.cast N_0) n d) := by
  obtain ⟨e0, e1, e2, -⟩ := idx_r0 t
  unfold Frm.iblk0
  rw [View.read_apply]
  show V c main_v0 _ = V c main_v0 _
  congr 1
  funext a
  apply Fin.ext
  match a with
  | ⟨0, _⟩ => show win0_0.index t (0 : Fin 3) * 1 + 1 * 0 = t.val; rw [e0]; omega
  | ⟨1, _⟩ => show win0_0.index t (1 : Fin 3) * 2048 + 1 * n.val = n.val; rw [e1]; omega
  | ⟨2, _⟩ => show win0_0.index t (2 : Fin 3) * 128 + 1 * d.val = d.val; rw [e2]; omega

/-- The second input's block at point t is slab t of its array. -/
theorem iblk0_1_apply (c : Dev nD) (t : Fin cfg0.N) (n : Fin 2048) (d : Fin 128) :
    (Frm.iblk0 V c 1 t : Vec Ideal S1x2048x128 .f32) (ix3 0 n d)
      = (V c main_v1 : S32x2048x128.Idx → EReal) (ix3 (t.cast N_0) n d) := by
  obtain ⟨-, -, -, e0, e1, e2, -⟩ := idx_r0 t
  unfold Frm.iblk0
  rw [View.read_apply]
  show V c main_v1 _ = V c main_v1 _
  congr 1
  funext a
  apply Fin.ext
  match a with
  | ⟨0, _⟩ => show win0_1.index t (0 : Fin 3) * 1 + 1 * 0 = t.val; rw [e0]; omega
  | ⟨1, _⟩ => show win0_1.index t (1 : Fin 3) * 2048 + 1 * n.val = n.val; rw [e1]; omega
  | ⟨2, _⟩ => show win0_1.index t (2 : Fin 3) * 128 + 1 * d.val = d.val; rw [e2]; omega

/-- What point t writes back is block t of the slab sums. -/
theorem flushed_r0 (c : Dev nD) (t : Fin cfg0.N) :
    (Frm.dat0 (F := Ideal) V c).flushed 2 t
      = ((cfg0.win 2).blk t).view.read (Elt Ideal) (G_r0 (V c main_v0) (V c main_v1)) := by
  show (cfg0.win 2).cut (grid0.coords t) ((Frm.dat0 (F := Ideal) V c).after 2 t) = _
  rw [Frm.after0_2]
  unfold Frm.out0_2
  rw [View.canon_unit_zero hz_r0]
  simp only [View.ld_unit_zero (S := S1x2048x128) hz_r0]
  obtain ⟨-, -, -, -, -, -, e0, -, -⟩ := idx_r0 t
  funext y
  show k0_pay1 (F := Ideal) (Frm.iblk0 V c 0 t) (Frm.iblk0 V c 1 t) y
    = slabSq_r0 (V c main_v0) (V c main_v1) ((((cfg0.win 2).blk t).view.emb y) 0)
  refine (k0_pay1_eq (Frm.iblk0 V c 0 t) (Frm.iblk0 V c 1 t) y).trans ?_
  have hy : ((((cfg0.win 2).blk t).view.emb y) 0 : Fin 32) = t.cast N_0 := by
    apply Fin.ext
    have := (y 0).isLt
    show win0_2.index t (0 : Fin 3) * 1 + 1 * (y 0).val = t.val
    rw [e0]
    have h1 : (y 0).val < 1 := (y 0).isLt
    omega
  rw [hy]
  unfold slabSq_r0
  refine Fintype.sum_congr _ _ fun n => Fintype.sum_congr _ _ fun d => ?_
  rw [iblk0_0_apply V c t n d, iblk0_1_apply V c t n d]

/-- The 32 one-word blocks cover the output array: index (t, 0, 0) is in point t's block. -/
theorem cover_r0 (i : S32x1x1.Idx) :
    ∃ t : Fin cfg0.N, (cfg0.win 2).flush t = true ∧ i ∈ ((cfg0.win 2).blk t).view.set := by
  refine ⟨(i 0).cast N_0.symm, flush0_2 _, ?_⟩
  obtain ⟨-, -, -, -, -, -, e0, e1, e2⟩ := idx_r0 ((i 0).cast N_0.symm)
  show i ∈ ((View.whole main_v2).slice (win0_2.rect ((i 0).cast N_0.symm))).set
  rw [View.set_slice_whole, Rect.mem_set_unit]
  intro a
  have h1 : (i 1).val < 1 := (i 1).isLt
  have h2 : (i 2).val < 1 := (i 2).isLt
  match a with
  | ⟨0, _⟩ =>
    show win0_2.index ((i 0).cast N_0.symm) (0 : Fin 3) * 1 ≤ (i 0).val ∧ (i 0).val < win0_2.index ((i 0).cast N_0.symm) (0 : Fin 3) * 1 + 1
    rw [e0]
    show (i 0).val * 1 ≤ (i 0).val ∧ (i 0).val < (i 0).val * 1 + 1
    omega
  | ⟨1, _⟩ =>
    show win0_2.index ((i 0).cast N_0.symm) (1 : Fin 3) * 1 ≤ (i 1).val ∧ (i 1).val < win0_2.index ((i 0).cast N_0.symm) (1 : Fin 3) * 1 + 1
    rw [e1]; omega
  | ⟨2, _⟩ =>
    show win0_2.index ((i 0).cast N_0.symm) (2 : Fin 3) * 1 ≤ (i 2).val ∧ (i 2).val < win0_2.index ((i 0).cast N_0.symm) (2 : Fin 3) * 1 + 1
    rw [e2]; omega

/-- So the output array ends holding the slab sums. -/
theorem final_r0 (c : Dev nD) :
    (Frm.dat0 (F := Ideal) V c).arrAt 2 cfg0.N = G_r0 (V c main_v0) (V c main_v1) :=
  (Frm.dat0 (F := Ideal) V c).arrAt_eq_of_cover 2 (G_r0 (V c main_v0) (V c main_v1)) (fun t _ => flushed_r0 V c t) cover_r0

/-! ## The total -/

/-- An index of a [32, 1, 1] array is its first coordinate. -/
def slabEquiv_r0 : S32x1x1.Idx ≃ Fin 32 where
  toFun j := j 0
  invFun t := ix3 t 0 0
  left_inv j := by
    funext a
    have h1 : (j 1).val < 1 := (j 1).isLt
    have h2 : (j 2).val < 1 := (j 2).isLt
    match a with
    | ⟨0, _⟩ => rfl
    | ⟨1, _⟩ => exact Fin.ext (by show (0 : ℕ) = (j 1).val; omega)
    | ⟨2, _⟩ => exact Fin.ext (by show (0 : ℕ) = (j 2).val; omega)
  right_inv _ := rfl

/-- An index of a [32, 2048, 128] array is its three coordinates. -/
def idxEquiv_r0 : S32x2048x128.Idx ≃ Fin 32 × Fin 2048 × Fin 128 where
  toFun i := (i 0, i 1, i 2)
  invFun p := ix3 p.1 p.2.1 p.2.2
  left_inv i := (eq_ix3 i).symm
  right_inv _ := rfl

/-- A sum over the whole array is the sum over the slabs of the sums over each slab. -/
theorem sum_slabs_r0 (f : S32x2048x128.Idx → EReal) :
    ∑ i, f i = ∑ t : Fin 32, ∑ n : Fin 2048, ∑ d : Fin 128, f (ix3 t n d) := by
  rw [← Equiv.sum_comp idxEquiv_r0.symm f, Fintype.sum_prod_type]
  refine Fintype.sum_congr _ _ fun t => ?_
  rw [Fintype.sum_prod_type]
  rfl

/-- The output array of the first region, summed, is the sum of squared differences over every element. -/
theorem total0 (c : Dev nD) :
    ((∑ j : S32x1x1.Idx, (Frm.dat0 (F := Ideal) V c).arrAt 2 cfg0.N j : EReal))
      = Cert.Spec.sqTotal (V c main_v0) (V c main_v1) := by
  rw [final_r0 V c]
  unfold Cert.Spec.sqTotal
  rw [sum_slabs_r0]
  exact Fintype.sum_equiv slabEquiv_r0 _ _ fun j => rfl

end Cert.KernelIdeal.Val
end
-- ==== Proof.Val.Pay1.lean ====
/-
  The payloads of the second launch (the two graph sums) read at the extended reals.

  Each step of that launch computes, from one tile of 256 rows of a batch of the two graphs,
    * the tile's sum of squared differences, added to the running word of the first output;
    * the tile's sum of absolute differences from the identity pattern (row 256·ni + r against column q),
      added to the running word of the second output;
  and at the first tile of a batch both running words are set to zero.  A total is taken one axis at a time:
  along the 2048 lanes, then along the 256 rows, then along two unit axes, and the one entry left is read out.
-/
import proofs.«142973_j34608846471207_1_alg».proof.Proof.Gen.KernelIdeal.Skeleton
import proofs.«142973_j34608846471207_1_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Val

open Cert.KernelIdeal Cert.KernelIdeal.Gen Idealize.ShloMosaic Idealize.ShloMosaic.ValueIdx

/-! ## A total taken one axis at a time -/

/-- A sum along the lanes of a [1, 256, 2048] block, at row r. -/
theorem laneSum (x : FVec Ideal S1x256x2048 .f32) (h : S1x256x2048.Reduces [2] S1x256) (hφ : FKind.Formats .f32)
    (hacc : (0x00000000#32 : BitVec 32) = FKind.add.neutral .f32 hφ) (u : Fin 1) (r : Fin 256) :
    multiReduction .add [2] S1x256 x 0x00000000#32 h hφ hacc (ix2 u r) = ∑ q : Fin 2048, x (ix3 u r q) := by
  refine (Ideal.multiReduction_add_single x 0x00000000#32 h hφ hacc (ix2 u r)).trans ?_
  refine Finset.sum_congr rfl fun q _ => congrArg x ?_
  funext c
  match c with
  | ⟨0, _⟩ => exact Fin.ext rfl
  | ⟨1, _⟩ => exact Fin.ext rfl
  | ⟨2, _⟩ => exact Fin.ext rfl

/-- A sum along the rows of a [1, 256] block. -/
theorem rowSum (x : FVec Ideal S1x256 .f32) (h : S1x256.Reduces [1] S1) (hφ : FKind.Formats .f32)
    (hacc : (0x00000000#32 : BitVec 32) = FKind.add.neutral .f32 hφ) (u : Fin 1) :
    multiReduction .add [1] S1 x 0x00000000#32 h hφ hacc (ix1 u) = ∑ r : Fin 256, x (ix2 u r) := by
  refine (Ideal.multiReduction_add_single x 0x00000000#32 h hφ hacc (ix1 u)).trans ?_
  refine Finset.sum_congr rfl fun r _ => congrArg x ?_
  funext c
  match c with
  | ⟨0, _⟩ => exact Fin.ext rfl
  | ⟨1, _⟩ => exact Fin.ext rfl

/-- A sum along the second axis of a [1, 1] block: its one entry. -/
theorem unitSum (x : FVec Ideal S1x1 .f32) (h : S1x1.Reduces [1] S1) (hφ : FKind.Formats .f32)
    (hacc : (0x00000000#32 : BitVec 32) = FKind.add.neutral .f32 hφ) (u : Fin 1) :
    multiReduction .add [1] S1 x 0x00000000#32 h hφ hacc (ix1 u) = x (ix2 u 0) := by
  refine (Ideal.multiReduction_add_single x 0x00000000#32 h hφ hacc (ix1 u)).trans ?_
  refine (Fin.sum_univ_one _).trans (congrArg x ?_)
  funext c
  match c with
  | ⟨0, _⟩ => exact Fin.ext rfl
  | ⟨1, _⟩ => exact Fin.ext rfl

/-- The entry at position (0, 0) of a [1, 1] block. -/
theorem extract00 {α : Type} (x : S1x1.Idx → α) (h : ∀ a, (![0, 0] : Fin 2 → Nat) a < S1x1.size a) :
    extractAt ![0, 0] x h = x (ix2 0 0) := by
  unfold extractAt
  refine congrArg x ?_
  funext c
  match c with
  | ⟨0, _⟩ => exact Fin.ext rfl
  | ⟨1, _⟩ => exact Fin.ext rfl

/-- The total of a [1, 256, 2048] block as the kernel takes it: lanes, rows, then the two unit axes, and the one entry
    read out: the double sum over rows and lanes. -/
theorem fullSum (x : FVec Ideal S1x256x2048 .f32)
    (h1 : S1x256x2048.Reduces [2] S1x256) (h2 : S1x256.Reduces [1] S1) (h3 : S1.ShapeCasts S1x1)
    (h4 : S1x1.Reduces [1] S1) (h5 : ∀ a, (![0, 0] : Fin 2 → Nat) a < S1x1.size a)
    (hφ : FKind.Formats .f32) (hacc : (0x00000000#32 : BitVec 32) = FKind.add.neutral .f32 hφ) :
    extractAt ![0, 0]
        (shapeCast S1x1
          (multiReduction .add [1] S1
            (shapeCast S1x1
              (multiReduction .add [1] S1
                (multiReduction .add [2] S1x256 x 0x00000000#32 h1 hφ hacc) 0x00000000#32 h2 hφ hacc) h3)
            0x00000000#32 h4 hφ hacc) h3) h5
      = ∑ r : Fin 256, ∑ q : Fin 2048, x (ix3 0 r q) := by
  rw [extract00, shapeCast_a_1a_apply, unitSum, shapeCast_a_1a_apply, rowSum]
  exact Finset.sum_congr rfl fun r _ => laneSum x h1 hφ hacc 0 r

/-! ## The identity pattern -/

/-- Row 256·n + r of the graph against column q, as 32-bit words: no word wraps, so the words are equal exactly when
    the numbers are. -/
theorem rowWord_eq_iff (n r q : Nat) (hn : n < 8) (hr : r < 256) (hq : q < 2048) :
    IntOp.addi (BitVec.ofNat 32 r) (Scalar.muli (BitVec.ofNat 32 n) 256#32) = BitVec.ofNat 32 q ↔ 256 * n + r = q := by
  unfold IntOp.addi Scalar.muli IntOp.muli
  rw [← BitVec.toNat_inj]
  simp only [BitVec.toNat_add, BitVec.toNat_mul, BitVec.toNat_ofNat]
  omega

/-- A one-bit word widened to 32 bits and read as a signed integer, then as a real: one for the set bit, zero for the
    clear one. -/
theorem bitWord_eq (c : Bool) :
    (FloatOps.sitofp (F := Ideal) .f32 ((BitVec.ofBool c).setWidth 32) : EReal) = if c then 1 else 0 := by
  show ((((BitVec.ofBool c).setWidth 32).toInt : ℝ) : EReal) = _
  cases c
  · simp
  · simp

/-- The identity pattern of tile n at (r, q): the comparison of the row number 256·n + r with the column number q,
    widened and converted. -/
theorem eyeWord (n : Nat) (hn : n < 8) (h1 : S1x256x2048.Iotas .tc 32 [1]) (h2 : S1x256x2048.Iotas .tc 32 [2])
    (h3 : 1 < 32) (r : Fin 256) (q : Fin 2048) :
    (sitofp .f32 (extui 32 (cmpi .eq (addi (iota .tc S1x256x2048 32 [1] h1)
        (broadcast S1x256x2048 (Scalar.muli (BitVec.ofNat 32 n) 256#32))) (iota .tc S1x256x2048 32 [2] h2)) h3)
      : FVec Ideal S1x256x2048 .f32) (ix3 0 r q) = if 256 * n + r.val = q.val then 1 else 0 := by
  rw [sitofp_apply, extui_apply]
  show FloatOps.sitofp (F := Ideal) .f32 ((IntOp.cmpi .eq (IntOp.addi (iota .tc S1x256x2048 32 [1] h1 (ix3 0 r q))
      (Scalar.muli (BitVec.ofNat 32 n) 256#32)) (iota .tc S1x256x2048 32 [2] h2 (ix3 0 r q))).setWidth 32) = _
  rw [iota_single_apply, iota_single_apply]
  show FloatOps.sitofp (F := Ideal) .f32 ((BitVec.ofBool (IntOp.addi (BitVec.ofNat 32 r.val)
      (Scalar.muli (BitVec.ofNat 32 n) 256#32) == BitVec.ofNat 32 q.val)).setWidth 32) = _
  rw [bitWord_eq]
  by_cases h : 256 * n + r.val = q.val
  · rw [if_pos h, if_pos (beq_iff_eq.2 ((rowWord_eq_iff n r.val q.val hn r.isLt q.isLt).2 h))]
  · rw [if_neg h, if_neg (fun hb => h ((rowWord_eq_iff n r.val q.val hn r.isLt q.isLt).1 (beq_iff_eq.1 hb)))]

/-! ## The five payloads -/

/-- The running word of the first output after a tile: the word before plus the tile's sum of squared differences. -/
theorem k1_pay5_eq (v1 v2 : Vec Ideal S1x256x2048 .f32) (v30 : Vec Ideal S1x1x1 .f32) (j : S1x1x1.Idx) :
    k1_pay5 (F := Ideal) v1 v2 v30 j
      = v30 j + ∑ r : Fin 256, ∑ q : Fin 2048,
          (v1 (ix3 0 r q) - v2 (ix3 0 r q)) * (v1 (ix3 0 r q) - v2 (ix3 0 r q)) := by
  have h := fullSum (mulf (subf (v1 : FVec Ideal S1x256x2048 .f32) v2) (subf (v1 : FVec Ideal S1x256x2048 .f32) v2))
    reduces_S1x256x2048_S1x256 reduces_S1x256_S1 shapeCasts_S1_S1x1 reduces_S1x1_S1 inpos_S1x1_p0_0 (.inl rfl) rfl
  refine (congrArg (fun t => shapeCast S1x1x1 v30 shapeCasts_S1x1x1_S1x1x1 j + t) h).trans ?_
  rw [shapeCast_self]
  rfl

/-- The tile's sum of absolute differences from the identity pattern. -/
theorem k1_pay2_eq (i : grid1.Coords) (v18 : Vec Ideal S1x256x2048 .f32) :
    k1_pay2 (F := Ideal) i v18
      = ∑ r : Fin 256, ∑ q : Fin 2048,
          max (v18 (ix3 0 r q) - (if 256 * (i 1).val + r.val = q.val then 1 else 0))
            (-(v18 (ix3 0 r q) - (if 256 * (i 1).val + r.val = q.val then 1 else 0))) := by
  have hn : (i 1).val < 8 := (i 1).isLt
  refine (fullSum (absf (subf (v18 : FVec Ideal S1x256x2048 .f32)
      (sitofp .f32 (extui 32 (cmpi .eq (addi (iota .tc S1x256x2048 32 [1] iota_S1x256x2048_d1_w32)
        (broadcast S1x256x2048 (Scalar.muli (BitVec.ofNat 32 (i 1).val) 256#32)))
        (iota .tc S1x256x2048 32 [2] iota_S1x256x2048_d2_w32)) natLt_1_32))))
    reduces_S1x256x2048_S1x256 reduces_S1x256_S1 shapeCasts_S1_S1x1 reduces_S1x1_S1 inpos_S1x1_p0_0 (.inl rfl) rfl).trans ?_
  refine Finset.sum_congr rfl fun r _ => Finset.sum_congr rfl fun q _ => ?_
  show max (v18 (ix3 0 r q) - _) (-(v18 (ix3 0 r q) - _)) = _
  rw [eyeWord (i 1).val hn iota_S1x256x2048_d1_w32 iota_S1x256x2048_d2_w32 natLt_1_32 r q]

/-- The running word of the second output after a tile: the word before plus the tile's sum. -/
theorem k1_pay1_eq (v26 : Ideal .f32) (v35 : Vec Ideal S1x1x1 .f32) (j : S1x1x1.Idx) :
    k1_pay1 (F := Ideal) v26 v35 j = v35 j + v26 := by
  show shapeCast S1x1x1 v35 shapeCasts_S1x1x1_S1x1x1 j + v26 = _
  rw [shapeCast_self]

/-- The first output's running word at the first tile of a batch: zero. -/
theorem k1_pay3_eq (j : S1x1x1.Idx) : k1_pay3 (F := Ideal) j = 0 := by
  show Ideal.ofBits .f32 0x00000000#32 = 0
  exact Ideal.ofBits_zero_f32

/-- The second output's running word at the first tile of a batch: zero. -/
theorem k1_pay4_eq (j : S1x1x1.Idx) : k1_pay4 (F := Ideal) j = 0 := by
  show Ideal.ofBits .f32 0x00000000#32 = 0
  exact Ideal.ofBits_zero_f32

end Cert.KernelIdeal.Val

end
-- ==== Proof.Val.V1.lean ====
/-
  Region 1 (the graph losses), its value: after the 64 points the two one-word-per-batch outputs hold, batch by
  batch, the sum over the batch's eight row tiles of the tile's squared differences and of its absolute deviations
  from the identity pattern; summed over the eight batches these are the two totals of the specification.
-/
import proofs.«142973_j34608846471207_1_alg».proof.Proof.KI.R1
import proofs.«142973_j34608846471207_1_alg».proof.Proof.Val.Pay1
import proofs.«142973_j34608846471207_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic

set_option maxRecDepth 16384

open scoped BigOperators

noncomputable section

namespace Cert.KernelIdeal.Val.R1

open Cert.KernelIdeal Cert.KernelIdeal.Gen Cert.KernelIdeal.Frm
open Idealize.ShloMosaic Idealize.ShloMosaic.TcCoe Idealize.ShloMosaic.Tactic Idealize.SL.Sem Idealize.ShloMosaic.ValueIdx
open Idealize.ShloMosaic.Pipeline (Dat)

/-! ## What each case leaves in the outputs, as payloads of the tiles (any float values) -/

section Pieces
variable {F : FTy → Type} [FloatOps F]

theorem hz3 : (![0, 0, 0] : Fin 3 → Nat) = fun _ => 0 := funext fun a => by fin_cases a <;> rfl

/-- A later row tile, first output: the running word plus the tile's squared-difference sum. -/
theorem out_B_2 (c : Dev nD) (i : grid1.Coords) (a2 : Memref sig .tc .vmem S1x256x2048 .f32) (h2 : a2.IsWhole) (a3 : Memref sig .tc .vmem S1x256x2048 .f32) (h3 : a3.IsWhole) (a4 : Memref sig .tc .vmem S1x1x1 .f32) (h4 : a4.IsWhole) (a5 : Memref sig .tc .vmem S1x1x1 .f32) (h5 : a5.IsWhole) (hc : ¬cond1_0 i)
    (x0 x1 : Vec F S1x256x2048 .f32) (xo2 xo3 : Vec F S1x1x1 .f32) :
    out1_B_2 c i a2 h2 a3 h3 a4 h4 a5 h5 hc x0 x1 xo2 xo3 = k1_pay5 x0 x1 xo2 := by
  unfold out1_B_2
  rw [View.read_writes_eq_canon _ _ _ (cover1_B_2 c i a2 h2 a3 h3 a4 h4 a5 h5 hc x0 x1 xo2 xo3)]
  unfold kernelRun1_B
  dsimp only
  sl_unfold_words
  rw [View.canon_unit_zero hz3]
  simp only [View.readAt_eq_ld, h2.read_unread, h3.read_unread, h4.read_unread, View.ld_unit_zero (S := S1x256x2048) hz3, View.ld_unit_zero (S := S1x1x1) hz3]

/-- A later row tile, second output: the running word plus the tile's absolute-deviation sum. -/
theorem out_B_3 (c : Dev nD) (i : grid1.Coords) (a2 : Memref sig .tc .vmem S1x256x2048 .f32) (h2 : a2.IsWhole) (a3 : Memref sig .tc .vmem S1x256x2048 .f32) (h3 : a3.IsWhole) (a4 : Memref sig .tc .vmem S1x1x1 .f32) (h4 : a4.IsWhole) (a5 : Memref sig .tc .vmem S1x1x1 .f32) (h5 : a5.IsWhole) (hc : ¬cond1_0 i)
    (x0 x1 : Vec F S1x256x2048 .f32) (xo2 xo3 : Vec F S1x1x1 .f32) :
    out1_B_3 c i a2 h2 a3 h3 a4 h4 a5 h5 hc x0 x1 xo2 xo3 = k1_pay1 (k1_pay2 i x0) xo3 := by
  unfold out1_B_3
  rw [View.read_writes_eq_canon _ _ _ (cover1_B_3 c i a2 h2 a3 h3 a4 h4 a5 h5 hc x0 x1 xo2 xo3)]
  unfold kernelRun1_B
  dsimp only
  sl_unfold_words
  rw [View.canon_unit_zero hz3]
  simp only [View.readAt_eq_ld, h2.read_unread, h5.read_unread, View.ld_unit_zero (S := S1x256x2048) hz3, View.ld_unit_zero (S := S1x1x1) hz3]

/-- A first row tile, first output: zero plus the tile's squared-difference sum. -/
theorem out_A_2 (c : Dev nD) (i : grid1.Coords) (a2 : Memref sig .tc .vmem S1x256x2048 .f32) (h2 : a2.IsWhole) (a3 : Memref sig .tc .vmem S1x256x2048 .f32) (h3 : a3.IsWhole) (a4 : Memref sig .tc .vmem S1x1x1 .f32) (h4 : a4.IsWhole) (a5 : Memref sig .tc .vmem S1x1x1 .f32) (h5 : a5.IsWhole) (hc : cond1_0 i)
    (x0 x1 : Vec F S1x256x2048 .f32) :
    out1_A_2 c i a2 h2 a3 h3 a4 h4 a5 h5 hc x0 x1 = k1_pay5 x0 x1 (k1_pay3 (F := F)) := by
  unfold out1_A_2
  rw [View.read_writes_eq_canon _ _ _ (cover1_A_2 c i a2 h2 a3 h3 a4 h4 a5 h5 hc x0 x1)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S1x256x2048) hz3]

/-- A first row tile, second output: zero plus the tile's absolute-deviation sum. -/
theorem out_A_3 (c : Dev nD) (i : grid1.Coords) (a2 : Memref sig .tc .vmem S1x256x2048 .f32) (h2 : a2.IsWhole) (a3 : Memref sig .tc .vmem S1x256x2048 .f32) (h3 : a3.IsWhole) (a4 : Memref sig .tc .vmem S1x1x1 .f32) (h4 : a4.IsWhole) (a5 : Memref sig .tc .vmem S1x1x1 .f32) (h5 : a5.IsWhole) (hc : cond1_0 i)
    (x0 x1 : Vec F S1x256x2048 .f32) :
    out1_A_3 c i a2 h2 a3 h3 a4 h4 a5 h5 hc x0 x1 = k1_pay1 (k1_pay2 i x0) (k1_pay4 (F := F)) := by
  unfold out1_A_3
  rw [View.read_writes_eq_canon _ _ _ (cover1_A_3 c i a2 h2 a3 h3 a4 h4 a5 h5 hc x0 x1)]
  unfold kernelRun1_A
  dsimp only
  sl_unfold_words
  rw [View.canon_cons_unit_zero (S := S1x1x1) hz3, View.readCov_unit_zero (S := S1x1x1) _ hz3]
  simp only [View.readAt_eq_ld, h2.read_unread, View.ld_unit_zero (S := S1x256x2048) hz3]

end Pieces

/-! ## The tiles and the arrays, by name -/

section Names
variable {F : FTy → Type} [FloatOps F]
variable (V : (c : Dev nD) → (b : Ref sig .tc) → Buf (Elt F) ((c : Thread nD τ).loc b))

/-- The two graphs as the region finds them, and their row tiles at point t. -/
abbrev gArr (c : Dev nD) : Vec F S8x2048x2048 .f32 := V c main_arg3
abbrev hArr (c : Dev nD) : Vec F S8x2048x2048 .f32 := V c main_arg4
abbrev gTile (c : Dev nD) (t : Fin cfg1.N) : Vec F S1x256x2048 .f32 := iblk1 V c 0 t
abbrev hTile (c : Dev nD) (t : Fin cfg1.N) : Vec F S1x256x2048 .f32 := iblk1 V c 1 t

theorem lt64 (t : Fin cfg1.N) : t.val < 64 := lt_of_lt_of_eq t.isLt (show cfg1.N = 64 from N_1)

/-- Point t's batch, and the array row that row r of its tile is. -/
def batchOf (t : Fin cfg1.N) : Fin 8 := ⟨t.val / 8, by have := lt64 t; omega⟩
def rowOf (t : Fin cfg1.N) (r : Fin 256) : Fin 2048 := ⟨256 * (t.val % 8) + r.val, by have := r.isLt; omega⟩

/-- The printed index maps over the grid: point t is (batch t / 8, row tile t % 8); the tiles sit at block
    (t / 8, t % 8, 0), the outputs' words at block (t / 8, 0, 0). -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = t.val % 8 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = 0 ∧ win1_3.index t (2 : Fin 3) = 0
    ∧ ((grid1.coords t) 1).val = t.val % 8 :=
  (by decide +kernel : ∀ t : Fin grid1.N, _)

/-- Row r, column q of point t's tile of the first graph is row 256·(t % 8) + r, column q of batch t / 8. -/
theorem gTile_apply (c : Dev nD) (t : Fin cfg1.N) (r : Fin 256) (q : Fin 2048) :
    gTile V c t (ix3 0 r q) = gArr V c (ix3 (batchOf t) (rowOf t r) q) := by
  obtain ⟨e0, e1, e2, -⟩ := idx_facts t
  show iblk1 V c 0 t (ix3 0 r q) = V c main_arg3 _
  unfold iblk1
  rw [View.read_apply]
  show V c main_arg3 _ = V c main_arg3 _
  congr 1
  funext a
  apply Fin.ext
  match a with
  | ⟨0, _⟩ => show win1_0.index t (0 : Fin 3) * 1 + 1 * 0 = t.val / 8; omega
  | ⟨1, _⟩ => show win1_0.index t (1 : Fin 3) * 256 + 1 * r.val = 256 * (t.val % 8) + r.val; omega
  | ⟨2, _⟩ => show win1_0.index t (2 : Fin 3) * 2048 + 1 * q.val = q.val; omega

/-- The second graph's tile likewise. -/
theorem hTile_apply (c : Dev nD) (t : Fin cfg1.N) (r : Fin 256) (q : Fin 2048) :
    hTile V c t (ix3 0 r q) = hArr V c (ix3 (batchOf t) (rowOf t r) q) := by
  obtain ⟨-, -, -, e0, e1, e2, -⟩ := idx_facts t
  show iblk1 V c 1 t (ix3 0 r q) = V c main_arg4 _
  unfold iblk1
  rw [View.read_apply]
  show V c main_arg4 _ = V c main_arg4 _
  congr 1
  funext a
  apply Fin.ext
  match a with
  | ⟨0, _⟩ => show win1_1.index t (0 : Fin 3) * 1 + 1 * 0 = t.val / 8; omega
  | ⟨1, _⟩ => show win1_1.index t (1 : Fin 3) * 256 + 1 * r.val = 256 * (t.val % 8) + r.val; omega
  | ⟨2, _⟩ => show win1_1.index t (2 : Fin 3) * 2048 + 1 * q.val = q.val; omega

end Names

/-! ## A running word that is reset at each batch's first tile -/

section Running

/-- The running word after point n of a quantity f of the points: f alone at a batch's first tile (added to
    zero), the word before plus f at a later one. -/
def accN (f : ℕ → EReal) : ℕ → EReal
  | 0 => 0 + f 0
  | n + 1 => if (n + 1) % 8 = 0 then 0 + f (n + 1) else accN f n + f (n + 1)

theorem accN_reset (f : ℕ → EReal) (n : ℕ) (h : n % 8 = 0) : accN f n = 0 + f n := by
  cases n with
  | zero => rfl
  | succ n => rw [accN]; exact if_pos h

theorem accN_step (f : ℕ → EReal) (n : ℕ) (h : ¬(n + 1) % 8 = 0) : accN f (n + 1) = accN f n + f (n + 1) := by
  rw [accN]; exact if_neg h

/-- Within batch b the running word after tile k is the sum of f over the batch's tiles up to k. -/
theorem accN_batch (f : ℕ → EReal) (b : ℕ) : ∀ k : ℕ, k < 8 → accN f (8 * b + k) = ∑ i ∈ Finset.range (k + 1), f (8 * b + i)
  | 0, _ => by
    rw [accN_reset f (8 * b + 0) (by omega), Finset.sum_range_one, zero_add]
  | k + 1, hk => by
    have ih := accN_batch f b k (by omega)
    rw [show 8 * b + (k + 1) = (8 * b + k) + 1 from rfl, accN_step f (8 * b + k) (by omega), ih,
      Finset.sum_range_succ (fun i => f (8 * b + i)) (k + 1)]
    rfl

end Running

/-! ## The two outputs point by point, at the extended reals -/

section Invariant
variable (V : (c : Dev nD) → (b : Ref sig .tc) → Buf (Elt Ideal) ((c : Thread nD τ).loc b))

/-- Point t's tile sums: of the squared differences of the two graphs, -/
def sqTile (c : Dev nD) (t : Fin cfg1.N) : EReal :=
  ∑ r : Fin 256, ∑ q : Fin 2048, (gTile (F := Ideal) V c t (ix3 0 r q) - hTile (F := Ideal) V c t (ix3 0 r q)) * (gTile (F := Ideal) V c t (ix3 0 r q) - hTile (F := Ideal) V c t (ix3 0 r q))

/-- and of the first graph's absolute deviations from the identity pattern (row 256·ni + r against column q). -/
def absTile (c : Dev nD) (t : Fin cfg1.N) : EReal :=
  ∑ r : Fin 256, ∑ q : Fin 2048, max (gTile (F := Ideal) V c t (ix3 0 r q) - (if 256 * ((grid1.coords t) 1).val + r.val = q.val then 1 else 0)) (-(gTile (F := Ideal) V c t (ix3 0 r q) - (if 256 * ((grid1.coords t) 1).val + r.val = q.val then 1 else 0)))

/-- The same as quantities of the position (zero past the grid). -/
def sqN (c : Dev nD) (n : ℕ) : EReal := if h : n < cfg1.N then sqTile V c ⟨n, h⟩ else 0
def absN (c : Dev nD) (n : ℕ) : EReal := if h : n < cfg1.N then absTile V c ⟨n, h⟩ else 0
theorem sqN_of_lt (c : Dev nD) (n : ℕ) (h : n < cfg1.N) : sqN V c n = sqTile V c ⟨n, h⟩ := dif_pos h
theorem absN_of_lt (c : Dev nD) (n : ℕ) (h : n < cfg1.N) : absN V c n = absTile V c ⟨n, h⟩ := dif_pos h

/-- At a batch's first tile the first output holds zero plus the tile's squared-difference sum, -/
theorem first_sq (c : Dev nD) (t : Fin cfg1.N) (h0 : t.val % 8 = 0) (j : S1x1x1.Idx) :
    (outsAt1 (F := Ideal) V c t.val t.isLt).1 j = 0 + sqTile V c t := by
  rw [outsAt1_A V c t h0]
  dsimp only
  refine (congrFun (out_A_2 (F := Ideal) c (grid1.coords t) (ms1_0 t) (hs1_0 t) (ms1_1 t) (hs1_1 t) (ms1_2 t) (hs1_2 t) (ms1_3 t) (hs1_3 t) ((hcond1_0 t).mpr h0) (gTile V c t) (hTile V c t)) j).trans ?_
  refine (k1_pay5_eq (gTile V c t) (hTile V c t) (k1_pay3 (F := Ideal)) j).trans ?_
  rw [k1_pay3_eq j]
  rfl

/-- and the second zero plus its absolute-deviation sum. -/
theorem first_abs (c : Dev nD) (t : Fin cfg1.N) (h0 : t.val % 8 = 0) (j : S1x1x1.Idx) :
    (outsAt1 (F := Ideal) V c t.val t.isLt).2 j = 0 + absTile V c t := by
  rw [outsAt1_A V c t h0]
  dsimp only
  refine (congrFun (out_A_3 (F := Ideal) c (grid1.coords t) (ms1_0 t) (hs1_0 t) (ms1_1 t) (hs1_1 t) (ms1_2 t) (hs1_2 t) (ms1_3 t) (hs1_3 t) ((hcond1_0 t).mpr h0) (gTile V c t) (hTile V c t)) j).trans ?_
  refine (k1_pay1_eq (k1_pay2 (F := Ideal) (grid1.coords t) (gTile V c t)) (k1_pay4 (F := Ideal)) j).trans ?_
  rw [k1_pay4_eq j, k1_pay2_eq (grid1.coords t) (gTile V c t)]
  rfl

/-- At a later tile the first output holds what the point before left plus the tile's squared-difference sum, -/
theorem later_sq (c : Dev nD) (t : Fin cfg1.N) (h0 : ¬t.val % 8 = 0) (j : S1x1x1.Idx) :
    (outsAt1 (F := Ideal) V c t.val t.isLt).1 j = (outsAt1 (F := Ideal) V c (t.val - 1) (Nat.lt_of_le_of_lt (Nat.sub_le _ _) t.isLt)).1 j + sqTile V c t := by
  rw [outsAt1_B V c t h0]
  dsimp only
  refine (congrFun (out_B_2 (F := Ideal) c (grid1.coords t) (ms1_0 t) (hs1_0 t) (ms1_1 t) (hs1_1 t) (ms1_2 t) (hs1_2 t) (ms1_3 t) (hs1_3 t) (fun h => h0 ((hcond1_0 t).mp h)) (gTile V c t) (hTile V c t) (outsAt1 (F := Ideal) V c (t.val - 1) (Nat.lt_of_le_of_lt (Nat.sub_le _ _) t.isLt)).1 (outsAt1 (F := Ideal) V c (t.val - 1) (Nat.lt_of_le_of_lt (Nat.sub_le _ _) t.isLt)).2) j).trans ?_
  exact k1_pay5_eq (gTile V c t) (hTile V c t) (outsAt1 (F := Ideal) V c (t.val - 1) (Nat.lt_of_le_of_lt (Nat.sub_le _ _) t.isLt)).1 j

/-- and the second what the point before left plus its absolute-deviation sum. -/
theorem later_abs (c : Dev nD) (t : Fin cfg1.N) (h0 : ¬t.val % 8 = 0) (j : S1x1x1.Idx) :
    (outsAt1 (F := Ideal) V c t.val t.isLt).2 j = (outsAt1 (F := Ideal) V c (t.val - 1) (Nat.lt_of_le_of_lt (Nat.sub_le _ _) t.isLt)).2 j + absTile V c t := by
  rw [outsAt1_B V c t h0]
  dsimp only
  refine (congrFun (out_B_3 (F := Ideal) c (grid1.coords t) (ms1_0 t) (hs1_0 t) (ms1_1 t) (hs1_1 t) (ms1_2 t) (hs1_2 t) (ms1_3 t) (hs1_3 t) (fun h => h0 ((hcond1_0 t).mp h)) (gTile V c t) (hTile V c t) (outsAt1 (F := Ideal) V c (t.val - 1) (Nat.lt_of_le_of_lt (Nat.sub_le _ _) t.isLt)).1 (outsAt1 (F := Ideal) V c (t.val - 1) (Nat.lt_of_le_of_lt (Nat.sub_le _ _) t.isLt)).2) j).trans ?_
  refine (k1_pay1_eq (k1_pay2 (F := Ideal) (grid1.coords t) (gTile V c t)) (outsAt1 (F := Ideal) V c (t.val - 1) (Nat.lt_of_le_of_lt (Nat.sub_le _ _) t.isLt)).2 j).trans ?_
  rw [k1_pay2_eq (grid1.coords t) (gTile V c t)]
  rfl

/-- THE INVARIANT: after point n the two outputs' words are the running words of the two tile sums. -/
theorem outsAt_eq (c : Dev nD) : ∀ (n : ℕ) (h : n < cfg1.N) (j : S1x1x1.Idx),
    (outsAt1 (F := Ideal) V c n h).1 j = accN (sqN V c) n ∧ (outsAt1 (F := Ideal) V c n h).2 j = accN (absN V c) n
  | 0, h, j =>
    ⟨(first_sq V c ⟨0, h⟩ rfl j).trans (by rw [accN_reset _ 0 rfl, sqN_of_lt V c 0 h]),
     (first_abs V c ⟨0, h⟩ rfl j).trans (by rw [accN_reset _ 0 rfl, absN_of_lt V c 0 h])⟩
  | n + 1, h, j => by
    by_cases h0 : (n + 1) % 8 = 0
    · exact ⟨(first_sq V c ⟨n + 1, h⟩ h0 j).trans (by rw [accN_reset _ (n + 1) h0, sqN_of_lt V c (n + 1) h]),
        (first_abs V c ⟨n + 1, h⟩ h0 j).trans (by rw [accN_reset _ (n + 1) h0, absN_of_lt V c (n + 1) h])⟩
    · have ih := outsAt_eq c n (Nat.lt_of_succ_lt h) j
      refine ⟨(later_sq V c ⟨n + 1, h⟩ h0 j).trans ?_, (later_abs V c ⟨n + 1, h⟩ h0 j).trans ?_⟩
      · rw [accN_step _ n h0, sqN_of_lt V c (n + 1) h]
        exact congrArg (· + sqTile V c ⟨n + 1, h⟩) ih.1
      · rw [accN_step _ n h0, absN_of_lt V c (n + 1) h]
        exact congrArg (· + absTile V c ⟨n + 1, h⟩) ih.2

end Invariant

/-! ## From the written-back words to the arrays -/

section Arrays
variable (V : (c : Dev nD) → (b : Ref sig .tc) → Buf (Elt Ideal) ((c : Thread nD τ).loc b))

/-- What an output array ends holding, from the running word of its quantity: at batch b, the word after the
    batch's last tile. -/
def res (f : ℕ → EReal) : Vec Ideal S8x1x1 .f32 := fun k => accN f (8 * (k 0).val + 7)

/-- An index of output 2's array is in point t's block iff each coordinate is in the block's range. -/
theorem mem_blk2 (t : Fin cfg1.N) (i : S8x1x1.Idx) :
    i ∈ ((cfg1.win 2).blk t).view.set ↔ ∀ a : Fin 3, win1_2.index t a * S1x1x1.size a ≤ (i a).val ∧ (i a).val < win1_2.index t a * S1x1x1.size a + S1x1x1.size a := by
  show i ∈ ((View.whole main_v5_0).slice (win1_2.rect t)).set ↔ _
  rw [View.set_slice_whole, Rect.mem_set_unit]
  exact Iff.rfl

/-- An index of output 3's array is in point t's block iff each coordinate is in the block's range. -/
theorem mem_blk3 (t : Fin cfg1.N) (i : S8x1x1.Idx) :
    i ∈ ((cfg1.win 3).blk t).view.set ↔ ∀ a : Fin 3, win1_3.index t a * S1x1x1.size a ≤ (i a).val ∧ (i a).val < win1_3.index t a * S1x1x1.size a + S1x1x1.size a := by
  show i ∈ ((View.whole main_v5_1).slice (win1_3.rect t)).set ↔ _
  rw [View.set_slice_whole, Rect.mem_set_unit]
  exact Iff.rfl

/-- WHAT POINT t WRITES BACK of output 2 (a batch's last tile): the word of batch t / 8 of the squared-difference sums. -/
theorem flushed2_eq (c : Dev nD) (t : Fin cfg1.N) (hf : (cfg1.win 2).flush t = true) :
    (dat1 (F := Ideal) V c).flushed 2 t = ((cfg1.win 2).blk t).view.read (Elt Ideal) (res (sqN V c)) := by
  have h7 : t.val % 8 = 7 := (flush1_2 t).mp hf
  obtain ⟨-, -, -, -, -, -, e0, e1, e2, -⟩ := idx_facts t
  show (cfg1.win 2).cut (grid1.coords t) ((dat1 (F := Ideal) V c).after 2 t) = _
  rw [after1_2]
  funext y
  rw [View.read_apply]
  refine ((outsAt_eq V c t.val t.isLt y).1).trans ?_
  show accN (sqN V c) t.val = accN (sqN V c) (8 * (win1_2.index t (0 : Fin 3) * 1 + 1 * (y 0).val) + 7)
  have hy : (y 0).val < 1 := (y 0).isLt
  congr 1
  omega

/-- Every word of output 2's array is written back by its batch's last tile. -/
theorem cover2 (i : S8x1x1.Idx) : ∃ t : Fin cfg1.N, (cfg1.win 2).flush t = true ∧ i ∈ ((cfg1.win 2).blk t).view.set := by
  have hi0 : (i 0).val < 8 := (i 0).isLt
  have hi1 : (i 1).val < 1 := (i 1).isLt
  have hi2 : (i 2).val < 1 := (i 2).isLt
  have hN : cfg1.N = 64 := N_1
  obtain ⟨t, tv⟩ : ∃ t : Fin cfg1.N, t.val = 8 * (i 0).val + 7 := ⟨⟨8 * (i 0).val + 7, by rw [hN]; omega⟩, rfl⟩
  obtain ⟨-, -, -, -, -, -, e0, e1, e2, -⟩ := idx_facts t
  refine ⟨t, (flush1_2 t).mpr (by omega), ?_⟩
  rw [mem_blk2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 1 ≤ (i 2).val ∧ (i 2).val < win1_2.index t (2 : Fin 3) * 1 + 1; omega

/-- So output 2's array ends holding, batch by batch, the word after the batch's last tile. -/
theorem final2 (c : Dev nD) : (dat1 (F := Ideal) V c).arrAt 2 cfg1.N = res (sqN V c) :=
  (dat1 (F := Ideal) V c).arrAt_eq_of_cover 2 (res (sqN V c)) (flushed2_eq V c) cover2

/-- WHAT POINT t WRITES BACK of output 3 (a batch's last tile): the word of batch t / 8 of the absolute-deviation sums. -/
theorem flushed3_eq (c : Dev nD) (t : Fin cfg1.N) (hf : (cfg1.win 3).flush t = true) :
    (dat1 (F := Ideal) V c).flushed 3 t = ((cfg1.win 3).blk t).view.read (Elt Ideal) (res (absN V c)) := by
  have h7 : t.val % 8 = 7 := (flush1_3 t).mp hf
  obtain ⟨-, -, -, -, -, -, -, -, -, e0, e1, e2, -⟩ := idx_facts t
  show (cfg1.win 3).cut (grid1.coords t) ((dat1 (F := Ideal) V c).after 3 t) = _
  rw [after1_3]
  funext y
  rw [View.read_apply]
  refine ((outsAt_eq V c t.val t.isLt y).2).trans ?_
  show accN (absN V c) t.val = accN (absN V c) (8 * (win1_3.index t (0 : Fin 3) * 1 + 1 * (y 0).val) + 7)
  have hy : (y 0).val < 1 := (y 0).isLt
  congr 1
  omega

/-- Every word of output 3's array is written back by its batch's last tile. -/
theorem cover3 (i : S8x1x1.Idx) : ∃ t : Fin cfg1.N, (cfg1.win 3).flush t = true ∧ i ∈ ((cfg1.win 3).blk t).view.set := by
  have hi0 : (i 0).val < 8 := (i 0).isLt
  have hi1 : (i 1).val < 1 := (i 1).isLt
  have hi2 : (i 2).val < 1 := (i 2).isLt
  have hN : cfg1.N = 64 := N_1
  obtain ⟨t, tv⟩ : ∃ t : Fin cfg1.N, t.val = 8 * (i 0).val + 7 := ⟨⟨8 * (i 0).val + 7, by rw [hN]; omega⟩, rfl⟩
  obtain ⟨-, -, -, -, -, -, -, -, -, e0, e1, e2, -⟩ := idx_facts t
  refine ⟨t, (flush1_3 t).mpr (by omega), ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 1 ≤ (i 2).val ∧ (i 2).val < win1_3.index t (2 : Fin 3) * 1 + 1; omega

/-- So output 3's array ends holding, batch by batch, the word after the batch's last tile. -/
theorem final3 (c : Dev nD) : (dat1 (F := Ideal) V c).arrAt 3 cfg1.N = res (absN V c) :=
  (dat1 (F := Ideal) V c).arrAt_eq_of_cover 3 (res (absN V c)) (flushed3_eq V c) cover3

end Arrays

/-! ## The totals -/

section Totals
variable (V : (c : Dev nD) → (b : Ref sig .tc) → Buf (Elt Ideal) ((c : Thread nD τ).loc b))

/-- The eight words of an output array, summed: the quantity summed over all 64 points, batch by batch. -/
theorem sum_res (f : ℕ → EReal) : ∑ j : S8x1x1.Idx, res f j = ∑ b : Fin 8, ∑ ni : Fin 8, f (8 * b.val + ni.val) := by
  let e : S8x1x1.Idx ≃ Fin 8 :=
    { toFun := fun j => j 0
      invFun := fun b => ix3 b 0 0
      left_inv := fun j => by
        funext a
        match a with
        | ⟨0, _⟩ => rfl
        | ⟨1, _⟩ => exact Fin.ext (by have h : (j 1).val < 1 := (j 1).isLt; show 0 = (j 1).val; omega)
        | ⟨2, _⟩ => exact Fin.ext (by have h : (j 2).val < 1 := (j 2).isLt; show 0 = (j 2).val; omega)
      right_inv := fun b => rfl }
  rw [Fintype.sum_equiv e (fun j => res f j) (fun b => accN f (8 * b.val + 7)) (fun j => rfl)]
  refine Finset.sum_congr rfl fun b _ => ?_
  rw [accN_batch f b.val 7 (by omega), Finset.sum_range]

/-- A sum over a batch of square matrices, grouped as the grid walks it: batch, row tile, row in the tile, column. -/
theorem sum_graph (Φ : Cert.Spec.SG.Idx → EReal) :
    ∑ k : Cert.Spec.SG.Idx, Φ k = ∑ b : Fin 8, ∑ ni : Fin 8, ∑ r : Fin 256, ∑ q : Fin 2048, Φ (ix3 b (⟨256 * ni.val + r.val, by have := ni.isLt; have := r.isLt; omega⟩ : Fin 2048) q) := by
  let e : (Fin 8 × Fin 8 × Fin 256 × Fin 2048) ≃ Cert.Spec.SG.Idx :=
    { toFun := fun p => ix3 p.1 (⟨256 * p.2.1.val + p.2.2.1.val, by have := p.2.1.isLt; have := p.2.2.1.isLt; omega⟩ : Fin 2048) p.2.2.2
      invFun := fun k => (k 0, ⟨(k 1).val / 256, by have h : (k 1).val < 2048 := (k 1).isLt; omega⟩, ⟨(k 1).val % 256, by omega⟩, k 2)
      left_inv := fun p => by
        obtain ⟨b, ni, r, q⟩ := p
        have hr := r.isLt
        refine Prod.ext rfl (Prod.ext (Fin.ext ?_) (Prod.ext (Fin.ext ?_) rfl))
        · show (256 * ni.val + r.val) / 256 = ni.val; omega
        · show (256 * ni.val + r.val) % 256 = r.val; omega
      right_inv := fun k => by
        funext a
        match a with
        | ⟨0, _⟩ => rfl
        | ⟨1, _⟩ => exact Fin.ext (by show 256 * ((k 1).val / 256) + (k 1).val % 256 = (k 1).val; omega)
        | ⟨2, _⟩ => rfl }
  rw [← Fintype.sum_equiv e (fun p => Φ (e p)) Φ (fun _ => rfl)]
  simp only [Fintype.sum_prod_type]
  rfl

theorem lt_N (b ni : Fin 8) : 8 * b.val + ni.val < cfg1.N := by
  rw [show cfg1.N = 64 from N_1]; have := b.isLt; have := ni.isLt; omega

/-- Tile ni of batch b, read off the arrays: its squared-difference sum, -/
theorem sqTile_eq (c : Dev nD) (b ni : Fin 8) :
    sqTile V c ⟨8 * b.val + ni.val, lt_N b ni⟩ = ∑ r : Fin 256, ∑ q : Fin 2048,
      (gArr (F := Ideal) V c (ix3 b (⟨256 * ni.val + r.val, by have := ni.isLt; have := r.isLt; omega⟩ : Fin 2048) q) - hArr (F := Ideal) V c (ix3 b (⟨256 * ni.val + r.val, by have := ni.isLt; have := r.isLt; omega⟩ : Fin 2048) q)) * (gArr (F := Ideal) V c (ix3 b (⟨256 * ni.val + r.val, by have := ni.isLt; have := r.isLt; omega⟩ : Fin 2048) q) - hArr (F := Ideal) V c (ix3 b (⟨256 * ni.val + r.val, by have := ni.isLt; have := r.isLt; omega⟩ : Fin 2048) q)) := by
  unfold sqTile
  refine Finset.sum_congr rfl fun r _ => Finset.sum_congr rfl fun q _ => ?_
  have hb : batchOf ⟨8 * b.val + ni.val, lt_N b ni⟩ = b := Fin.ext (by have := ni.isLt; show (8 * b.val + ni.val) / 8 = b.val; omega)
  have hr : rowOf ⟨8 * b.val + ni.val, lt_N b ni⟩ r = (⟨256 * ni.val + r.val, by have := ni.isLt; have := r.isLt; omega⟩ : Fin 2048) := Fin.ext (by have := ni.isLt; show 256 * ((8 * b.val + ni.val) % 8) + r.val = 256 * ni.val + r.val; omega)
  rw [gTile_apply, hTile_apply, hb, hr]

/-- and its absolute-deviation sum. -/
theorem absTile_eq (c : Dev nD) (b ni : Fin 8) :
    absTile V c ⟨8 * b.val + ni.val, lt_N b ni⟩ = ∑ r : Fin 256, ∑ q : Fin 2048,
      max (gArr (F := Ideal) V c (ix3 b (⟨256 * ni.val + r.val, by have := ni.isLt; have := r.isLt; omega⟩ : Fin 2048) q) - Cert.Spec.eye (ix3 b (⟨256 * ni.val + r.val, by have := ni.isLt; have := r.isLt; omega⟩ : Fin 2048) q)) (-(gArr (F := Ideal) V c (ix3 b (⟨256 * ni.val + r.val, by have := ni.isLt; have := r.isLt; omega⟩ : Fin 2048) q) - Cert.Spec.eye (ix3 b (⟨256 * ni.val + r.val, by have := ni.isLt; have := r.isLt; omega⟩ : Fin 2048) q))) := by
  unfold absTile
  refine Finset.sum_congr rfl fun r _ => Finset.sum_congr rfl fun q _ => ?_
  have hb : batchOf ⟨8 * b.val + ni.val, lt_N b ni⟩ = b := Fin.ext (by have := ni.isLt; show (8 * b.val + ni.val) / 8 = b.val; omega)
  have hr : rowOf ⟨8 * b.val + ni.val, lt_N b ni⟩ r = (⟨256 * ni.val + r.val, by have := ni.isLt; have := r.isLt; omega⟩ : Fin 2048) := Fin.ext (by have := ni.isLt; show 256 * ((8 * b.val + ni.val) % 8) + r.val = 256 * ni.val + r.val; omega)
  have hcoord : ((grid1.coords ⟨8 * b.val + ni.val, lt_N b ni⟩) 1).val = ni.val := by
    rw [(idx_facts ⟨8 * b.val + ni.val, lt_N b ni⟩).2.2.2.2.2.2.2.2.2.2.2.2]
    have := ni.isLt; show (8 * b.val + ni.val) % 8 = ni.val; omega
  rw [gTile_apply, hb, hr, hcoord]
  rfl

/-- The two output arrays after the region, by name. -/
abbrev outSq (c : Dev nD) : Vec Ideal S8x1x1 .f32 := (Frm.dat1 (F := Ideal) V c).arrAt 2 cfg1.N
abbrev outAbs (c : Dev nD) : Vec Ideal S8x1x1 .f32 := (Frm.dat1 (F := Ideal) V c).arrAt 3 cfg1.N

/-- THE FIRST TOTAL: the eight words of the first output sum to the squared differences of the two graphs over
    every entry. -/
theorem total1_sq (c : Dev nD) :
    ∑ j : S8x1x1.Idx, outSq V c j = Cert.Spec.sqTotalG (V c main_arg3) (V c main_arg4) := by
  have hfin : outSq V c = res (sqN V c) := final2 V c
  rw [hfin, sum_res]
  unfold Cert.Spec.sqTotalG
  rw [sum_graph]
  refine Finset.sum_congr rfl fun b _ => Finset.sum_congr rfl fun ni _ => ?_
  rw [sqN_of_lt V c _ (lt_N b ni)]
  exact sqTile_eq V c b ni

/-- THE SECOND TOTAL: the eight words of the second output sum to the first graph's absolute deviations from the
    identity pattern over every entry. -/
theorem total1_abs (c : Dev nD) :
    ∑ j : S8x1x1.Idx, outAbs V c j = Cert.Spec.absTotal (V c main_arg3) := by
  have hfin : outAbs V c = res (absN V c) := final3 V c
  rw [hfin, sum_res]
  unfold Cert.Spec.absTotal
  rw [sum_graph]
  refine Finset.sum_congr rfl fun b _ => Finset.sum_congr rfl fun ni _ => ?_
  rw [absN_of_lt V c _ (lt_N b ni)]
  exact absTile_eq V c b ni

/-- The same two totals for any spelling of the output arrays. -/
theorem total1_sq_of (c : Dev nD) (X : Vec Ideal S8x1x1 .f32) (hX : X = outSq V c) :
    ∑ j : S8x1x1.Idx, X j = Cert.Spec.sqTotalG (V c main_arg3) (V c main_arg4) := by
  subst hX; exact total1_sq V c
theorem total1_abs_of (c : Dev nD) (X : Vec Ideal S8x1x1 .f32) (hX : X = outAbs V c) :
    ∑ j : S8x1x1.Idx, X j = Cert.Spec.absTotal (V c main_arg3) := by
  subst hX; exact total1_abs V c

end Totals

end Cert.KernelIdeal.Val.R1

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Val.Pay2.lean ====
/-
  The arithmetic of one step of the cosine region, read on the extended reals.

  One step takes a tile of 256 rows `q` and all 2048 rows `k` of one batch of the embeddings and produces one
  number: the sum over the 256 × 2048 pairs (r, c) of

      | ⟨q_r, k_c⟩ / max (‖q_r‖ · ‖k_c‖, ε) |  −  [256·n + r = c],

  `n` the step's position along the row tiles. The tile's term is a chain of layout changes (a leading unit axis
  dropped, a transpose, a vector laid out as a column or as a row and repeated), one matrix product into a zero
  accumulator, three sums along rows, and elementwise arithmetic. Each layout change and each sum is read at an index
  by one small lemma; the product is the plain `[M, K] × [K, N]` product; the identity pattern is an equality of two
  32-bit words that never wrap because `256·n + r < 2048`. The two other payloads of the region are the accumulator's
  update (the old value plus the step's number) and the zero it starts from.
-/
import proofs.«142973_j34608846471207_1_alg».proof.Proof.Gen.KernelIdeal.Skeleton
import proofs.«142973_j34608846471207_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«142973_j34608846471207_1_alg».proof.Proof.LibPlainDot

open scoped BigOperators

noncomputable section

namespace Cert.KernelIdeal.Val

open Cert.KernelIdeal Cert.KernelIdeal.Gen Idealize.ShloMosaic Idealize.ShloMosaic.ValueIdx

/-! ## Layout changes and row sums read at an index -/

section Layout
variable {α : Type}

/-- A vector of `a` entries laid out as one column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column repeated along every column reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

/-- The one entry of a `[1]` vector, laid out as `[1, 1]` and taken out at `(0, 0)`. -/
theorem extractAt_cast_1_11 (x : (⟨1, ![1]⟩ : Shape).Idx → α) (h : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ x h) hp = x (ix1 (0 : Fin 1)) := by
  have e : (fun a => (⟨(![0, 0] : Fin 2 → Nat) a, hp a⟩ : Fin ((⟨2, ![1, 1]⟩ : Shape).size a))) = ix2 (0 : Fin 1) (0 : Fin 1) := by
    funext a
    match a with
    | ⟨0, _⟩ => rfl
    | ⟨1, _⟩ => rfl
  exact (congrArg (shapeCast ⟨2, ![1, 1]⟩ x h) e).trans (shapeCast_a_1a_apply x h 0 0)

end Layout

/-- A sum along the rows of a matrix reads, at `r`, the sum of row `r` over its columns. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) :=
  (Ideal.multiReduction_add_single src _ h hφ hacc (ix1 r)).trans
    (Finset.sum_congr rfl fun k _ => congrArg src (funext fun c => Fin.ext (by
      match c with
      | ⟨0, _⟩ => rfl
      | ⟨1, _⟩ => rfl)))

/-- The tile's matrix product into the zero accumulator, at `(r, q)`: the sum over the 128 contracted positions. -/
theorem gram_apply (lhs : FVec Ideal S256x128 .bf16) (rhs : FVec Ideal S128x2048 .bf16) (r : Fin 256) (q : Fin 2048) :
    matmul (F := Ideal) dot_S256x128_S128x2048_S256x2048_1_0_0_1_n_n none lhs rhs (constant S256x2048 .f32 0x00000000#32) (ix2 r q)
      = ∑ d : Fin 128, lhs (ix2 r d) * rhs (ix2 d q) :=
  PlainDot.matmul_zero_apply dot_S256x128_S128x2048_S256x2048_1_0_0_1_n_n rfl rfl rfl rfl rfl rfl rfl rfl none lhs rhs r q

/-! ## The identity pattern's word -/

/-- A one-bit word widened to 32 bits and read as a signed integer is `1` or `0`. -/
theorem sitofp_bit (b : Bool) :
    FloatOps.sitofp (F := Ideal) .f32 ((BitVec.ofBool b).setWidth 32) = if b then (1 : EReal) else 0 := by
  cases b
  · have h0 : ((BitVec.ofBool false).setWidth 32 : BitVec 32).toInt = 0 := by decide
    show ((((BitVec.ofBool false).setWidth 32 : BitVec 32).toInt : ℝ) : EReal) = _
    rw [h0]; simp
  · have h1 : ((BitVec.ofBool true).setWidth 32 : BitVec 32).toInt = 1 := by decide
    show ((((BitVec.ofBool true).setWidth 32 : BitVec 32).toInt : ℝ) : EReal) = _
    rw [h1]; simp

/-- Row `256·n + r` against column `q` as 32-bit words: for `n < 8` neither side wraps, so the comparison's bit,
    widened and converted, is `1` exactly when the two numbers are equal. -/
theorem eye_word (n : Nat) (hn : n < 8) (r : Fin 256) (q : Fin 2048) :
    FloatOps.sitofp (F := Ideal) .f32
        ((IntOp.cmpi .eq (IntOp.addi (BitVec.ofNat 32 r.val) (Scalar.muli (BitVec.ofNat 32 n) 256#32))
          (BitVec.ofNat 32 q.val)).setWidth 32)
      = if 256 * n + r.val = q.val then (1 : EReal) else 0 := by
  have hr := r.isLt
  have hq := q.isLt
  have hsum : IntOp.addi (BitVec.ofNat 32 r.val) (Scalar.muli (BitVec.ofNat 32 n) 256#32)
      = BitVec.ofNat 32 (256 * n + r.val) := by
    show BitVec.ofNat 32 r.val + BitVec.ofNat 32 n * 256#32 = _
    apply BitVec.eq_of_toNat_eq
    simp only [BitVec.toNat_add, BitVec.toNat_mul, BitVec.toNat_ofNat]
    omega
  rw [hsum]
  show FloatOps.sitofp (F := Ideal) .f32
      ((BitVec.ofBool (BitVec.ofNat 32 (256 * n + r.val) == BitVec.ofNat 32 q.val)).setWidth 32) = _
  rw [sitofp_bit]
  by_cases h : 256 * n + r.val = q.val
  · rw [if_pos h, h, beq_self_eq_true, if_pos rfl]
  · have hne : BitVec.ofNat 32 (256 * n + r.val) ≠ BitVec.ofNat 32 q.val := by
      intro he
      have := congrArg BitVec.toNat he
      simp only [BitVec.toNat_ofNat] at this
      omega
    rw [if_neg h, beq_eq_false_iff_ne.mpr hne, if_neg (by decide)]

/-- The row counter of the tile, at `(r, q)`. -/
theorem iota0_apply (h : S256x2048.Iotas .tc 32 [0]) (r : Fin 256) (q : Fin 2048) :
    iota .tc S256x2048 32 [0] h (ix2 r q) = BitVec.ofNat 32 r.val :=
  iota_single_apply .tc S256x2048 32 0 h (ix2 r q)

/-- The column counter of the tile, at `(r, q)`. -/
theorem iota1_apply (h : S256x2048.Iotas .tc 32 [1]) (r : Fin 256) (q : Fin 2048) :
    iota .tc S256x2048 32 [1] h (ix2 r q) = BitVec.ofNat 32 q.val :=
  iota_single_apply .tc S256x2048 32 1 h (ix2 r q)

/-! ## The tile's term, block by block -/

/-- The 256 rows of the step's tile as a matrix. -/
def qMat (v1 : Vec Ideal S1x256x128 .f32) : FVec Ideal S256x128 .f32 :=
  shapeCast S256x128 v1 shapeCasts_S1x256x128_S256x128

/-- The 2048 rows of the batch as a matrix. -/
def kMat (v3 : Vec Ideal S1x2048x128 .f32) : FVec Ideal S2048x128 .f32 :=
  shapeCast S2048x128 v3 shapeCasts_S1x2048x128_S2048x128

theorem qMat_apply (v1 : Vec Ideal S1x256x128 .f32) (r : Fin 256) (d : Fin 128) : qMat v1 (ix2 r d) = v1 (ix3 0 r d) :=
  shapeCast_1ab_ab_apply v1 _ r d

theorem kMat_apply (v3 : Vec Ideal S1x2048x128 .f32) (q : Fin 2048) (d : Fin 128) : kMat v3 (ix2 q d) = v3 (ix3 0 q d) :=
  shapeCast_1ab_ab_apply v3 _ q d

/-- The inner products of the tile's rows with every row of the batch. -/
def gramBlk (v1 : Vec Ideal S1x256x128 .f32) (v3 : Vec Ideal S1x2048x128 .f32) : FVec Ideal S256x2048 .f32 :=
  matmul dot_S256x128_S128x2048_S256x2048_1_0_0_1_n_n none (truncf .bf16 (qMat v1) bitsLt_bf16_f32)
    (transpose S128x2048 [1, 0] (truncf .bf16 (kMat v3) bitsLt_bf16_f32) transposes_S2048x128_p1_0_S128x2048)
    (constant S256x2048 .f32 0x00000000#32)

theorem gramBlk_apply (v1 : Vec Ideal S1x256x128 .f32) (v3 : Vec Ideal S1x2048x128 .f32) (r : Fin 256) (q : Fin 2048) :
    gramBlk v1 v3 (ix2 r q) = ∑ d : Fin 128, v1 (ix3 0 r d) * v3 (ix3 0 q d) := by
  unfold gramBlk
  refine (gram_apply _ _ r q).trans (Finset.sum_congr rfl fun d _ => ?_)
  rw [truncf_apply, transpose_ix2_apply, truncf_apply, qMat_apply, kMat_apply]

/-- The Euclidean norms of the tile's rows. -/
def qNorm (v1 : Vec Ideal S1x256x128 .f32) : FVec Ideal S256 .f32 :=
  sqrt (multiReduction .add [1] S256 (mulf (qMat v1) (qMat v1)) 0x00000000#32 reduces_S256x128_S256 (.inl rfl) rfl)

/-- The Euclidean norms of the batch's rows. -/
def kNorm (v3 : Vec Ideal S1x2048x128 .f32) : FVec Ideal S2048 .f32 :=
  sqrt (multiReduction .add [1] S2048 (mulf (kMat v3) (kMat v3)) 0x00000000#32 reduces_S2048x128_S2048 (.inl rfl) rfl)

theorem qNorm_apply (v1 : Vec Ideal S1x256x128 .f32) (r : Fin 256) :
    qNorm v1 (ix1 r) = Ideal.sqrt (∑ d : Fin 128, v1 (ix3 0 r d) * v1 (ix3 0 r d)) :=
  congrArg Ideal.sqrt ((rowSum_apply _ _ _ _ r).trans
    (Finset.sum_congr rfl fun d _ => by rw [mulf_apply, qMat_apply]))

theorem kNorm_apply (v3 : Vec Ideal S1x2048x128 .f32) (q : Fin 2048) :
    kNorm v3 (ix1 q) = Ideal.sqrt (∑ d : Fin 128, v3 (ix3 0 q d) * v3 (ix3 0 q d)) :=
  congrArg Ideal.sqrt ((rowSum_apply _ _ _ _ q).trans
    (Finset.sum_congr rfl fun d _ => by rw [mulf_apply, kMat_apply]))

/-- The clamped products of norms: the tile's norms down the rows, the batch's along the columns. -/
def denBlk (v1 : Vec Ideal S1x256x128 .f32) (v3 : Vec Ideal S1x2048x128 .f32) : FVec Ideal S256x2048 .f32 :=
  maximumf
    (mulf (broadcastTo S256x2048 (shapeCast S256x1 (qNorm v1) shapeCasts_S256_S256x1) broadcasts_S256x1_S256x2048)
      (broadcastTo S256x2048 (shapeCast S1x2048 (kNorm v3) shapeCasts_S2048_S1x2048) broadcasts_S1x2048_S256x2048))
    (broadcast S256x2048 (Scalar.ofBits .f32 0x3A83126F#32))

theorem denBlk_apply (v1 : Vec Ideal S1x256x128 .f32) (v3 : Vec Ideal S1x2048x128 .f32) (r : Fin 256) (q : Fin 2048) :
    denBlk v1 v3 (ix2 r q)
      = max (Ideal.sqrt (∑ d : Fin 128, v1 (ix3 0 r d) * v1 (ix3 0 r d))
          * Ideal.sqrt (∑ d : Fin 128, v3 (ix3 0 q d) * v3 (ix3 0 q d))) Cert.Spec.eps := by
  show max (broadcastTo S256x2048 (shapeCast S256x1 (qNorm v1) shapeCasts_S256_S256x1) broadcasts_S256x1_S256x2048 (ix2 r q)
      * broadcastTo S256x2048 (shapeCast S1x2048 (kNorm v3) shapeCasts_S2048_S1x2048) broadcasts_S1x2048_S256x2048 (ix2 r q))
    (Ideal.ofBits .f32 0x3A83126F#32) = _
  rw [broadcastTo_a1_ab_apply, shapeCast_a_a1_apply, broadcastTo_1b_ab_apply, shapeCast_a_1a_apply, qNorm_apply,
    kNorm_apply]
  rfl

/-- The identity pattern of the tile at step position `(i 1)`: row `256·(i 1) + r` against column `q`. -/
def eyeBlk (i : grid2.Coords) : FVec Ideal S256x2048 .f32 :=
  sitofp .f32 (extui 32 (cmpi .eq
    (addi (iota .tc S256x2048 32 [0] iota_S256x2048_d0_w32)
      (broadcast S256x2048 (Scalar.muli (BitVec.ofNat 32 (i 1).val) 256#32)))
    (iota .tc S256x2048 32 [1] iota_S256x2048_d1_w32)) natLt_1_32)

theorem eyeBlk_apply (i : grid2.Coords) (r : Fin 256) (q : Fin 2048) :
    eyeBlk i (ix2 r q) = if 256 * (i 1).val + r.val = q.val then (1 : EReal) else 0 := by
  show FloatOps.sitofp (F := Ideal) .f32
      ((IntOp.cmpi .eq (IntOp.addi (iota .tc S256x2048 32 [0] iota_S256x2048_d0_w32 (ix2 r q))
          (Scalar.muli (BitVec.ofNat 32 (i 1).val) 256#32))
        (iota .tc S256x2048 32 [1] iota_S256x2048_d1_w32 (ix2 r q))).setWidth 32) = _
  rw [iota0_apply, iota1_apply]
  exact eye_word (i 1).val (i 1).isLt r q

/-! ## The three payloads -/

/-- The step's number is the tile's term put together from the blocks above: the blocks are the term's own
    subterms, so the two sides are one term. -/
theorem k2_pay2_split (i : grid2.Coords) (v1 : Vec Ideal S1x256x128 .f32) (v3 : Vec Ideal S1x2048x128 .f32) :
    k2_pay2 (F := Ideal) i v1 v3
      = extractAt ![0, 0]
          (shapeCast S1x1
            (multiReduction .add [1] S1
              (shapeCast S1x256
                (multiReduction .add [1] S256 (subf (absf (divf (gramBlk v1 v3) (denBlk v1 v3))) (eyeBlk i))
                  0x00000000#32 reduces_S256x2048_S256 (.inl rfl) rfl)
                shapeCasts_S256_S1x256)
              0x00000000#32 reduces_S1x256_S1 (.inl rfl) rfl)
            shapeCasts_S1_S1x1)
          inpos_S1x1_p0_0 := rfl

/-- The step's number: the sum over the tile's 256 × 2048 pairs of the clamped absolute cosine less the identity
    pattern. -/
theorem k2_pay2_eq (i : grid2.Coords) (v1 : Vec Ideal S1x256x128 .f32) (v3 : Vec Ideal S1x2048x128 .f32) : k2_pay2 (F := Ideal) i v1 v3 = ∑ r : Fin 256, ∑ q : Fin 2048, (max (Ideal.div (∑ d : Fin 128, v1 (ix3 0 r d) * v3 (ix3 0 q d)) (max (Ideal.sqrt (∑ d : Fin 128, v1 (ix3 0 r d) * v1 (ix3 0 r d)) * Ideal.sqrt (∑ d : Fin 128, v3 (ix3 0 q d) * v3 (ix3 0 q d))) Cert.Spec.eps)) (-(Ideal.div (∑ d : Fin 128, v1 (ix3 0 r d) * v3 (ix3 0 q d)) (max (Ideal.sqrt (∑ d : Fin 128, v1 (ix3 0 r d) * v1 (ix3 0 r d)) * Ideal.sqrt (∑ d : Fin 128, v3 (ix3 0 q d) * v3 (ix3 0 q d))) Cert.Spec.eps))) - (if 256 * (i 1).val + r.val = q.val then 1 else 0)) := by
  rw [k2_pay2_split]
  refine (extractAt_cast_1_11 _ _ _).trans ?_
  refine (rowSum_apply _ _ _ _ (0 : Fin 1)).trans ?_
  refine Finset.sum_congr rfl fun r _ => ?_
  refine (shapeCast_a_1a_apply _ _ 0 r).trans ?_
  refine (rowSum_apply _ _ _ _ r).trans ?_
  refine Finset.sum_congr rfl fun q _ => ?_
  show max (Ideal.div (gramBlk v1 v3 (ix2 r q)) (denBlk v1 v3 (ix2 r q)))
      (-(Ideal.div (gramBlk v1 v3 (ix2 r q)) (denBlk v1 v3 (ix2 r q)))) - eyeBlk i (ix2 r q) = _
  rw [gramBlk_apply, denBlk_apply, eyeBlk_apply]

/-- The accumulator's update: the old value plus the step's number. -/
theorem k2_pay1_eq (v36 : Ideal .f32) (v40 : Vec Ideal S1x1x1 .f32) (j : S1x1x1.Idx) : k2_pay1 (F := Ideal) v36 v40 j = v40 j + v36 := by
  show shapeCast S1x1x1 v40 shapeCasts_S1x1x1_S1x1x1 j + v36 = _
  rw [shapeCast_self]

/-- The value the accumulator starts from: zero. -/
theorem k2_pay3_eq (j : S1x1x1.Idx) : k2_pay3 (F := Ideal) j = 0 := Ideal.ofBits_zero_f32

end Cert.KernelIdeal.Val
-- ==== Proof.Val.V2.lean ====
import proofs.«142973_j34608846471207_1_alg».proof.Proof.KI.R2
import proofs.«142973_j34608846471207_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic
import proofs.«142973_j34608846471207_1_alg».proof.Proof.Val.Pay2

set_option maxRecDepth 16384

open scoped BigOperators

noncomputable section

namespace Cert.KernelIdeal.Val.R2

open Cert.KernelIdeal Cert.KernelIdeal.Gen Cert.KernelIdeal.Frm
open Idealize.ShloMosaic Idealize.ShloMosaic.TcCoe Idealize.ShloMosaic.Tactic Idealize.ShloMosaic.ValueIdx
open Idealize.SL.Sem
open Idealize.ShloMosaic.Pipeline (Dat)

/-! ## What each case leaves in the accumulator, as the kernel's payloads of what it read -/

section Pieces

variable {F : FTy → Type} [FloatOps F]

theorem hz3 : (![0, 0, 0] : Fin 3 → Nat) = fun _ => 0 := funext fun a => by fin_cases a <;> rfl

/-- At a carrying point the accumulator ends at its running contents plus the tile's sum: the one covering store's
    payload, whose loads read the whole buffers. -/
theorem out2_B_eq (c : Dev nD) (i : grid2.Coords) (a2 : Memref sig .tc .vmem S1x256x128 .f32) (h2 : a2.IsWhole)
    (a3 : Memref sig .tc .vmem S1x2048x128 .f32) (h3 : a3.IsWhole) (a4 : Memref sig .tc .vmem S1x1x1 .f32) (h4 : a4.IsWhole)
    (hc : ¬cond2_0 i) (x0 : Vec F S1x256x128 .f32) (x1 : Vec F S1x2048x128 .f32) (xo : Vec F S1x1x1 .f32) :
    out2_B_2 c i a2 h2 a3 h3 a4 h4 hc x0 x1 xo = k2_pay1 (k2_pay2 i x0 x1) xo := by
  unfold out2_B_2
  rw [View.read_writes_eq_canon _ _ _ (cover2_B_2 c i a2 h2 a3 h3 a4 h4 hc x0 x1 xo)]
  unfold kernelRun2_B
  dsimp only
  sl_unfold_words
  rw [View.canon_unit_zero hz3]
  simp only [View.readAt_eq_ld, h2.read_unread, h3.read_unread, h4.read_unread, View.ld_unit_zero (S := S1x256x128) hz3,
    View.ld_unit_zero (S := S1x2048x128) hz3, View.ld_unit_zero (S := S1x1x1) hz3]

/-- At a resetting point the accumulator ends at the zero word plus the tile's sum: the zero word is stored, read
    back, and the tile's sum added to it. -/
theorem out2_A_eq (c : Dev nD) (i : grid2.Coords) (a2 : Memref sig .tc .vmem S1x256x128 .f32) (h2 : a2.IsWhole)
    (a3 : Memref sig .tc .vmem S1x2048x128 .f32) (h3 : a3.IsWhole) (a4 : Memref sig .tc .vmem S1x1x1 .f32) (h4 : a4.IsWhole)
    (hc : cond2_0 i) (x0 : Vec F S1x256x128 .f32) (x1 : Vec F S1x2048x128 .f32) :
    out2_A_2 c i a2 h2 a3 h3 a4 h4 hc x0 x1 = k2_pay1 (k2_pay2 i x0 x1) (k2_pay3 (F := F)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S1x1x1) hz3]
  simp only [View.readAt_eq_ld, h2.read_unread, h3.read_unread, View.ld_unit_zero (S := S1x256x128) hz3,
    View.ld_unit_zero (S := S1x2048x128) hz3, View.readCov_unit_zero (S := S1x1x1) _ hz3]

end Pieces

/-! ## Sums over rank-3 index types and over the rows as (row tile, row in the tile) -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of row tile `ni`, among the 2048 rows of a batch. -/
def rowOf (ni : Fin 8) (r : Fin 256) : Fin 2048 := ⟨256 * ni.val + r.val, by have := ni.isLt; have := r.isLt; omega⟩

/-- The 2048 rows are the 8 row tiles of 256 rows: division by 256 with remainder. -/
def rowEquiv : Fin 8 × Fin 256 ≃ Fin 2048 where
  toFun p := rowOf p.1 p.2
  invFun n := (⟨n.val / 256, by have := n.isLt; omega⟩, ⟨n.val % 256, by omega⟩)
  left_inv := fun ⟨a, b⟩ => by
    have ha := a.isLt; have hb := b.isLt
    refine Prod.ext (Fin.ext ?_) (Fin.ext ?_)
    · show (256 * a.val + b.val) / 256 = a.val; omega
    · show (256 * a.val + b.val) % 256 = b.val; omega
  right_inv := fun n => Fin.ext (by show 256 * (n.val / 256) + n.val % 256 = n.val; omega)

/-- A sum over the rows is the sum over the row tiles of the sums over each tile's rows. -/
theorem sum_rows {M : Type*} [AddCommMonoid M] (h : Fin 2048 → M) :
    ∑ n : Fin 2048, h n = ∑ ni : Fin 8, ∑ r : Fin 256, h (rowOf ni r) := by
  rw [← Equiv.sum_comp rowEquiv h, Fintype.sum_prod_type]
  rfl

/-! ## One tile's sum, over the extended reals -/

/-- The tile's sum, on blocks that are rows `256·ni …` of batch `b` and all rows of batch `b` of an array `x`, is
    the sum of the clamped absolute cosines less the identity pattern over those rows against all rows: the
    payload's inner products, norms and identity pattern are the specification's at the array's indices. -/
theorem tile_eq (x : Cert.Spec.SX.Idx → EReal) (i : grid2.Coords) (v1 : Vec Ideal S1x256x128 .f32) (v3 : Vec Ideal S1x2048x128 .f32)
    (b : Fin 8) (ni : Fin 8) (hi : (i 1).val = ni.val)
    (h1 : ∀ (r : Fin 256) (d : Fin 128), v1 (ix3 0 r d) = x (ix3 b (rowOf ni r) d))
    (h3 : ∀ (q : Fin 2048) (d : Fin 128), v3 (ix3 0 q d) = x (ix3 b q d)) :
    k2_pay2 (F := Ideal) i v1 v3 = ∑ r : Fin 256, ∑ q : Fin 2048, Cert.Spec.cosTerm x (ix3 b (rowOf ni r) q) := by
  rw [k2_pay2_eq]
  refine Finset.sum_congr rfl fun r _ => Finset.sum_congr rfl fun q _ => ?_
  simp only [h1, h3, hi]
  rfl

section Value

variable (V : (c : Dev nD) → (b : Ref sig .tc) → Buf (Elt Ideal) ((c : Thread nD τ).loc b))

/-- The row tile and the whole batch that point `t` reads. -/
abbrev qblk (c : Dev nD) (t : Fin cfg2.N) : Vec Ideal S1x256x128 .f32 := iblk2 V c 0 t
abbrev kblk (c : Dev nD) (t : Fin cfg2.N) : Vec Ideal S1x2048x128 .f32 := iblk2 V c 1 t

/-- The windows' block indices and the row-tile coordinate at each point, decided over the grid: point `t` is
    batch `t / 8`, row tile `t % 8`. -/
theorem idx2 : ∀ t : Fin cfg2.N,
    win2_0.index t (0 : Fin 3) = t.val / 8 ∧ win2_0.index t (1 : Fin 3) = t.val % 8 ∧ win2_0.index t (2 : Fin 3) = 0
    ∧ win2_1.index t (0 : Fin 3) = t.val / 8 ∧ win2_1.index t (1 : Fin 3) = 0 ∧ win2_1.index t (2 : Fin 3) = 0
    ∧ win2_2.index t (0 : Fin 3) = t.val / 8 ∧ win2_2.index t (1 : Fin 3) = 0 ∧ win2_2.index t (2 : Fin 3) = 0
    ∧ ((grid2.coords t) 1).val = t.val % 8 :=
  (by decide +kernel : ∀ t : Fin grid2.N, _)

/-- The row tile's block at point `8·b + ni` is rows `256·ni …` of batch `b`. -/
theorem qblk_apply (c : Dev nD) (t : Fin cfg2.N) (b ni : Fin 8) (ht : t.val = 8 * b.val + ni.val) (r : Fin 256) (d : Fin 128) :
    qblk V c t (ix3 0 r d) = V c main_arg2 (ix3 b (rowOf ni r) d) := by
  obtain ⟨e0, e1, e2, -⟩ := idx2 t
  have hni := ni.isLt
  unfold qblk iblk2
  rw [View.read_apply]
  show V c main_arg2 _ = V c main_arg2 _
  congr 1
  funext a
  apply Fin.ext
  match a with
  | ⟨0, _⟩ => show win2_0.index t (0 : Fin 3) * 1 + 1 * 0 = b.val; rw [e0]; omega
  | ⟨1, _⟩ => show win2_0.index t (1 : Fin 3) * 256 + 1 * r.val = 256 * ni.val + r.val; rw [e1]; omega
  | ⟨2, _⟩ => show win2_0.index t (2 : Fin 3) * 128 + 1 * d.val = d.val; rw [e2]; omega

/-- The whole batch's block at point `8·b + ni` is all rows of batch `b`. -/
theorem kblk_apply (c : Dev nD) (t : Fin cfg2.N) (b ni : Fin 8) (ht : t.val = 8 * b.val + ni.val) (q : Fin 2048) (d : Fin 128) :
    kblk V c t (ix3 0 q d) = V c main_arg2 (ix3 b q d) := by
  obtain ⟨-, -, -, e0, e1, e2, -⟩ := idx2 t
  have hni := ni.isLt
  unfold kblk iblk2
  rw [View.read_apply]
  show V c main_arg2 _ = V c main_arg2 _
  congr 1
  funext a
  apply Fin.ext
  match a with
  | ⟨0, _⟩ => show win2_1.index t (0 : Fin 3) * 1 + 1 * 0 = b.val; rw [e0]; omega
  | ⟨1, _⟩ => show win2_1.index t (1 : Fin 3) * 2048 + 1 * q.val = q.val; rw [e1]; omega
  | ⟨2, _⟩ => show win2_1.index t (2 : Fin 3) * 128 + 1 * d.val = d.val; rw [e2]; omega

/-- The sum of point `s`'s tile (zero past the grid). -/
def tileAt (c : Dev nD) (s : ℕ) : EReal :=
  if h : s < cfg2.N then k2_pay2 (F := Ideal) (grid2.coords ⟨s, h⟩) (qblk V c ⟨s, h⟩) (kblk V c ⟨s, h⟩) else 0

theorem tileAt_of_lt (c : Dev nD) (t : Fin cfg2.N) :
    tileAt V c t.val = k2_pay2 (F := Ideal) (grid2.coords t) (qblk V c t) (kblk V c t) := dif_pos t.isLt

/-- The tile of batch `b`, row tile `ni`, in the specification's terms. -/
theorem tileAt_eq (c : Dev nD) (b ni : Fin 8) :
    tileAt V c (8 * b.val + ni.val) = ∑ r : Fin 256, ∑ q : Fin 2048, Cert.Spec.cosTerm (V c main_arg2) (ix3 b (rowOf ni r) q) := by
  have hb := b.isLt; have hni := ni.isLt
  have hN : cfg2.N = 64 := N_2
  have h : 8 * b.val + ni.val < cfg2.N := by rw [hN]; omega
  obtain ⟨-, -, -, -, -, -, -, -, -, e⟩ := idx2 ⟨8 * b.val + ni.val, h⟩
  rw [tileAt_of_lt V c ⟨8 * b.val + ni.val, h⟩]
  exact tile_eq (V c main_arg2) (grid2.coords ⟨8 * b.val + ni.val, h⟩) (qblk V c ⟨8 * b.val + ni.val, h⟩) (kblk V c ⟨8 * b.val + ni.val, h⟩) b ni
    (by rw [e]; show (8 * b.val + ni.val) % 8 = ni.val; omega)
    (fun r d => qblk_apply V c ⟨8 * b.val + ni.val, h⟩ b ni rfl r d)
    (fun q d => kblk_apply V c ⟨8 * b.val + ni.val, h⟩ b ni rfl q d)

/-! ## The accumulator, point by point -/

/-- At a resetting point the accumulator ends at the tile's sum (over the zero word). -/
theorem outsAt2_reset (c : Dev nD) (t : Fin cfg2.N) (h0 : t.val % 8 = 0) (j : S1x1x1.Idx) :
    outsAt2 V c t.val t.isLt j = 0 + tileAt V c t.val := by
  rw [outsAt2_A V c t h0]
  refine (congrFun (out2_A_eq (F := Ideal) c (grid2.coords t) (ms2_0 t) (hs2_0 t) (ms2_1 t) (hs2_1 t) (ms2_2 t) (hs2_2 t)
    ((hcond2_0 t).mpr h0) (iblk2 V c 0 t) (iblk2 V c 1 t)) j).trans ?_
  rw [k2_pay1_eq, k2_pay3_eq, tileAt_of_lt]

/-- At a carrying point the accumulator ends at what the point before left plus the tile's sum. -/
theorem outsAt2_carry (c : Dev nD) (t : Fin cfg2.N) (h0 : ¬t.val % 8 = 0) (j : S1x1x1.Idx) :
    outsAt2 V c t.val t.isLt j
      = outsAt2 V c (t.val - 1) (Nat.lt_of_le_of_lt (Nat.sub_le _ _) t.isLt) j + tileAt V c t.val := by
  rw [outsAt2_B V c t h0]
  refine (congrFun (out2_B_eq (F := Ideal) c (grid2.coords t) (ms2_0 t) (hs2_0 t) (ms2_1 t) (hs2_1 t) (ms2_2 t) (hs2_2 t)
    (fun h => h0 ((hcond2_0 t).mp h)) (iblk2 V c 0 t) (iblk2 V c 1 t)
    (outsAt2 V c (t.val - 1) (Nat.lt_of_le_of_lt (Nat.sub_le _ _) t.isLt))) j).trans ?_
  rw [k2_pay1_eq, tileAt_of_lt]

/-- After point `n` the accumulator holds the sum of the tiles of `n`'s batch up to `n`: by induction on the point. -/
theorem outsAt2_eq (c : Dev nD) : ∀ (n : ℕ) (h : n < cfg2.N) (j : S1x1x1.Idx),
    outsAt2 V c n h j = ∑ s ∈ Finset.Ico (8 * (n / 8)) (n + 1), tileAt V c s
  | 0, h, j => by
    rw [show outsAt2 V c 0 h j = 0 + tileAt V c 0 from outsAt2_reset V c ⟨0, h⟩ rfl j]
    rw [show 8 * (0 / 8) = 0 from rfl, Nat.Ico_succ_singleton, Finset.sum_singleton, zero_add]
  | n + 1, h, j => by
    by_cases h0 : (n + 1) % 8 = 0
    · rw [show outsAt2 V c (n + 1) h j = 0 + tileAt V c (n + 1) from outsAt2_reset V c ⟨n + 1, h⟩ h0 j]
      have e : 8 * ((n + 1) / 8) = n + 1 := by omega
      rw [e, Nat.Ico_succ_singleton, Finset.sum_singleton, zero_add]
    · rw [show outsAt2 V c (n + 1) h j = outsAt2 V c n (Nat.lt_of_succ_lt h) j + tileAt V c (n + 1) from
        outsAt2_carry V c ⟨n + 1, h⟩ h0 j]
      rw [outsAt2_eq c n (Nat.lt_of_succ_lt h) j]
      have e : 8 * ((n + 1) / 8) = 8 * (n / 8) := by omega
      rw [e, Finset.sum_Ico_succ_top (show 8 * (n / 8) ≤ n + 1 by omega) (tileAt V c)]

/-! ## From the blocks to the array, and the total -/

/-- What the result array ends holding: for batch `b` the sum of its eight tiles. -/
def cosBlocks (c : Dev nD) : Vec Ideal S8x1x1 .f32 := fun j => ∑ ni : Fin 8, tileAt V c (8 * (j 0).val + ni.val)

/-- What a write-back writes (at the last row tile of batch `b`) is block `b` of `cosBlocks`. -/
theorem flushed2_eq (c : Dev nD) (t : Fin cfg2.N) (hf : (cfg2.win 2).flush t = true) :
    (dat2 V c).flushed 2 t = ((cfg2.win 2).blk t).view.read (Elt Ideal) (cosBlocks V c) := by
  have h7 : t.val % 8 = 7 := (flush2_2 t).mp hf
  obtain ⟨-, -, -, -, -, -, e0, -⟩ := idx2 t
  show (cfg2.win 2).cut (grid2.coords t) ((dat2 V c).after 2 t) = _
  rw [after2_2]
  funext y
  show outsAt2 V c t.val t.isLt y = cosBlocks V c (((cfg2.win 2).blk t).view.emb y)
  rw [outsAt2_eq]
  unfold cosBlocks
  have hy : (y 0).val < 1 := (y 0).isLt
  have hb : ((((cfg2.win 2).blk t).view.emb y) 0).val = t.val / 8 := by
    show win2_2.index t (0 : Fin 3) * 1 + 1 * (y 0).val = _
    rw [e0]; omega
  show _ = ∑ ni : Fin 8, tileAt V c (8 * ((((cfg2.win 2).blk t).view.emb y) 0).val + ni.val)
  rw [hb]
  have e : t.val + 1 = 8 * (t.val / 8) + 8 := by omega
  rw [e, Finset.sum_Ico_eq_sum_range, Nat.add_sub_cancel_left, Finset.sum_range]

/-- So the result array ends holding `cosBlocks`: batch `b`'s word is written back at the point `8·b + 7`. -/
theorem final2 (c : Dev nD) : (dat2 V c).arrAt 2 cfg2.N = cosBlocks V c :=
  (dat2 V c).arrAt_eq_of_cover 2 (cosBlocks V c) (flushed2_eq V c) fun i => by
    have hN : cfg2.N = 64 := N_2
    have h0 : (i 0).val < 8 := (i 0).isLt
    have h1 : (i 1).val < 1 := (i 1).isLt
    have h2 : (i 2).val < 1 := (i 2).isLt
    have ht : 8 * (i 0).val + 7 < cfg2.N := by rw [hN]; omega
    obtain ⟨-, -, -, -, -, -, e0, e1, e2, -⟩ := idx2 ⟨8 * (i 0).val + 7, ht⟩
    refine ⟨⟨8 * (i 0).val + 7, ht⟩, (flush2_2 _).mpr (by show (8 * (i 0).val + 7) % 8 = 7; omega), ?_⟩
    show i ∈ ((View.whole main_v11).slice (win2_2.rect ⟨8 * (i 0).val + 7, ht⟩)).set
    rw [View.set_slice_whole, Rect.mem_set_unit]
    intro a
    match a with
    | ⟨0, _⟩ =>
      show win2_2.index ⟨8 * (i 0).val + 7, ht⟩ (0 : Fin 3) * 1 ≤ (i 0).val ∧ (i 0).val < win2_2.index ⟨8 * (i 0).val + 7, ht⟩ (0 : Fin 3) * 1 + 1
      rw [e0]; show (8 * (i 0).val + 7) / 8 * 1 ≤ (i 0).val ∧ (i 0).val < (8 * (i 0).val + 7) / 8 * 1 + 1; omega
    | ⟨1, _⟩ =>
      show win2_2.index ⟨8 * (i 0).val + 7, ht⟩ (1 : Fin 3) * 1 ≤ (i 1).val ∧ (i 1).val < win2_2.index ⟨8 * (i 0).val + 7, ht⟩ (1 : Fin 3) * 1 + 1
      rw [e1]; omega
    | ⟨2, _⟩ =>
      show win2_2.index ⟨8 * (i 0).val + 7, ht⟩ (2 : Fin 3) * 1 ≤ (i 2).val ∧ (i 2).val < win2_2.index ⟨8 * (i 0).val + 7, ht⟩ (2 : Fin 3) * 1 + 1
      rw [e2]; omega

/-- THE TOTAL: the eight words the region leaves sum to the specification's total over every (batch, row, row):
    each word is its batch's eight tiles, each tile its 256 rows against all 2048 rows, and the rows of a batch are
    its row tiles' rows. -/
theorem total2 (c : Dev nD) :
    (∑ j : S8x1x1.Idx, (dat2 (F := Ideal) V c).arrAt 2 cfg2.N j : EReal) = Cert.Spec.cosTotal (V c main_arg2) := by
  rw [final2 V c]
  unfold Cert.Spec.cosTotal
  refine (sum_idx3 (cosBlocks V c)).trans ?_
  refine Eq.trans ?_ (sum_idx3 (Cert.Spec.cosTerm (V c main_arg2))).symm
  refine Finset.sum_congr rfl fun b _ => ?_
  rw [Fin.sum_univ_one, Fin.sum_univ_one, sum_rows]
  show ∑ ni : Fin 8, tileAt V c (8 * b.val + ni.val) = _
  exact Finset.sum_congr rfl fun ni _ => tileAt_eq V c b ni

end Value

end Cert.KernelIdeal.Val.R2

end
-- ==== Proof.Val.Ref.lean ====
/-
  The reference program computes the four sums of the specification.

  Each of its four results is read through its operations down to the argument arrays: a difference squared, or the
  absolute value of a difference from the identity pattern, or the clamped absolute cosine less that pattern, summed over
  every index, then divided by a constant (after a square root for the graphs' squared distance). The identity pattern
  is built from two iotas compared for equality and converted to a float: one where the two coordinates agree, zero
  elsewhere. The views are summed over their own four axes; the same sum over the slabs of the flattened array is its
  re-indexing along the bijection of index types that the flattening is.
-/
import proofs.«142973_j34608846471207_1_alg».proof.Proof.Gen.ReferenceIdeal.Read
import proofs.«142973_j34608846471207_1_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Cert.ReferenceIdeal.Read Idealize.ShloMosaic Idealize.ShloMosaic.ValueIdx

/-! ## The identity pattern -/

/-- Two row numbers below 2048 are equal as 32-bit words exactly when they are equal. -/
theorem word_eq_iff (a b : Fin 2048) :
    IntOp.addi (BitVec.ofNat 32 a.val) 0#32 = BitVec.ofNat 32 b.val ↔ a.val = b.val := by
  have ha := a.isLt
  have hb := b.isLt
  constructor
  · intro h
    have h' := congrArg BitVec.toNat h
    simp only [IntOp.addi, BitVec.add_zero, BitVec.toNat_ofNat] at h'
    omega
  · intro h
    simp only [IntOp.addi, BitVec.add_zero, h]

/-- The comparison of the two iotas, converted to a float: one on the diagonal, zero off it. -/
theorem eyeWord (a b : Fin 2048) :
    FloatOps.uitofp (F := Ideal) .f32 (IntOp.cmpi .eq (IntOp.addi (BitVec.ofNat 32 a.val) 0#32) (BitVec.ofNat 32 b.val))
      = if a.val = b.val then (1 : EReal) else 0 := by
  by_cases h : a.val = b.val
  · have hw : IntOp.cmpi .eq (IntOp.addi (BitVec.ofNat 32 a.val) 0#32) (BitVec.ofNat 32 b.val) = 1#1 := by
      simp only [IntOp.cmpi, (word_eq_iff a b).mpr h, beq_self_eq_true, BitVec.ofBool_true]
      rfl
    rw [hw, if_pos h]
    show (((1#1 : BitVec 1).toNat : ℝ) : EReal) = 1
    simp
  · have hw : IntOp.cmpi .eq (IntOp.addi (BitVec.ofNat 32 a.val) 0#32) (BitVec.ofNat 32 b.val) = 0#1 := by
      have hne : ¬ IntOp.addi (BitVec.ofNat 32 a.val) 0#32 = BitVec.ofNat 32 b.val := fun e => h ((word_eq_iff a b).mp e)
      simp only [IntOp.cmpi, beq_eq_false_iff_ne.mpr hne, BitVec.ofBool_false]
      rfl
    rw [hw, if_neg h]
    show (((0#1 : BitVec 1).toNat : ℝ) : EReal) = 0
    simp

/-- The program's square pattern read at an index. -/
theorem v18_apply (p : S2048x2048.Idx) :
    val_main_v18 (F := Ideal) p = if (p 0).val = (p 1).val then (1 : EReal) else 0 := by
  rw [val_main_v18_apply, val_main_v17_apply, val_main_v16_apply, val_main_v13_apply, val_main_v15_apply,
    val_main_c_apply, val_main_v14_apply]
  exact eyeWord (p 0) (p 1)

/-! ## The two sums of squares -/

theorem ref_recon (x0 x1 : (⟨S4x8x2048x128, .f32⟩ : BufTy).Contents (Elt Ideal))
    (h : S4x8x2048x128.ShapeCasts Cert.Spec.SV) (i : S_.Idx) :
    val_main_v3 (F := Ideal) x0 x1 i
      = Ideal.div (Ideal.ofBits .f32 0x00000000#32
          + Cert.Spec.sqTotal (shapeCast Cert.Spec.SV x0 h) (shapeCast Cert.Spec.SV x1 h))
          (Ideal.ofBits .f32 0x4B000000#32) := by
  rw [val_main_v3_apply, val_main_v2_apply, val_main_cst_apply, val_main_cst_0_apply]
  simp only [val_main_v1_apply, val_main_v0_apply, Ideal.hostDivf_def, Ideal.subf_def, Ideal.mulf_def, Ideal.ofBits_def]
  -- the sum over the slabs is the sum over the four axes, re-indexed along the flattening
  have e : Cert.Spec.sqTotal (shapeCast Cert.Spec.SV x0 h) (shapeCast Cert.Spec.SV x1 h)
      = ∑ j : S4x8x2048x128.Idx, (x0 j - x1 j) * (x0 j - x1 j) :=
    Equiv.sum_comp (Shape.reshapeEquiv h) (fun j => (x0 j - x1 j) * (x0 j - x1 j))
  rw [e]

theorem ref_gsq (x3 x4 : (⟨S8x2048x2048, .f32⟩ : BufTy).Contents (Elt Ideal)) (i : S_.Idx) :
    val_main_v30 (F := Ideal) x3 x4 i
      = Ideal.div (Ideal.sqrt (Ideal.ofBits .f32 0x00000000#32 + Cert.Spec.sqTotalG x3 x4))
          (Ideal.ofBits .f32 0x41000000#32) := by
  rw [val_main_v30_apply, val_main_v29_apply, val_main_v28_apply, val_main_cst_4_apply, val_main_cst_5_apply]
  simp only [val_main_v27_apply, val_main_v26_apply, Ideal.hostDivf_def, Ideal.hostUnary_sqrt_def, Ideal.subf_def,
    Ideal.mulf_def, Ideal.ofBits_def]
  rfl

/-! ## The distance from the identity pattern -/

/-- One term of the absolute sum. -/
theorem abs_term (x3 : (⟨S8x2048x2048, .f32⟩ : BufTy).Contents (Elt Ideal)) (j : S8x2048x2048.Idx) :
    val_main_v34 (F := Ideal) x3 j = max (x3 j - Cert.Spec.eye j) (-(x3 j - Cert.Spec.eye j)) := by
  rw [val_main_v34_apply, val_main_v33_apply, val_main_v32_apply, val_main_v31_apply, v18_apply]
  simp only [Ideal.hostAbsf_def, Ideal.absf_def, Ideal.subf_def]
  rfl

theorem ref_abs (x3 : (⟨S8x2048x2048, .f32⟩ : BufTy).Contents (Elt Ideal)) (i : S_.Idx) :
    val_main_v36 (F := Ideal) x3 i
      = Ideal.div (Ideal.ofBits .f32 0x00000000#32 + Cert.Spec.absTotal x3) (Ideal.ofBits .f32 0x41000000#32) := by
  rw [val_main_v36_apply, val_main_v35_apply, val_main_cst_6_apply, val_main_cst_7_apply]
  simp only [abs_term, Ideal.hostDivf_def, Ideal.ofBits_def]
  rfl

/-! ## The cosine sum -/

/-- A row's norm: the square root of the sum of its squares (the sum starts from the zero word). -/
theorem nrm_apply (x2 : (⟨S8x2048x128, .f32⟩ : BufTy).Contents (Elt Ideal)) (p : S8x2048.Idx) :
    val_main_v4 (F := Ideal) x2 p = Cert.Spec.nrm x2 (p 0) (p 1) := by
  rw [val_main_v4_apply, val_main_call0_v1_apply, val_main_call0_cst_apply]
  have e : ∀ k : Fin 128, idx_main_call0_v1 p k = ix3 (p 0) (p 1) k := fun k =>
    funext fun a => Fin.ext (by match a with | ⟨0, _⟩ => rfl | ⟨1, _⟩ => rfl | ⟨2, _⟩ => rfl)
  simp only [val_main_call0_v0_apply, e, Ideal.hostUnary_sqrt_def, Ideal.mulf_def, Ideal.ofBits_def,
    Ideal.ofBits_zero_f32, zero_add]
  rfl

/-- An entry of the product of the embeddings with their transpose: the inner product of two rows. -/
theorem gram_apply (x2 : (⟨S8x2048x128, .f32⟩ : BufTy).Contents (Elt Ideal)) (j : S8x2048x2048.Idx) :
    val_main_v5 (F := Ideal) x2 j = Cert.Spec.gram x2 (j 0) (j 1) (j 2) := by
  rw [val_main_v5_apply]
  have el : ∀ k : Fin 128, lidx_main_v5 j k = ix3 (j 0) (j 1) k := fun k =>
    funext fun a => Fin.ext (by match a with | ⟨0, _⟩ => rfl | ⟨1, _⟩ => rfl | ⟨2, _⟩ => rfl)
  have er : ∀ k : Fin 128, ridx_main_v5 j k = ix3 (j 0) (j 2) k := fun k =>
    funext fun a => Fin.ext (by match a with | ⟨0, _⟩ => rfl | ⟨1, _⟩ => rfl | ⟨2, _⟩ => rfl)
  simp only [el, er]
  rfl

/-- One term of the cosine sum. -/
theorem cos_term (x2 : (⟨S8x2048x128, .f32⟩ : BufTy).Contents (Elt Ideal)) (j : S8x2048x2048.Idx) :
    val_main_v23 (F := Ideal) x2 j = Cert.Spec.cosTerm x2 j := by
  rw [val_main_v23_apply, val_main_v20_apply, val_main_v19_apply, gram_apply, val_main_v12_apply, val_main_v10_apply,
    val_main_v8_apply, val_main_v6_apply, nrm_apply, val_main_v9_apply, val_main_v7_apply, nrm_apply,
    val_main_v11_apply, val_main_cst_1_apply, val_main_v22_apply, val_main_v21_apply, v18_apply]
  simp only [Ideal.hostAbsf_def, Ideal.absf_def, Ideal.hostDivf_def, Ideal.maximumf_def, Ideal.mulf_def,
    Ideal.subf_def, Ideal.ofBits_def]
  rfl

theorem ref_cos (x2 : (⟨S8x2048x128, .f32⟩ : BufTy).Contents (Elt Ideal)) (i : S_.Idx) :
    val_main_v25 (F := Ideal) x2 i
      = Ideal.div (Ideal.ofBits .f32 0x00000000#32 + Cert.Spec.cosTotal x2) (Ideal.ofBits .f32 0x4BFFE000#32) := by
  rw [val_main_v25_apply, val_main_v24_apply, val_main_cst_2_apply, val_main_cst_3_apply]
  simp only [cos_term, Ideal.hostDivf_def, Ideal.ofBits_def]
  rfl

end Cert.ReferenceIdeal.RefValue

end
-- ==== Proof.Val.Bridge.lean ====
/-
  The kernel's five results are the reference's, over the extended reals.

  Each of the kernel's losses is a host quotient (one after a square root) of the host's sum of an array a kernel
  region wrote; that sum is one of the four whole-array sums of the specification, taken of the arrays the region
  read; and the reference's corresponding stage is the same quotient of the same sum. The total is the same
  combination of the four on both sides.
-/
import proofs.«142973_j34608846471207_1_alg».proof.Proof.KI.Run
import proofs.«142973_j34608846471207_1_alg».proof.Proof.Val.V0
import proofs.«142973_j34608846471207_1_alg».proof.Proof.Val.V1
import proofs.«142973_j34608846471207_1_alg».proof.Proof.Val.V2
import proofs.«142973_j34608846471207_1_alg».proof.Proof.Val.Ref
import Idealize.ShloMosaic.PureOps.Ideal.Laws

open scoped BigOperators

noncomputable section

namespace Cert.KernelIdeal.Val

open Cert.KernelIdeal Cert.KernelIdeal.Gen
open Idealize.ShloMosaic Idealize.ShloMosaic.TcCoe Idealize.SL.Sem

variable (m : (ℓ : Loc nD τ sig) → Buf (Elt Ideal) ℓ) (c : Dev nD)

/-- A host sum of a whole array into a scalar: the initial word's value plus the sum over every index. -/
theorem hostSum_apply {s : Shape} {axes : List (Fin s.rank)} (h : s.ReducesTo axes S_) (x : (⟨s, .f32⟩ : BufTy).Contents (Elt Ideal)) (w : BitVec 32) (i : S_.Idx) :
    Host.reduceAdd x (constant S_ .f32 w) h h_S_ i = Ideal.ofBits .f32 w + ∑ j : s.Idx, x j := by
  simp only [Host.reduceAdd, Ideal.hostReduceAdd_def]
  exact Ideal.hostReduceAdd_total h (fun b => b.elim0) x _ i

/-- The reconstruction loss: the 32 slab sums add up to the sum over the flattened views, which is the sum over the views. -/
theorem res_v4_eq : Frm.res_v4 (F := Ideal) m c
    = Cert.ReferenceIdeal.Read.val_main_v3 (F := Ideal) (m ((c : Thread nD τ).loc main_arg0)) (m ((c : Thread nD τ).loc main_arg1)) := by
  funext i
  rw [Cert.ReferenceIdeal.RefValue.ref_recon _ _ shapeCasts_S4x8x2048x128_S32x2048x128 i]
  show FloatOps.hostDivf (Host.reduceAdd ((Frm.dat0 (F := Ideal) (Frm.V1 m) c).arrAt 2 cfg0.N) (constant S_ .f32 0x00000000#32) reducesTo_S32x1x1_S_d0_1_2 h_S_ i) (Ideal.ofBits .f32 0x4B000000#32) = _
  rw [hostSum_apply, total0 (Frm.V1 m) c, Frm.V1_v0, Frm.V1_v1]
  rfl

/-- The graph reconstruction loss at its one index: the host's quotient of the root of the host's sum of the second
    region's 8 sums of squares. -/
theorem res_v9_apply (i : S_.Idx) : Frm.res_v9 (F := Ideal) m c i
    = Ideal.div (Ideal.sqrt (Ideal.ofBits .f32 0x00000000#32 + ∑ j : S8x1x1.Idx, R1.outSq (Frm.V3 m) c j)) (Ideal.ofBits .f32 0x41000000#32) := by
  have h := hostSum_apply reducesTo_S8x1x1_S_d0_1_2 (R1.outSq (Frm.V3 m) c) 0x00000000#32 i
  unfold Frm.res_v9
  show FloatOps.hostDivf (FloatOps.hostUnary .sqrt (Host.reduceAdd (R1.outSq (Frm.V3 m) c) (constant S_ .f32 0x00000000#32) reducesTo_S8x1x1_S_d0_1_2 h_S_ i))
      (FloatOps.ofBits (F := Ideal) .f32 0x41000000#32) = _
  rw [h, Ideal.hostDivf_def, Ideal.hostUnary_sqrt_def, Ideal.ofBits_def]

/-- The graph reconstruction loss: the 8 batch sums of squares add up to the sum over the graphs. -/
theorem res_v9_eq : Frm.res_v9 (F := Ideal) m c
    = Cert.ReferenceIdeal.Read.val_main_v30 (F := Ideal) (m ((c : Thread nD τ).loc main_arg3)) (m ((c : Thread nD τ).loc main_arg4)) := by
  funext i
  rw [Cert.ReferenceIdeal.RefValue.ref_gsq _ _ i, res_v9_apply, R1.total1_sq (Frm.V3 m) c, Frm.V3_arg3, Frm.V3_arg4]

/-- The sparsity loss: the 8 batch sums of absolute values add up to the sum over the graph. -/
theorem res_v10_eq : Frm.res_v10 (F := Ideal) m c
    = Cert.ReferenceIdeal.Read.val_main_v36 (F := Ideal) (m ((c : Thread nD τ).loc main_arg3)) := by
  funext i
  rw [Cert.ReferenceIdeal.RefValue.ref_abs _ i]
  show FloatOps.hostDivf (Host.reduceAdd ((Frm.dat1 (F := Ideal) (Frm.V3 m) c).arrAt 3 cfg1.N) (constant S_ .f32 0x00000000#32) reducesTo_S8x1x1_S_d0_1_2 h_S_ i) (Ideal.ofBits .f32 0x41000000#32) = _
  rw [hostSum_apply]
  refine congrArg (fun s : EReal => Ideal.div (Ideal.ofBits .f32 0x00000000#32 + s) (Ideal.ofBits .f32 0x41000000#32)) ?_
  exact (R1.total1_abs (Frm.V3 m) c).trans (by rw [Frm.V3_arg3])

/-- The cosine loss: the 8 batch sums add up to the sum over every pair of rows of every batch. -/
theorem res_v13_eq : Frm.res_v13 (F := Ideal) m c
    = Cert.ReferenceIdeal.Read.val_main_v25 (F := Ideal) (m ((c : Thread nD τ).loc main_arg2)) := by
  funext i
  rw [Cert.ReferenceIdeal.RefValue.ref_cos _ i]
  show FloatOps.hostDivf (Host.reduceAdd ((Frm.dat2 (F := Ideal) (Frm.V5 m) c).arrAt 2 cfg2.N) (constant S_ .f32 0x00000000#32) reducesTo_S8x1x1_S_d0_1_2 h_S_ i) (Ideal.ofBits .f32 0x4BFFE000#32) = _
  rw [hostSum_apply]
  refine congrArg (fun s : EReal => Ideal.div (Ideal.ofBits .f32 0x00000000#32 + s) (Ideal.ofBits .f32 0x4BFFE000#32)) ?_
  exact (R2.total2 (Frm.V5 m) c).trans (by rw [Frm.V5_arg2])

/-- The total: the same combination of the four losses on both sides. -/
theorem res_v18_eq : Frm.res_v18 (F := Ideal) m c
    = Cert.ReferenceIdeal.Read.val_main_v41 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  unfold Frm.res_v18
  rw [res_v4_eq, res_v9_eq, res_v13_eq, res_v10_eq]
  rfl

end Cert.KernelIdeal.Val

end
-- ==== Proof.lean ====
/-
  The five claims of the certificate.

  Both printed programs — the kernel as compiled and its reading over the extended reals — run their four host
  stretches and three kernel regions to the end with every buffer that outlives a region at a known value; the
  arguments among those buffers end at their launch contents, which is each program's frame claim. The reference is a
  straight line of host operations, whose run is read back operation by operation. Nothing was rewritten between the
  kernel and its idealization, so that claim is empty. Over the extended reals the two programs' five results are the
  same numbers: each loss is one whole-array sum — of squared differences, of absolute differences from the identity
  pattern, of clamped absolute cosines less the identity pattern — divided by a constant (one of them after a square
  root), the kernel taking the sum tile by tile and batch by batch and the reference all at once, and a sum over an
  index type does not depend on how it is grouped.
-/
import proofs.«142973_j34608846471207_1_alg».proof.Defs
import proofs.«142973_j34608846471207_1_alg».proof.Proof.Gen.Kernel
import proofs.«142973_j34608846471207_1_alg».proof.Proof.Gen.KernelIdeal
import proofs.«142973_j34608846471207_1_alg».proof.Proof.Gen.ReferenceIdeal
import proofs.«142973_j34608846471207_1_alg».proof.Proof.Gen.Pre_finite_inputs
import proofs.«142973_j34608846471207_1_alg».proof.Proof.Gen.ReferenceIdeal.Run
import proofs.«142973_j34608846471207_1_alg».proof.Proof.K.Run
import proofs.«142973_j34608846471207_1_alg».proof.Proof.KI.Run
import proofs.«142973_j34608846471207_1_alg».proof.Proof.Gen.ReferenceIdeal.Read
import proofs.«142973_j34608846471207_1_alg».proof.Proof.Val.Bridge

noncomputable section

namespace Cert.Proof

open Idealize.ShloMosaic Idealize.ShloMosaic.TcCoe Idealize.SL.Sem

/-- The compiled kernel runs to the end and leaves its five arguments as launched. -/
theorem frame_k : Cert.frame_Kernel := fun m ρ _ =>
  (θ_run (Cert.Kernel.defs (F := Bits)) _ _).mono (fun r h c =>
    ⟨(h c _ (Cert.Kernel.Frm.mem_uc Cert.Kernel.main_arg0 (by decide))).trans (Cert.Kernel.Frm.W7_main_arg0 m c),
     (h c _ (Cert.Kernel.Frm.mem_uc Cert.Kernel.main_arg1 (by decide))).trans (Cert.Kernel.Frm.W7_main_arg1 m c),
     (h c _ (Cert.Kernel.Frm.mem_uc Cert.Kernel.main_arg2 (by decide))).trans (Cert.Kernel.Frm.W7_main_arg2 m c),
     (h c _ (Cert.Kernel.Frm.mem_uc Cert.Kernel.main_arg3 (by decide))).trans (Cert.Kernel.Frm.W7_main_arg3 m c),
     (h c _ (Cert.Kernel.Frm.mem_uc Cert.Kernel.main_arg4 (by decide))).trans (Cert.Kernel.Frm.W7_main_arg4 m c)⟩)
    (Cert.Kernel.Frm.run_all (F := Bits) m ρ)

/-- So does its reading over the extended reals. -/
theorem frame_ki : Cert.frame_KernelIdeal := fun m ρ _ =>
  (θ_run (Cert.KernelIdeal.defs (F := Ideal)) _ _).mono (fun r h c =>
    ⟨(h c _ (Cert.KernelIdeal.Frm.mem_uc Cert.KernelIdeal.main_arg0 (by decide))).trans (Cert.KernelIdeal.Frm.W7_main_arg0 m c),
     (h c _ (Cert.KernelIdeal.Frm.mem_uc Cert.KernelIdeal.main_arg1 (by decide))).trans (Cert.KernelIdeal.Frm.W7_main_arg1 m c),
     (h c _ (Cert.KernelIdeal.Frm.mem_uc Cert.KernelIdeal.main_arg2 (by decide))).trans (Cert.KernelIdeal.Frm.W7_main_arg2 m c),
     (h c _ (Cert.KernelIdeal.Frm.mem_uc Cert.KernelIdeal.main_arg3 (by decide))).trans (Cert.KernelIdeal.Frm.W7_main_arg3 m c),
     (h c _ (Cert.KernelIdeal.Frm.mem_uc Cert.KernelIdeal.main_arg4 (by decide))).trans (Cert.KernelIdeal.Frm.W7_main_arg4 m c)⟩)
    (Cert.KernelIdeal.Frm.run_all (F := Ideal) m ρ)

/-- The reference is host operations only: its run read back, the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- Over the extended reals the kernel and the reference, run from memories that agree on the arguments, end with the
    same five numbers: each of the kernel's results is read off the end of its run, each of the reference's off its
    run read back, and the two are one function of the arguments. -/
theorem algebraic : Cert.algebraic_KernelIdeal_ReferenceIdeal := by
  intro m ρ m' ρ' _ hagree
  refine ⟨fun c => Cert.KernelIdeal.Frm.res_v18 m c, fun c => Cert.KernelIdeal.Frm.res_v4 m c, fun c => Cert.KernelIdeal.Frm.res_v9 m c,
    fun c => Cert.KernelIdeal.Frm.res_v13 m c, fun c => Cert.KernelIdeal.Frm.res_v10 m c, ?_, ?_⟩
  · exact (θ_run (Cert.KernelIdeal.defs (F := Ideal)) _ _).mono (fun r h c =>
      ⟨(h c _ (Cert.KernelIdeal.Frm.mem_uc Cert.KernelIdeal.main_v18 (by decide))).trans (Cert.KernelIdeal.Frm.W7_v18 m c),
       (h c _ (Cert.KernelIdeal.Frm.mem_uc Cert.KernelIdeal.main_v4 (by decide))).trans (Cert.KernelIdeal.Frm.W7_v4 m c),
       (h c _ (Cert.KernelIdeal.Frm.mem_uc Cert.KernelIdeal.main_v9 (by decide))).trans (Cert.KernelIdeal.Frm.W7_v9 m c),
       (h c _ (Cert.KernelIdeal.Frm.mem_uc Cert.KernelIdeal.main_v13 (by decide))).trans (Cert.KernelIdeal.Frm.W7_v13 m c),
       (h c _ (Cert.KernelIdeal.Frm.mem_uc Cert.KernelIdeal.main_v10 (by decide))).trans (Cert.KernelIdeal.Frm.W7_v10 m c),
       (h c _ (Cert.KernelIdeal.Frm.mem_uc Cert.KernelIdeal.main_arg0 (by decide))).trans (Cert.KernelIdeal.Frm.W7_main_arg0 m c),
       (h c _ (Cert.KernelIdeal.Frm.mem_uc Cert.KernelIdeal.main_arg1 (by decide))).trans (Cert.KernelIdeal.Frm.W7_main_arg1 m c),
       (h c _ (Cert.KernelIdeal.Frm.mem_uc Cert.KernelIdeal.main_arg2 (by decide))).trans (Cert.KernelIdeal.Frm.W7_main_arg2 m c),
       (h c _ (Cert.KernelIdeal.Frm.mem_uc Cert.KernelIdeal.main_arg3 (by decide))).trans (Cert.KernelIdeal.Frm.W7_main_arg3 m c),
       (h c _ (Cert.KernelIdeal.Frm.mem_uc Cert.KernelIdeal.main_arg4 (by decide))).trans (Cert.KernelIdeal.Frm.W7_main_arg4 m c)⟩)
      (Cert.KernelIdeal.Frm.run_all (F := Ideal) m ρ)
  · refine (θ_run Cert.ReferenceIdeal.defs _ _).mono (fun _ h c =>
      ⟨(h c).1.trans ?_, (h c).2.1.trans ?_, (h c).2.2.1.trans ?_, (h c).2.2.2.1.trans ?_, (h c).2.2.2.2.1.trans ?_, (h c).2.2.2.2.2⟩)
      (Cert.ReferenceIdeal.Value.run (F := Ideal) m' ρ')
    · rw [(hagree c).1, (hagree c).2.1, (hagree c).2.2.1, (hagree c).2.2.2.1, (hagree c).2.2.2.2]
      exact (Cert.ReferenceIdeal.Read.val_main_v41_eq _ _ _ _ _).trans (Cert.KernelIdeal.Val.res_v18_eq m c).symm
    · rw [(hagree c).1, (hagree c).2.1]
      exact (Cert.ReferenceIdeal.Read.val_main_v3_eq _ _).trans (Cert.KernelIdeal.Val.res_v4_eq m c).symm
    · rw [(hagree c).2.2.2.1, (hagree c).2.2.2.2]
      exact (Cert.ReferenceIdeal.Read.val_main_v30_eq _ _).trans (Cert.KernelIdeal.Val.res_v9_eq m c).symm
    · rw [(hagree c).2.2.1]
      exact (Cert.ReferenceIdeal.Read.val_main_v25_eq _).trans (Cert.KernelIdeal.Val.res_v13_eq m c).symm
    · rw [(hagree c).2.2.2.1]
      exact (Cert.ReferenceIdeal.Read.val_main_v36_eq _).trans (Cert.KernelIdeal.Val.res_v10_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
